-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S409600 : Shape := ⟨1, ![409600]⟩
abbrev S20480 : Shape := ⟨1, ![20480]⟩
abbrev S1000000x128 : Shape := ⟨2, ![1000000, 128]⟩
abbrev S8x128x128 : Shape := ⟨3, ![8, 128, 128]⟩
abbrev S64x8 : Shape := ⟨2, ![64, 8]⟩
abbrev S128 : Shape := ⟨1, ![128]⟩
abbrev S8x128x64 : Shape := ⟨3, ![8, 128, 64]⟩
abbrev S64 : Shape := ⟨1, ![64]⟩
abbrev S_ : Shape := ⟨0, ![]⟩

class Facts : Prop where
  bcast_S_S409600 : S_.BroadcastsInDim S409600 (![] : Fin 0 → Fin S409600.rank)
  reducesTo_S409600_S_d0 : S409600.ReducesTo [0] S_
  h_S_ : 0 < S_.numel
  bcast_S_S20480 : S_.BroadcastsInDim S20480 (![] : Fin 0 → Fin S20480.rank)
  reducesTo_S20480_S_d0 : S20480.ReducesTo [0] S_
  bcast_S_S1000000x128 : S_.BroadcastsInDim S1000000x128 (![] : Fin 0 → Fin S1000000x128.rank)
  reducesTo_S1000000x128_S_d0_1 : S1000000x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S64x8 : S_.BroadcastsInDim S64x8 (![] : Fin 0 → Fin S64x8.rank)
  reducesTo_S64x8_S_d0_1 : S64x8.ReducesTo [0, 1] S_
  bcast_S_S128 : S_.BroadcastsInDim S128 (![] : Fin 0 → Fin S128.rank)
  reducesTo_S128_S_d0 : S128.ReducesTo [0] S_
  bcast_S_S8x128x64 : S_.BroadcastsInDim S8x128x64 (![] : Fin 0 → Fin S8x128x64.rank)
  reducesTo_S8x128x64_S_d0_1_2 : S8x128x64.ReducesTo [0, 1, 2] S_
  bcast_S_S64 : S_.BroadcastsInDim S64 (![] : Fin 0 → Fin S64.rank)
  reducesTo_S64_S_d0 : S64.ReducesTo [0] S_
  bcast_S_S262144 : S_.BroadcastsInDim S262144 (![] : Fin 0 → Fin S262144.rank)
  reducesTo_S262144_S_d0 : S262144.ReducesTo [0] S_

variable [Facts]

def fn_part4 {F : FTy → Type} [FloatOps F] (main_arg5 : IVec S20480 32) (main_arg7 : IVec S20480 32) (main_v64 : IVec S_ 1) (main_v66 : IVec S20480 1) (main_c_26 : IVec S_ 32) : IVec S_ 1 :=
  let main_v67 : IVec S20480 32 := broadcastInDim S20480 ![] bcast_S_S20480 main_c_26
  let main_v68 : IVec S20480 1 := cmpi .slt main_arg5 main_v67
  let main_v69 : IVec S20480 1 := andi main_v66 main_v68
  let main_c_27 : IVec S_ 1 := constantI S_ 1 1#1
  let main_v70 : IVec S_ 1 := (fun x v => Host.reduce IntOp.andi x v reducesTo_S20480_S_d0 h_S_) main_v69 main_c_27
  let main_v71 : IVec S_ 1 := andi main_v64 main_v70
  let main_c_28 : IVec S_ 32 := constantI S_ 32 0#32
  let main_v72 : IVec S20480 32 := broadcastInDim S20480 ![] bcast_S_S20480 main_c_28
  let main_v73 : IVec S20480 1 := cmpi .sge main_arg7 main_v72
  let main_c_29 : IVec S_ 32 := constantI S_ 32 64#32
  let main_v74 : IVec S20480 32 := broadcastInDim S20480 ![] bcast_S_S20480 main_c_29
  let main_v75 : IVec S20480 1 := cmpi .slt main_arg7 main_v74
  let main_v76 : IVec S20480 1 := andi main_v73 main_v75
  let main_c_30 : IVec S_ 1 := constantI S_ 1 1#1
  let main_v77 : IVec S_ 1 := (fun x v => Host.reduce IntOp.andi x v reducesTo_S20480_S_d0 h_S_) main_v76 main_c_30
  let main_v78 : IVec S_ 1 := andi main_v71 main_v77
  main_v78

def fn_part3 {F : FTy → Type} [FloatOps F] (main_arg1 : IVec S409600 32) (main_arg3 : IVec S409600 32) (main_arg5 : IVec S20480 32) (main_arg7 : IVec S20480 32) (main_v50 : IVec S_ 1) : IVec S_ 1 :=
  let main_c_19 : IVec S_ 32 := constantI S_ 32 0#32
  let main_v51 : IVec S409600 32 := broadcastInDim S409600 ![] bcast_S_S409600 main_c_19
  let main_v52 : IVec S409600 1 := cmpi .sge main_arg1 main_v51
  let main_c_20 : IVec S_ 32 := constantI S_ 32 262144#32
  let main_v53 : IVec S409600 32 := broadcastInDim S409600 ![] bcast_S_S409600 main_c_20
  let main_v54 : IVec S409600 1 := cmpi .slt main_arg1 main_v53
  let main_v55 : IVec S409600 1 := andi main_v52 main_v54
  let main_c_21 : IVec S_ 1 := constantI S_ 1 1#1
  let main_v56 : IVec S_ 1 := (fun x v => Host.reduce IntOp.andi x v reducesTo_S409600_S_d0 h_S_) main_v55 main_c_21
  let main_v57 : IVec S_ 1 := andi main_v50 main_v56
  let main_c_22 : IVec S_ 32 := constantI S_ 32 0#32
  let main_v58 : IVec S409600 32 := broadcastInDim S409600 ![] bcast_S_S409600 main_c_22
  let main_v59 : IVec S409600 1 := cmpi .sge main_arg3 main_v58
  let main_c_23 : IVec S_ 32 := constantI S_ 32 64#32
  let main_v60 : IVec S409600 32 := broadcastInDim S409600 ![] bcast_S_S409600 main_c_23
  let main_v61 : IVec S409600 1 := cmpi .slt main_arg3 main_v60
  let main_v62 : IVec S409600 1 := andi main_v59 main_v61
  let main_c_24 : IVec S_ 1 := constantI S_ 1 1#1
  let main_v63 : IVec S_ 1 := (fun x v => Host.reduce IntOp.andi x v reducesTo_S409600_S_d0 h_S_) main_v62 main_c_24
  let main_v64 : IVec S_ 1 := andi main_v57 main_v63
  let main_c_25 : IVec S_ 32 := constantI S_ 32 0#32
  let main_v65 : IVec S20480 32 := broadcastInDim S20480 ![] bcast_S_S20480 main_c_25
  let main_v66 : IVec S20480 1 := cmpi .sge main_arg5 main_v65
  let main_c_26 : IVec S_ 32 := constantI S_ 32 16384#32
  fn_part4 (F := F) main_arg5 main_arg7 main_v64 main_v66 main_c_26

def fn_part2 {F : FTy → Type} [FloatOps F] (main_arg0 : IVec S262144 32) (main_arg1 : IVec S409600 32) (main_arg3 : IVec S409600 32) (main_arg5 : IVec S20480 32) (main_arg7 : IVec S20480 32) (main_arg14 : FVec F S64x8 .f32) (main_arg15 : FVec F S64 .f32) (main_v33 : IVec S_ 1) : IVec S_ 1 :=
  let main_v34 : FVec F S64x8 .f32 := Host.absf main_arg14
  let main_cst_12 : FVec F S_ .f32 := constant S_ .f32 0x7F800000#32
  let main_v35 : FVec F S64x8 .f32 := broadcastInDim S64x8 ![] bcast_S_S64x8 main_cst_12
  let main_v36 : IVec S64x8 1 := cmpf .olt main_v34 main_v35
  let main_c_13 : IVec S_ 1 := constantI S_ 1 1#1
  let main_v37 : IVec S_ 1 := (fun x v => Host.reduce IntOp.andi x v reducesTo_S64x8_S_d0_1 h_S_) main_v36 main_c_13
  let main_v38 : IVec S_ 1 := andi main_v33 main_v37
  let main_v39 : FVec F S64 .f32 := Host.absf main_arg15
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S262144 32 := broadcastInDim S262144 ![] bcast_S_S262144 main_c_16
  let main_v45 : IVec S262144 1 := cmpi .sge main_arg0 main_v44
  let main_c_17 : IVec S_ 32 := constantI S_ 32 1000000#32
  let main_v46 : IVec S262144 32 := broadcastInDim S262144 ![] bcast_S_S262144 main_c_17
  let main_v47 : IVec S262144 1 := cmpi .slt main_arg0 main_v46
  let main_v48 : IVec S262144 1 := andi main_v45 main_v47
  let main_c_18 : IVec S_ 1 := constantI S_ 1 1#1
  let main_v49 : IVec S_ 1 := (fun x v => Host.reduce IntOp.andi x v reducesTo_S262144_S_d0 h_S_) main_v48 main_c_18
  let main_v50 : IVec S_ 1 := andi main_v43 main_v49
  fn_part3 (F := F) main_arg1 main_arg3 main_arg5 main_arg7 main_v50

def fn_part1 {F : FTy → Type} [FloatOps F] (main_arg0 : IVec S262144 32) (main_arg1 : IVec S409600 32) (main_arg3 : IVec S409600 32) (main_arg5 : IVec S20480 32) (main_arg7 : IVec S20480 32) (main_arg11 : FVec F S64x8 .f32) (main_arg12 : FVec F S128 .f32) (main_arg13 : FVec F S8x128x64 .f32) (main_arg14 : FVec F S64x8 .f32) (main_arg15 : FVec F S64 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S64x8 .f32 := Host.absf main_arg11
  let main_cst_6 : FVec F S_ .f32 := constant S_ .f32 0x7F800000#32
  let main_v20 : FVec F S64x8 .f32 := broadcastInDim S64x8 ![] bcast_S_S64x8 main_cst_6
  let main_v21 : IVec S64x8 1 := cmpf .olt main_v19 main_v20
  let main_c_7 : IVec S_ 1 := constantI S_ 1 1#1
  let main_v22 : IVec S_ 1 := (fun x v => Host.reduce IntOp.andi x v reducesTo_S64x8_S_d0_1 h_S_) main_v21 main_c_7
  let main_v23 : IVec S_ 1 := andi main_v18 main_v22
  let main_v24 : FVec F S128 .f32 := Host.absf main_arg12
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S8x128x64 .f32 := Host.absf main_arg13
  let main_cst_10 : FVec F S_ .f32 := constant S_ .f32 0x7F800000#32
  let main_v30 : FVec F S8x128x64 .f32 := broadcastInDim S8x128x64 ![] bcast_S_S8x128x64 main_cst_10
  let main_v31 : IVec S8x128x64 1 := cmpf .olt main_v29 main_v30
  let main_c_11 : IVec S_ 1 := constantI S_ 1 1#1
  let main_v32 : IVec S_ 1 := (fun x v => Host.reduce IntOp.andi x v reducesTo_S8x128x64_S_d0_1_2 h_S_) main_v31 main_c_11
  let main_v33 : IVec S_ 1 := andi main_v28 main_v32
  fn_part2 (F := F) main_arg0 main_arg1 main_arg3 main_arg5 main_arg7 main_arg14 main_arg15 main_v33

def fn {F : FTy → Type} [FloatOps F] (main_arg0 : IVec S262144 32) (main_arg1 : IVec S409600 32) (main_arg2 : IVec S409600 32) (main_arg3 : IVec S409600 32) (main_arg4 : FVec F S409600 .f32) (main_arg5 : IVec S20480 32) (main_arg6 : IVec S20480 32) (main_arg7 : IVec S20480 32) (main_arg8 : FVec F S20480 .f32) (main_arg9 : FVec F S1000000x128 .f32) (main_arg10 : FVec F S8x128x128 .f32) (main_arg11 : FVec F S64x8 .f32) (main_arg12 : FVec F S128 .f32) (main_arg13 : FVec F S8x128x64 .f32) (main_arg14 : FVec F S64x8 .f32) (main_arg15 : FVec F S64 .f32) : IVec S_ 1 :=
  let main_v0 : FVec F S409600 .f32 := Host.absf main_arg4
  let main_cst : FVec F S_ .f32 := constant S_ .f32 0x7F800000#32
  let main_v1 : FVec F S409600 .f32 := broadcastInDim S409600 ![] bcast_S_S409600 main_cst
  let main_v2 : IVec S409600 1 := cmpf .olt main_v0 main_v1
  let main_c : IVec S_ 1 := constantI S_ 1 1#1
  let main_v3 : IVec S_ 1 := (fun x v => Host.reduce IntOp.andi x v reducesTo_S409600_S_d0 h_S_) main_v2 main_c
  let main_v4 : FVec F S20480 .f32 := Host.absf main_arg8
  let main_cst_0 : FVec F S_ .f32 := constant S_ .f32 0x7F800000#32
  let main_v5 : FVec F S20480 .f32 := broadcastInDim S20480 ![] bcast_S_S20480 main_cst_0
  let main_v6 : IVec S20480 1 := cmpf .olt main_v4 main_v5
  let main_c_1 : IVec S_ 1 := constantI S_ 1 1#1
  let main_v7 : IVec S_ 1 := (fun x v => Host.reduce IntOp.andi x v reducesTo_S20480_S_d0 h_S_) main_v6 main_c_1
  let main_v8 : IVec S_ 1 := andi main_v3 main_v7
  let main_v9 : FVec F S1000000x128 .f32 := Host.absf main_arg9
  let main_cst_2 : FVec F S_ .f32 := constant S_ .f32 0x7F800000#32
  let main_v10 : FVec F S1000000x128 .f32 := broadcastInDim S1000000x128 ![] bcast_S_S1000000x128 main_cst_2
  let main_v11 : IVec S1000000x128 1 := cmpf .olt main_v9 main_v10
  let main_c_3 : IVec S_ 1 := constantI S_ 1 1#1
  let main_v12 : IVec S_ 1 := (fun x v => Host.reduce IntOp.andi x v reducesTo_S1000000x128_S_d0_1 h_S_) main_v11 main_c_3
  let main_v13 : IVec S_ 1 := andi main_v8 main_v12
  let main_v14 : FVec F S8x128x128 .f32 := Host.absf main_arg10
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg0 main_arg1 main_arg3 main_arg5 main_arg7 main_arg11 main_arg12 main_arg13 main_arg14 main_arg15 main_v13 main_v16
-- ==== Kernel.lean ====
abbrev S262144 : Shape := ⟨1, ![262144]⟩
abbrev S409600 : Shape := ⟨1, ![409600]⟩
abbrev S20480 : Shape := ⟨1, ![20480]⟩
abbrev S1000000x128 : Shape := ⟨2, ![1000000, 128]⟩
abbrev S8x128x128 : Shape := ⟨3, ![8, 128, 128]⟩
abbrev S64x8 : Shape := ⟨2, ![64, 8]⟩
abbrev S128 : Shape := ⟨1, ![128]⟩
abbrev S8x128x64 : Shape := ⟨3, ![8, 128, 64]⟩
abbrev S64 : Shape := ⟨1, ![64]⟩
abbrev S_ : Shape := ⟨0, ![]⟩
abbrev S409600x1 : Shape := ⟨2, ![409600, 1]⟩
abbrev S1 : Shape := ⟨1, ![1]⟩
abbrev S1x1 : Shape := ⟨2, ![1, 1]⟩
abbrev S409600x128 : Shape := ⟨2, ![409600, 128]⟩
abbrev S409600x8 : Shape := ⟨2, ![409600, 8]⟩
abbrev S128x8x128 : Shape := ⟨3, ![128, 8, 128]⟩
abbrev S128x1024 : Shape := ⟨2, ![128, 1024]⟩
abbrev S2048x128 : Shape := ⟨2, ![2048, 128]⟩
abbrev S2048x8 : Shape := ⟨2, ![2048, 8]⟩
abbrev S2048x1024 : Shape := ⟨2, ![2048, 1024]⟩
abbrev S2048x1 : Shape := ⟨2, ![2048, 1]⟩
abbrev S16384x128 : Shape := ⟨2, ![16384, 128]⟩
abbrev S1x128 : Shape := ⟨2, ![1, 128]⟩
abbrev S20480x1 : Shape := ⟨2, ![20480, 1]⟩
abbrev S20480x128 : Shape := ⟨2, ![20480, 128]⟩
abbrev S20480x8 : Shape := ⟨2, ![20480, 8]⟩
abbrev S128x8x64 : Shape := ⟨3, ![128, 8, 64]⟩
abbrev S128x512 : Shape := ⟨2, ![128, 512]⟩
abbrev S20480x64 : Shape := ⟨2, ![20480, 64]⟩
abbrev S2048x64 : Shape := ⟨2, ![2048, 64]⟩
abbrev S2048x512 : Shape := ⟨2, ![2048, 512]⟩
abbrev S1024x64 : Shape := ⟨2, ![1024, 64]⟩
abbrev S1x64 : Shape := ⟨2, ![1, 64]⟩

abbrev nBuf : Space → Nat
  | .hbm => 159
  | .vmem => 14
  | .smem => 0
  | _ => 0

abbrev hbmTy0_0 (i : Nat) : BufTy := match i % 128 with
  | 0 => ⟨S262144, .i32⟩
  | 1 => ⟨S409600, .i32⟩
  | 2 => ⟨S409600, .i32⟩
  | 3 => ⟨S409600, .i32⟩
  | 4 => ⟨S409600, .f32⟩
  | 5 => ⟨S20480, .i32⟩
  | 6 => ⟨S20480, .i32⟩
  | 7 => ⟨S20480, .i32⟩
  | 8 => ⟨S20480, .f32⟩
  | 9 => ⟨S1000000x128, .f32⟩
  | 10 => ⟨S8x128x128, .f32⟩
  | 11 => ⟨S64x8, .f32⟩
  | 12 => ⟨S128, .f32⟩
  | 13 => ⟨S8x128x64, .f32⟩
  | 14 => ⟨S64x8, .f32⟩
  | 15 => ⟨S64, .f32⟩
  | 16 => ⟨S_, .i32⟩
  | 17 => ⟨S409600, .i32⟩
  | 18 => ⟨S409600, .i1⟩
  | 19 => ⟨S_, .i32⟩
  | 20 => ⟨S409600, .i32⟩
  | 21 => ⟨S409600, .i32⟩
  | 22 => ⟨S409600, .i32⟩
  | 23 => ⟨S409600x1, .i32⟩
  | 24 => ⟨S1, .i32⟩
  | 25 => ⟨S_, .i32⟩
  | 26 => ⟨S409600x1, .i32⟩
  | 27 => ⟨S409600x1, .i1⟩
  | 28 => ⟨S1x1, .i32⟩
  | 29 => ⟨S409600x1, .i32⟩
  | 30 => ⟨S409600x1, .i1⟩
  | 31 => ⟨S409600x1, .i1⟩
  | 32 => ⟨S_, .i1⟩
  | 33 => ⟨S409600, .i1⟩
  | 34 => ⟨S409600, .i32⟩
  | 35 => ⟨S_, .i32⟩
  | 36 => ⟨S409600, .i32⟩
  | 37 => ⟨S409600, .i32⟩
  | 38 => ⟨S_, .i32⟩
  | 39 => ⟨S409600, .i32⟩
  | 40 => ⟨S409600, .i1⟩
  | 41 => ⟨S_, .i32⟩
  | 42 => ⟨S409600, .i32⟩
  | 43 => ⟨S409600, .i32⟩
  | 44 => ⟨S409600, .i32⟩
  | 45 => ⟨S409600x1, .i32⟩
  | 46 => ⟨S1, .i32⟩
  | 47 => ⟨S_, .i32⟩
  | 48 => ⟨S409600x1, .i32⟩
  | 49 => ⟨S409600x1, .i1⟩
  | 50 => ⟨S1x1, .i32⟩
  | 51 => ⟨S409600x1, .i32⟩
  | 52 => ⟨S409600x1, .i1⟩
  | 53 => ⟨S409600x1, .i1⟩
  | 54 => ⟨S_, .i1⟩
  | 55 => ⟨S409600, .i1⟩
  | 56 => ⟨S409600x128, .f32⟩
  | 57 => ⟨S409600x128, .i1⟩
  | 58 => ⟨S_, .f32⟩
  | 59 => ⟨S409600x128, .f32⟩
  | 60 => ⟨S409600x128, .f32⟩
  | 61 => ⟨S_, .i32⟩
  | 62 => ⟨S409600, .i32⟩
  | 63 => ⟨S409600, .i1⟩
  | 64 => ⟨S_, .i32⟩
  | 65 => ⟨S409600, .i32⟩
  | 66 => ⟨S409600, .i32⟩
  | 67 => ⟨S409600, .i32⟩
  | 68 => ⟨S409600x1, .i32⟩
  | 69 => ⟨S1, .i32⟩
  | 70 => ⟨S_, .i32⟩
  | 71 => ⟨S409600x1, .i32⟩
  | 72 => ⟨S409600x1, .i1⟩
  | 73 => ⟨S1x1, .i32⟩
  | 74 => ⟨S409600x1, .i32⟩
  | 75 => ⟨S409600x1, .i1⟩
  | 76 => ⟨S409600x1, .i1⟩
  | 77 => ⟨S_, .i1⟩
  | 78 => ⟨S409600, .i1⟩
  | 79 => ⟨S409600x8, .f32⟩
  | 80 => ⟨S409600x8, .i1⟩
  | 81 => ⟨S_, .f32⟩
  | 82 => ⟨S409600x8, .f32⟩
  | 83 => ⟨S409600x8, .f32⟩
  | 84 => ⟨S409600x1, .f32⟩
  | 85 => ⟨S409600x8, .f32⟩
  | 86 => ⟨S409600x8, .f32⟩
  | 87 => ⟨S128x8x128, .f32⟩
  | 88 => ⟨S128x1024, .f32⟩
  | 89 => ⟨S409600x128, .f32⟩
  | 90 => ⟨S_, .f32⟩
  | 91 => ⟨S16384x128, .f32⟩
  | 92 => ⟨S409600x1, .i32⟩
  | 93 => ⟨S16384x128, .f32⟩
  | 94 => ⟨S1x128, .f32⟩
  | 95 => ⟨S16384x128, .f32⟩
  | 96 => ⟨S16384x128, .f32⟩
  | 97 => ⟨S_, .f32⟩
  | 98 => ⟨S16384x128, .f32⟩
  | 99 => ⟨S16384x128, .f32⟩
  | 100 => ⟨S_, .i32⟩
  | 101 => ⟨S20480, .i32⟩
  | 102 => ⟨S20480, .i1⟩
  | 103 => ⟨S_, .i32⟩
  | 104 => ⟨S20480, .i32⟩
  | 105 => ⟨S20480, .i32⟩
  | 106 => ⟨S20480, .i32⟩
  | 107 => ⟨S20480x1, .i32⟩
  | 108 => ⟨S1, .i32⟩
  | 109 => ⟨S_, .i32⟩
  | 110 => ⟨S20480x1, .i32⟩
  | 111 => ⟨S20480x1, .i1⟩
  | 112 => ⟨S1x1, .i32⟩
  | 113 => ⟨S20480x1, .i32⟩
  | 114 => ⟨S20480x1, .i1⟩
  | 115 => ⟨S20480x1, .i1⟩
  | 116 => ⟨S_, .i1⟩
  | 117 => ⟨S20480, .i1⟩
  | 118 => ⟨S20480x128, .f32⟩
  | 119 => ⟨S20480x128, .i1⟩
  | 120 => ⟨S_, .f32⟩
  | 121 => ⟨S20480x128, .f32⟩
  | 122 => ⟨S20480x128, .f32⟩
  | 123 => ⟨S_, .i32⟩
  | 124 => ⟨S20480, .i32⟩
  | 125 => ⟨S20480, .i1⟩
  | 126 => ⟨S_, .i32⟩
  | 127 => ⟨S20480, .i32⟩
  | _ => ⟨S262144, .i32⟩

abbrev hbmTy0_1 (i : Nat) : BufTy := match i % 128 with
  | 0 => ⟨S20480, .i32⟩
  | 1 => ⟨S20480, .i32⟩
  | 2 => ⟨S20480x1, .i32⟩
  | 3 => ⟨S1, .i32⟩
  | 4 => ⟨S_, .i32⟩
  | 5 => ⟨S20480x1, .i32⟩
  | 6 => ⟨S20480x1, .i1⟩
  | 7 => ⟨S1x1, .i32⟩
  | 8 => ⟨S20480x1, .i32⟩
  | 9 => ⟨S20480x1, .i1⟩
  | 10 => ⟨S20480x1, .i1⟩
  | 11 => ⟨S_, .i1⟩
  | 12 => ⟨S20480, .i1⟩
  | 13 => ⟨S20480x8, .f32⟩
  | 14 => ⟨S20480x8, .i1⟩
  | 15 => ⟨S_, .f32⟩
  | 16 => ⟨S20480x8, .f32⟩
  | 17 => ⟨S20480x8, .f32⟩
  | 18 => ⟨S20480x1, .f32⟩
  | 19 => ⟨S20480x8, .f32⟩
  | 20 => ⟨S20480x8, .f32⟩
  | 21 => ⟨S128x8x64, .f32⟩
  | 22 => ⟨S128x512, .f32⟩
  | 23 => ⟨S20480x64, .f32⟩
  | 24 => ⟨S_, .f32⟩
  | 25 => ⟨S1024x64, .f32⟩
  | 26 => ⟨S20480x1, .i32⟩
  | 27 => ⟨S1024x64, .f32⟩
  | 28 => ⟨S1x64, .f32⟩
  | 29 => ⟨S1024x64, .f32⟩
  | 30 => ⟨S1024x64, .f32⟩
  | _ => ⟨S262144, .i32⟩

abbrev hbmTy (i : Nat) : BufTy := match i / 128 with
  | 0 => hbmTy0_0 i
  | 1 => hbmTy0_1 i
  | _ => ⟨S262144, .i32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x8, .f32⟩
  | .local _ .vmem, ⟨3, _⟩ => ⟨S2048x8, .f32⟩
  | .local _ .vmem, ⟨4, _⟩ => ⟨S128x1024, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x8, .f32⟩
  | .local _ .vmem, ⟨10, _⟩ => ⟨S2048x8, .f32⟩
  | .local _ .vmem, ⟨11, _⟩ => ⟨S128x512, .f32⟩
  | .local _ .vmem, ⟨12, _⟩ => ⟨S2048x64, .f32⟩
  | .local _ .vmem, ⟨13, _⟩ => ⟨S2048x64, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_c_4 : Ref sig .tc := ⟨.hbm, 35, rfl⟩
abbrev main_call0_v14 : Ref sig .tc := ⟨.hbm, 36, rfl⟩
abbrev main_v0 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v1 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v2 : Ref sig .tc := ⟨.hbm, 83, rfl⟩
abbrev main_v3 : Ref sig .tc := ⟨.hbm, 84, rfl⟩
abbrev main_v4 : Ref sig .tc := ⟨.hbm, 85, rfl⟩
abbrev main_v5 : Ref sig .tc := ⟨.hbm, 86, rfl⟩
abbrev main_v6 : Ref sig .tc := ⟨.hbm, 87, rfl⟩
abbrev main_v7 : Ref sig .tc := ⟨.hbm, 88, rfl⟩
abbrev main_v8 : Ref sig .tc := ⟨.hbm, 89, rfl⟩
abbrev main_cst : Ref sig .tc := ⟨.hbm, 90, rfl⟩
abbrev main_v9 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_v14 : Ref sig .tc := ⟨.hbm, 96, rfl⟩
abbrev main_call3_cst : Ref sig .tc := ⟨.hbm, 97, rfl⟩
abbrev main_call3_v0 : Ref sig .tc := ⟨.hbm, 98, rfl⟩
abbrev main_v15 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_call4_cst : Ref sig .tc := ⟨.hbm, 120, rfl⟩
abbrev main_call4_v15 : Ref sig .tc := ⟨.hbm, 121, rfl⟩
abbrev main_v16 : Ref sig .tc := ⟨.hbm, 122, rfl⟩
abbrev main_call5_c : Ref sig .tc := ⟨.hbm, 123, rfl⟩
abbrev main_call5_v0 : Ref sig .tc := ⟨.hbm, 124, rfl⟩
abbrev main_call5_v1 : Ref sig .tc := ⟨.hbm, 125, rfl⟩
abbrev main_call5_c_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_c_1 : Ref sig .tc := ⟨.hbm, 131, rfl⟩
abbrev main_call5_c_2 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_c_3 : Ref sig .tc := ⟨.hbm, 139, rfl⟩
abbrev main_call5_v12 : Ref sig .tc := ⟨.hbm, 140, rfl⟩
abbrev main_call5_v13 : Ref sig .tc := ⟨.hbm, 141, rfl⟩
abbrev main_call5_v14 : Ref sig .tc := ⟨.hbm, 142, rfl⟩
abbrev main_call5_cst : Ref sig .tc := ⟨.hbm, 143, rfl⟩
abbrev main_call5_v15 : Ref sig .tc := ⟨.hbm, 144, rfl⟩
abbrev main_v17 : Ref sig .tc := ⟨.hbm, 145, rfl⟩
abbrev main_v18 : Ref sig .tc := ⟨.hbm, 146, rfl⟩
abbrev main_v19 : Ref sig .tc := ⟨.hbm, 147, rfl⟩
abbrev main_v20 : Ref sig .tc := ⟨.hbm, 148, rfl⟩
abbrev main_v21 : Ref sig .tc := ⟨.hbm, 149, rfl⟩
abbrev main_v22 : Ref sig .tc := ⟨.hbm, 150, rfl⟩
abbrev main_v23 : Ref sig .tc := ⟨.hbm, 151, rfl⟩
abbrev main_cst_0 : Ref sig .tc := ⟨.hbm, 152, rfl⟩
abbrev main_v24 : Ref sig .tc := ⟨.hbm, 153, rfl⟩
abbrev main_v25 : Ref sig .tc := ⟨.hbm, 154, rfl⟩
abbrev main_v26 : Ref sig .tc := ⟨.hbm, 155, rfl⟩
abbrev main_v27 : Ref sig .tc := ⟨.hbm, 156, rfl⟩
abbrev main_v28 : Ref sig .tc := ⟨.hbm, 157, rfl⟩
abbrev main_v29 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S409600 : S_.BroadcastsInDim S409600 (![] : Fin 0 → Fin S409600.rank)
  bcast_S409600_S409600x1_0 : S409600.BroadcastsInDim S409600x1 (![0] : Fin 1 → Fin S409600x1.rank)
  bcast_S_S409600x1 : S_.BroadcastsInDim S409600x1 (![] : Fin 0 → Fin S409600x1.rank)
  bcast_S1_S1x1_1 : S1.BroadcastsInDim S1x1 (![1] : Fin 1 → Fin S1x1.rank)
  bcast_S1x1_S409600x1_0_1 : S1x1.BroadcastsInDim S409600x1 (![0, 1] : Fin 2 → Fin S409600x1.rank)
  reducesTo_S409600x1_S409600_d1 : S409600x1.ReducesTo [1] S409600
  h_S_ : 0 < S_.numel
  bcast_S409600_S409600x128_0 : S409600.BroadcastsInDim S409600x128 (![0] : Fin 1 → Fin S409600x128.rank)
  bcast_S_S409600x128 : S_.BroadcastsInDim S409600x128 (![] : Fin 0 → Fin S409600x128.rank)
  bcast_S409600_S409600x8_0 : S409600.BroadcastsInDim S409600x8 (![0] : Fin 1 → Fin S409600x8.rank)
  bcast_S_S409600x8 : S_.BroadcastsInDim S409600x8 (![] : Fin 0 → Fin S409600x8.rank)
  bcast_S409600x1_S409600x8_0_1 : S409600x1.BroadcastsInDim S409600x8 (![0, 1] : Fin 2 → Fin S409600x8.rank)
  transposes_S8x128x128_S128x8x128_1_0_2 : S8x128x128.Transposes [1, 0, 2] S128x8x128
  shapeCasts_S128x8x128_S128x1024 : S128x8x128.ShapeCasts S128x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  slices_S2048x1024_o0_0_S2048x128 : S2048x1024.Slices ![0, 0] S2048x128
  slices_S2048x8_o0_0_S2048x1 : S2048x8.Slices ![0, 0] S2048x1
  broadcasts_S2048x1_S2048x128 : S2048x1.Broadcasts S2048x128
  slices_S2048x1024_o0_128_S2048x128 : S2048x1024.Slices ![0, 128] S2048x128
  slices_S2048x8_o0_1_S2048x1 : S2048x8.Slices ![0, 1] S2048x1
  slices_S2048x1024_o0_256_S2048x128 : S2048x1024.Slices ![0, 256] S2048x128
  slices_S2048x8_o0_2_S2048x1 : S2048x8.Slices ![0, 2] S2048x1
  slices_S2048x1024_o0_384_S2048x128 : S2048x1024.Slices ![0, 384] S2048x128
  slices_S2048x8_o0_3_S2048x1 : S2048x8.Slices ![0, 3] S2048x1
  slices_S2048x1024_o0_512_S2048x128 : S2048x1024.Slices ![0, 512] S2048x128
  slices_S2048x8_o0_4_S2048x1 : S2048x8.Slices ![0, 4] S2048x1
  slices_S2048x1024_o0_640_S2048x128 : S2048x1024.Slices ![0, 640] S2048x128
  slices_S2048x8_o0_5_S2048x1 : S2048x8.Slices ![0, 5] S2048x1
  slices_S2048x1024_o0_768_S2048x128 : S2048x1024.Slices ![0, 768] S2048x128
  slices_S2048x8_o0_6_S2048x1 : S2048x8.Slices ![0, 6] S2048x1
  slices_S2048x1024_o0_896_S2048x128 : S2048x1024.Slices ![0, 896] S2048x128
  slices_S2048x8_o0_7_S2048x1 : S2048x8.Slices ![0, 7] S2048x1
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S20480 : S_.BroadcastsInDim S20480 (![] : Fin 0 → Fin S20480.rank)
  bcast_S20480_S20480x1_0 : S20480.BroadcastsInDim S20480x1 (![0] : Fin 1 → Fin S20480x1.rank)
  bcast_S_S20480x1 : S_.BroadcastsInDim S20480x1 (![] : Fin 0 → Fin S20480x1.rank)
  bcast_S1x1_S20480x1_0_1 : S1x1.BroadcastsInDim S20480x1 (![0, 1] : Fin 2 → Fin S20480x1.rank)
  reducesTo_S20480x1_S20480_d1 : S20480x1.ReducesTo [1] S20480
  bcast_S20480_S20480x128_0 : S20480.BroadcastsInDim S20480x128 (![0] : Fin 1 → Fin S20480x128.rank)
  bcast_S_S20480x128 : S_.BroadcastsInDim S20480x128 (![] : Fin 0 → Fin S20480x128.rank)
  bcast_S20480_S20480x8_0 : S20480.BroadcastsInDim S20480x8 (![0] : Fin 1 → Fin S20480x8.rank)
  bcast_S_S20480x8 : S_.BroadcastsInDim S20480x8 (![] : Fin 0 → Fin S20480x8.rank)
  bcast_S20480x1_S20480x8_0_1 : S20480x1.BroadcastsInDim S20480x8 (![0, 1] : Fin 2 → Fin S20480x8.rank)
  transposes_S8x128x64_S128x8x64_1_0_2 : S8x128x64.Transposes [1, 0, 2] S128x8x64
  shapeCasts_S128x8x64_S128x512 : S128x8x64.ShapeCasts S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S2048x512_o0_0_S2048x64 : S2048x512.Slices ![0, 0] S2048x64
  broadcasts_S2048x1_S2048x64 : S2048x1.Broadcasts S2048x64
  slices_S2048x512_o0_64_S2048x64 : S2048x512.Slices ![0, 64] S2048x64
  slices_S2048x512_o0_128_S2048x64 : S2048x512.Slices ![0, 128] S2048x64
  slices_S2048x512_o0_192_S2048x64 : S2048x512.Slices ![0, 192] S2048x64
  slices_S2048x512_o0_256_S2048x64 : S2048x512.Slices ![0, 256] S2048x64
  slices_S2048x512_o0_320_S2048x64 : S2048x512.Slices ![0, 320] S2048x64
  slices_S2048x512_o0_384_S2048x64 : S2048x512.Slices ![0, 384] S2048x64
  slices_S2048x512_o0_448_S2048x64 : S2048x512.Slices ![0, 448] S2048x64
  inb_S2048x64_S2048x64_0_0 : ∀ a, (![0, 0] : Fin 2 → Nat) a + S2048x64.size a ≤ S2048x64.size a
  h_S2048x64 : 0 < S2048x64.numel
  bcast_S_S1024x64 : S_.BroadcastsInDim S1024x64 (![] : Fin 0 → Fin S1024x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  gather_S262144_S409600x1_S409600_n_0_n_n_0_1_1_wf : GatherDims.WF S262144 S409600x1 S409600 [] [0] [] [0] [] 1 ![1]
  gather_S1000000x128_S409600x1_S409600x128_1_0_n_n_0_1_1128_wf : GatherDims.WF S1000000x128 S409600x1 S409600x128 [1] [0] [] [0] [] 1 ![1, 128]
  gather_S64x8_S409600x1_S409600x8_1_0_n_n_0_1_18_wf : GatherDims.WF S64x8 S409600x1 S409600x8 [1] [0] [] [0] [] 1 ![1, 8]
  dot_S2048x128_S128x1024_S2048x1024_1_0_0_1_n_n_wf : DotDims.WF S2048x128 S128x1024 S2048x1024 [1] [0] [0] [1] [] []
  scatter_S16384x128_S409600x1_S409600x128_1_0_0_1_wf : ScatterDims.WF S16384x128 S409600x1 S409600x128 [1] [0] [0] 1
  gather_S16384x128_S20480x1_S20480x128_1_0_n_n_0_1_1128_wf : GatherDims.WF S16384x128 S20480x1 S20480x128 [1] [0] [] [0] [] 1 ![1, 128]
  gather_S64x8_S20480x1_S20480x8_1_0_n_n_0_1_18_wf : GatherDims.WF S64x8 S20480x1 S20480x8 [1] [0] [] [0] [] 1 ![1, 8]
  dot_S2048x128_S128x512_S2048x512_1_0_0_1_n_n_wf : DotDims.WF S2048x128 S128x512 S2048x512 [1] [0] [0] [1] [] []
  scatter_S1024x64_S20480x1_S20480x64_1_0_0_1_wf : ScatterDims.WF S1024x64 S20480x1 S20480x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S409600x128.size a
  hwx0_0 : ∀ i : grid0.Coords, EltTy.bits .f32 = 32 ∨ (Rect.block (s := S409600x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S409600x8.size a
  hwx0_1 : ∀ i : grid0.Coords, EltTy.bits .f32 = 32 ∨ (Rect.block (s := S409600x8) S2048x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S409600x128.size a
  hwx0_3 : ∀ i : grid0.Coords, EltTy.bits .f32 = 32 ∨ (Rect.block (s := S409600x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S20480x128.size a
  hwx1_0 : ∀ i : grid1.Coords, EltTy.bits .f32 = 32 ∨ (Rect.block (s := S20480x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S20480x8.size a
  hwx1_1 : ∀ i : grid1.Coords, EltTy.bits .f32 = 32 ∨ (Rect.block (s := S20480x8) S2048x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S20480x64.size a
  hwx1_3 : ∀ i : grid1.Coords, EltTy.bits .f32 = 32 ∨ (Rect.block (s := S20480x64) S2048x64.size (cc1_transform_3 i) (hinb1_3 i)).WholeWords (EltTy.packing .f32)

variable [Facts₀]

def gather_S262144_S409600x1_S409600_n_0_n_n_0_1_1 : GatherDims S262144 S409600x1 S409600 where
  offsetDims := []
  collapsedSliceDims := [0]
  operandBatchingDims := []
  startIndicesBatchingDims := []
  startIndexMap := [0]
  indexVectorDim := 1
  sliceSizes := ![1]
  wf := gather_S262144_S409600x1_S409600_n_0_n_n_0_1_1_wf
def gather_S1000000x128_S409600x1_S409600x128_1_0_n_n_0_1_1128 : GatherDims S1000000x128 S409600x1 S409600x128 where
  offsetDims := [1]
  collapsedSliceDims := [0]
  operandBatchingDims := []
  startIndicesBatchingDims := []
  startIndexMap := [0]
  indexVectorDim := 1
  sliceSizes := ![1, 128]
  wf := gather_S1000000x128_S409600x1_S409600x128_1_0_n_n_0_1_1128_wf
def gather_S64x8_S409600x1_S409600x8_1_0_n_n_0_1_18 : GatherDims S64x8 S409600x1 S409600x8 where
  offsetDims := [1]
  collapsedSliceDims := [0]
  operandBatchingDims := []
  startIndicesBatchingDims := []
  startIndexMap := [0]
  indexVectorDim := 1
  sliceSizes := ![1, 8]
  wf := gather_S64x8_S409600x1_S409600x8_1_0_n_n_0_1_18_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def scatter_S16384x128_S409600x1_S409600x128_1_0_0_1 : ScatterDims S16384x128 S409600x1 S409600x128 where
  updateWindowDims := [1]
  insertedWindowDims := [0]
  scatterDimsToOperandDims := [0]
  indexVectorDim := 1
  wf := scatter_S16384x128_S409600x1_S409600x128_1_0_0_1_wf
def gather_S16384x128_S20480x1_S20480x128_1_0_n_n_0_1_1128 : GatherDims S16384x128 S20480x1 S20480x128 where
  offsetDims := [1]
  collapsedSliceDims := [0]
  operandBatchingDims := []
  startIndicesBatchingDims := []
  startIndexMap := [0]
  indexVectorDim := 1
  sliceSizes := ![1, 128]
  wf := gather_S16384x128_S20480x1_S20480x128_1_0_n_n_0_1_1128_wf
def gather_S64x8_S20480x1_S20480x8_1_0_n_n_0_1_18 : GatherDims S64x8 S20480x1 S20480x8 where
  offsetDims := [1]
  collapsedSliceDims := [0]
  operandBatchingDims := []
  startIndicesBatchingDims := []
  startIndexMap := [0]
  indexVectorDim := 1
  sliceSizes := ![1, 8]
  wf := gather_S64x8_S20480x1_S20480x8_1_0_n_n_0_1_18_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def scatter_S1024x64_S20480x1_S20480x64_1_0_0_1 : ScatterDims S1024x64 S20480x1 S20480x64 where
  updateWindowDims := [1]
  insertedWindowDims := [0]
  scatterDimsToOperandDims := [0]
  indexVectorDim := 1
  wf := scatter_S1024x64_S20480x1_S20480x64_1_0_0_1_wf

abbrev win0_0 : Pipeline.Window sig grid0 :=
  Pipeline.Window.ofSpec (Memref.whole main_v1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2048x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144 : Shape := ⟨1, ![262144]⟩
abbrev S409600 : Shape := ⟨1, ![409600]⟩
abbrev S20480 : Shape := ⟨1, ![20480]⟩
abbrev S1000000x128 : Shape := ⟨2, ![1000000, 128]⟩
abbrev S8x128x128 : Shape := ⟨3, ![8, 128, 128]⟩
abbrev S64x8 : Shape := ⟨2, ![64, 8]⟩
abbrev S128 : Shape := ⟨1, ![128]⟩
abbrev S8x128x64 : Shape := ⟨3, ![8, 128, 64]⟩
abbrev S64 : Shape := ⟨1, ![64]⟩
abbrev S_ : Shape := ⟨0, ![]⟩
abbrev S262144x1 : Shape := ⟨2, ![262144, 1]⟩
abbrev S262144x128 : Shape := ⟨2, ![262144, 128]⟩
abbrev S409600x1 : Shape := ⟨2, ![409600, 1]⟩
abbrev S409600x128 : Shape := ⟨2, ![409600, 128]⟩
abbrev S409600x8 : Shape := ⟨2, ![409600, 8]⟩
abbrev S1x128x128 : Shape := ⟨3, ![1, 128, 128]⟩
abbrev S128x128 : Shape := ⟨2, ![128, 128]⟩
abbrev S16384x128 : Shape := ⟨2, ![16384, 128]⟩
abbrev S1x128 : Shape := ⟨2, ![1, 128]⟩
abbrev S20480x1 : Shape := ⟨2, ![20480, 1]⟩
abbrev S20480x128 : Shape := ⟨2, ![20480, 128]⟩
abbrev S20480x8 : Shape := ⟨2, ![20480, 8]⟩
abbrev S20480x64 : Shape := ⟨2, ![20480, 64]⟩
abbrev S1x128x64 : Shape := ⟨3, ![1, 128, 64]⟩
abbrev S128x64 : Shape := ⟨2, ![128, 64]⟩
abbrev S1024x64 : Shape := ⟨2, ![1024, 64]⟩
abbrev S1x64 : Shape := ⟨2, ![1, 64]⟩

abbrev nBuf : Space → Nat
  | .hbm => 200
  | .vmem => 0
  | .smem => 0
  | _ => 0

abbrev hbmTy0_0 (i : Nat) : BufTy := match i % 128 with
  | 0 => ⟨S262144, .i32⟩
  | 1 => ⟨S409600, .i32⟩
  | 2 => ⟨S409600, .i32⟩
  | 3 => ⟨S409600, .i32⟩
  | 4 => ⟨S409600, .f32⟩
  | 5 => ⟨S20480, .i32⟩
  | 6 => ⟨S20480, .i32⟩
  | 7 => ⟨S20480, .i32⟩
  | 8 => ⟨S20480, .f32⟩
  | 9 => ⟨S1000000x128, .f32⟩
  | 10 => ⟨S8x128x128, .f32⟩
  | 11 => ⟨S64x8, .f32⟩
  | 12 => ⟨S128, .f32⟩
  | 13 => ⟨S8x128x64, .f32⟩
  | 14 => ⟨S64x8, .f32⟩
  | 15 => ⟨S64, .f32⟩
  | 16 => ⟨S_, .i32⟩
  | 17 => ⟨S262144, .i32⟩
  | 18 => ⟨S262144, .i1⟩
  | 19 => ⟨S_, .i32⟩
  | 20 => ⟨S262144, .i32⟩
  | 21 => ⟨S262144, .i32⟩
  | 22 => ⟨S262144, .i32⟩
  | 23 => ⟨S262144x1, .i32⟩
  | 24 => ⟨S262144x128, .f32⟩
  | 25 => ⟨S_, .i32⟩
  | 26 => ⟨S409600, .i32⟩
  | 27 => ⟨S409600, .i1⟩
  | 28 => ⟨S_, .i32⟩
  | 29 => ⟨S409600, .i32⟩
  | 30 => ⟨S409600, .i32⟩
  | 31 => ⟨S409600, .i32⟩
  | 32 => ⟨S409600x1, .i32⟩
  | 33 => ⟨S409600x128, .f32⟩
  | 34 => ⟨S_, .i32⟩
  | 35 => ⟨S409600, .i32⟩
  | 36 => ⟨S409600, .i1⟩
  | 37 => ⟨S_, .i32⟩
  | 38 => ⟨S409600, .i32⟩
  | 39 => ⟨S409600, .i32⟩
  | 40 => ⟨S409600, .i32⟩
  | 41 => ⟨S409600x1, .i32⟩
  | 42 => ⟨S409600x8, .f32⟩
  | 43 => ⟨S_, .f32⟩
  | 44 => ⟨S409600x128, .f32⟩
  | 45 => ⟨S409600x1, .f32⟩
  | 46 => ⟨S1x128x128, .f32⟩
  | 47 => ⟨S128x128, .f32⟩
  | 48 => ⟨S409600x128, .f32⟩
  | 49 => ⟨S409600x128, .f32⟩
  | 50 => ⟨S409600x128, .f32⟩
  | 51 => ⟨S409600x128, .f32⟩
  | 52 => ⟨S409600x1, .f32⟩
  | 53 => ⟨S1x128x128, .f32⟩
  | 54 => ⟨S128x128, .f32⟩
  | 55 => ⟨S409600x128, .f32⟩
  | 56 => ⟨S409600x128, .f32⟩
  | 57 => ⟨S409600x128, .f32⟩
  | 58 => ⟨S409600x128, .f32⟩
  | 59 => ⟨S409600x1, .f32⟩
  | 60 => ⟨S1x128x128, .f32⟩
  | 61 => ⟨S128x128, .f32⟩
  | 62 => ⟨S409600x128, .f32⟩
  | 63 => ⟨S409600x128, .f32⟩
  | 64 => ⟨S409600x128, .f32⟩
  | 65 => ⟨S409600x128, .f32⟩
  | 66 => ⟨S409600x1, .f32⟩
  | 67 => ⟨S1x128x128, .f32⟩
  | 68 => ⟨S128x128, .f32⟩
  | 69 => ⟨S409600x128, .f32⟩
  | 70 => ⟨S409600x128, .f32⟩
  | 71 => ⟨S409600x128, .f32⟩
  | 72 => ⟨S409600x128, .f32⟩
  | 73 => ⟨S409600x1, .f32⟩
  | 74 => ⟨S1x128x128, .f32⟩
  | 75 => ⟨S128x128, .f32⟩
  | 76 => ⟨S409600x128, .f32⟩
  | 77 => ⟨S409600x128, .f32⟩
  | 78 => ⟨S409600x128, .f32⟩
  | 79 => ⟨S409600x128, .f32⟩
  | 80 => ⟨S409600x1, .f32⟩
  | 81 => ⟨S1x128x128, .f32⟩
  | 82 => ⟨S128x128, .f32⟩
  | 83 => ⟨S409600x128, .f32⟩
  | 84 => ⟨S409600x128, .f32⟩
  | 85 => ⟨S409600x128, .f32⟩
  | 86 => ⟨S409600x128, .f32⟩
  | 87 => ⟨S409600x1, .f32⟩
  | 88 => ⟨S1x128x128, .f32⟩
  | 89 => ⟨S128x128, .f32⟩
  | 90 => ⟨S409600x128, .f32⟩
  | 91 => ⟨S409600x128, .f32⟩
  | 92 => ⟨S409600x128, .f32⟩
  | 93 => ⟨S409600x128, .f32⟩
  | 94 => ⟨S409600x1, .f32⟩
  | 95 => ⟨S1x128x128, .f32⟩
  | 96 => ⟨S128x128, .f32⟩
  | 97 => ⟨S409600x128, .f32⟩
  | 98 => ⟨S409600x128, .f32⟩
  | 99 => ⟨S409600x128, .f32⟩
  | 100 => ⟨S409600x128, .f32⟩
  | 101 => ⟨S409600x1, .f32⟩
  | 102 => ⟨S409600x128, .f32⟩
  | 103 => ⟨S409600x128, .f32⟩
  | 104 => ⟨S_, .f32⟩
  | 105 => ⟨S16384x128, .f32⟩
  | 106 => ⟨S409600x1, .i32⟩
  | 107 => ⟨S16384x128, .f32⟩
  | 108 => ⟨S1x128, .f32⟩
  | 109 => ⟨S16384x128, .f32⟩
  | 110 => ⟨S16384x128, .f32⟩
  | 111 => ⟨S_, .f32⟩
  | 112 => ⟨S16384x128, .f32⟩
  | 113 => ⟨S16384x128, .f32⟩
  | 114 => ⟨S_, .i32⟩
  | 115 => ⟨S20480, .i32⟩
  | 116 => ⟨S20480, .i1⟩
  | 117 => ⟨S_, .i32⟩
  | 118 => ⟨S20480, .i32⟩
  | 119 => ⟨S20480, .i32⟩
  | 120 => ⟨S20480, .i32⟩
  | 121 => ⟨S20480x1, .i32⟩
  | 122 => ⟨S20480x128, .f32⟩
  | 123 => ⟨S_, .i32⟩
  | 124 => ⟨S20480, .i32⟩
  | 125 => ⟨S20480, .i1⟩
  | 126 => ⟨S_, .i32⟩
  | 127 => ⟨S20480, .i32⟩
  | _ => ⟨S262144, .i32⟩

abbrev hbmTy0_1 (i : Nat) : BufTy := match i % 128 with
  | 0 => ⟨S20480, .i32⟩
  | 1 => ⟨S20480, .i32⟩
  | 2 => ⟨S20480x1, .i32⟩
  | 3 => ⟨S20480x8, .f32⟩
  | 4 => ⟨S_, .f32⟩
  | 5 => ⟨S20480x64, .f32⟩
  | 6 => ⟨S20480x1, .f32⟩
  | 7 => ⟨S1x128x64, .f32⟩
  | 8 => ⟨S128x64, .f32⟩
  | 9 => ⟨S20480x64, .f32⟩
  | 10 => ⟨S20480x64, .f32⟩
  | 11 => ⟨S20480x64, .f32⟩
  | 12 => ⟨S20480x64, .f32⟩
  | 13 => ⟨S20480x1, .f32⟩
  | 14 => ⟨S1x128x64, .f32⟩
  | 15 => ⟨S128x64, .f32⟩
  | 16 => ⟨S20480x64, .f32⟩
  | 17 => ⟨S20480x64, .f32⟩
  | 18 => ⟨S20480x64, .f32⟩
  | 19 => ⟨S20480x64, .f32⟩
  | 20 => ⟨S20480x1, .f32⟩
  | 21 => ⟨S1x128x64, .f32⟩
  | 22 => ⟨S128x64, .f32⟩
  | 23 => ⟨S20480x64, .f32⟩
  | 24 => ⟨S20480x64, .f32⟩
  | 25 => ⟨S20480x64, .f32⟩
  | 26 => ⟨S20480x64, .f32⟩
  | 27 => ⟨S20480x1, .f32⟩
  | 28 => ⟨S1x128x64, .f32⟩
  | 29 => ⟨S128x64, .f32⟩
  | 30 => ⟨S20480x64, .f32⟩
  | 31 => ⟨S20480x64, .f32⟩
  | 32 => ⟨S20480x64, .f32⟩
  | 33 => ⟨S20480x64, .f32⟩
  | 34 => ⟨S20480x1, .f32⟩
  | 35 => ⟨S1x128x64, .f32⟩
  | 36 => ⟨S128x64, .f32⟩
  | 37 => ⟨S20480x64, .f32⟩
  | 38 => ⟨S20480x64, .f32⟩
  | 39 => ⟨S20480x64, .f32⟩
  | 40 => ⟨S20480x64, .f32⟩
  | 41 => ⟨S20480x1, .f32⟩
  | 42 => ⟨S1x128x64, .f32⟩
  | 43 => ⟨S128x64, .f32⟩
  | 44 => ⟨S20480x64, .f32⟩
  | 45 => ⟨S20480x64, .f32⟩
  | 46 => ⟨S20480x64, .f32⟩
  | 47 => ⟨S20480x64, .f32⟩
  | 48 => ⟨S20480x1, .f32⟩
  | 49 => ⟨S1x128x64, .f32⟩
  | 50 => ⟨S128x64, .f32⟩
  | 51 => ⟨S20480x64, .f32⟩
  | 52 => ⟨S20480x64, .f32⟩
  | 53 => ⟨S20480x64, .f32⟩
  | 54 => ⟨S20480x64, .f32⟩
  | 55 => ⟨S20480x1, .f32⟩
  | 56 => ⟨S1x128x64, .f32⟩
  | 57 => ⟨S128x64, .f32⟩
  | 58 => ⟨S20480x64, .f32⟩
  | 59 => ⟨S20480x64, .f32⟩
  | 60 => ⟨S20480x64, .f32⟩
  | 61 => ⟨S20480x64, .f32⟩
  | 62 => ⟨S20480x1, .f32⟩
  | 63 => ⟨S20480x64, .f32⟩
  | 64 => ⟨S20480x64, .f32⟩
  | 65 => ⟨S_, .f32⟩
  | 66 => ⟨S1024x64, .f32⟩
  | 67 => ⟨S20480x1, .i32⟩
  | 68 => ⟨S1024x64, .f32⟩
  | 69 => ⟨S1x64, .f32⟩
  | 70 => ⟨S1024x64, .f32⟩
  | 71 => ⟨S1024x64, .f32⟩
  | _ => ⟨S262144, .i32⟩

abbrev hbmTy (i : Nat) : BufTy := match i / 128 with
  | 0 => hbmTy0_0 i
  | 1 => hbmTy0_1 i
  | _ => ⟨S262144, .i32⟩

abbrev bufTy : (tb : Table) → Fin (tcTables nBuf tb) → BufTy
  | .hbm, ⟨i, _⟩ => hbmTy i
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_5 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_call0_cst : Ref sig .tc := ⟨.hbm, 111, rfl⟩
abbrev main_call0_v0 : Ref sig .tc := ⟨.hbm, 112, rfl⟩
abbrev main_v87 : Ref sig .tc := ⟨.hbm, 113, rfl⟩
abbrev main_c_6 : Ref sig .tc := ⟨.hbm, 114, rfl⟩
abbrev main_v88 : Ref sig .tc := ⟨.hbm, 115, rfl⟩
abbrev main_v89 : Ref sig .tc := ⟨.hbm, 116, rfl⟩
abbrev main_c_7 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_8 : Ref sig .tc := ⟨.hbm, 123, rfl⟩
abbrev main_v95 : Ref sig .tc := ⟨.hbm, 124, rfl⟩
abbrev main_v96 : Ref sig .tc := ⟨.hbm, 125, rfl⟩
abbrev main_c_9 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_10 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_11 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S409600 : S_.BroadcastsInDim S409600 (![] : Fin 0 → Fin S409600.rank)
  bcast_S409600_S409600x1_0 : S409600.BroadcastsInDim S409600x1 (![0] : Fin 1 → Fin S409600x1.rank)
  bcast_S_S409600x128 : S_.BroadcastsInDim S409600x128 (![] : Fin 0 → Fin S409600x128.rank)
  slices_S409600x8_S409600x1_0_0 : S409600x8.Slices ![0, 0] S409600x1
  slices_S8x128x128_S1x128x128_0_0_0 : S8x128x128.Slices ![0, 0, 0] S1x128x128
  shapeCasts_S1x128x128_S128x128 : S1x128x128.ShapeCasts S128x128
  bcast_S409600x1_S409600x128_0_1 : S409600x1.BroadcastsInDim S409600x128 (![0, 1] : Fin 2 → Fin S409600x128.rank)
  slices_S409600x8_S409600x1_0_1 : S409600x8.Slices ![0, 1] S409600x1
  slices_S8x128x128_S1x128x128_1_0_0 : S8x128x128.Slices ![1, 0, 0] S1x128x128
  slices_S409600x8_S409600x1_0_2 : S409600x8.Slices ![0, 2] S409600x1
  slices_S8x128x128_S1x128x128_2_0_0 : S8x128x128.Slices ![2, 0, 0] S1x128x128
  slices_S409600x8_S409600x1_0_3 : S409600x8.Slices ![0, 3] S409600x1
  slices_S8x128x128_S1x128x128_3_0_0 : S8x128x128.Slices ![3, 0, 0] S1x128x128
  slices_S409600x8_S409600x1_0_4 : S409600x8.Slices ![0, 4] S409600x1
  slices_S8x128x128_S1x128x128_4_0_0 : S8x128x128.Slices ![4, 0, 0] S1x128x128
  slices_S409600x8_S409600x1_0_5 : S409600x8.Slices ![0, 5] S409600x1
  slices_S8x128x128_S1x128x128_5_0_0 : S8x128x128.Slices ![5, 0, 0] S1x128x128
  slices_S409600x8_S409600x1_0_6 : S409600x8.Slices ![0, 6] S409600x1
  slices_S8x128x128_S1x128x128_6_0_0 : S8x128x128.Slices ![6, 0, 0] S1x128x128
  slices_S409600x8_S409600x1_0_7 : S409600x8.Slices ![0, 7] S409600x1
  slices_S8x128x128_S1x128x128_7_0_0 : S8x128x128.Slices ![7, 0, 0] S1x128x128
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S20480 : S_.BroadcastsInDim S20480 (![] : Fin 0 → Fin S20480.rank)
  bcast_S20480_S20480x1_0 : S20480.BroadcastsInDim S20480x1 (![0] : Fin 1 → Fin S20480x1.rank)
  bcast_S_S20480x64 : S_.BroadcastsInDim S20480x64 (![] : Fin 0 → Fin S20480x64.rank)
  slices_S20480x8_S20480x1_0_0 : S20480x8.Slices ![0, 0] S20480x1
  slices_S8x128x64_S1x128x64_0_0_0 : S8x128x64.Slices ![0, 0, 0] S1x128x64
  shapeCasts_S1x128x64_S128x64 : S1x128x64.ShapeCasts S128x64
  bcast_S20480x1_S20480x64_0_1 : S20480x1.BroadcastsInDim S20480x64 (![0, 1] : Fin 2 → Fin S20480x64.rank)
  slices_S20480x8_S20480x1_0_1 : S20480x8.Slices ![0, 1] S20480x1
  slices_S8x128x64_S1x128x64_1_0_0 : S8x128x64.Slices ![1, 0, 0] S1x128x64
  slices_S20480x8_S20480x1_0_2 : S20480x8.Slices ![0, 2] S20480x1
  slices_S8x128x64_S1x128x64_2_0_0 : S8x128x64.Slices ![2, 0, 0] S1x128x64
  slices_S20480x8_S20480x1_0_3 : S20480x8.Slices ![0, 3] S20480x1
  slices_S8x128x64_S1x128x64_3_0_0 : S8x128x64.Slices ![3, 0, 0] S1x128x64
  slices_S20480x8_S20480x1_0_4 : S20480x8.Slices ![0, 4] S20480x1
  slices_S8x128x64_S1x128x64_4_0_0 : S8x128x64.Slices ![4, 0, 0] S1x128x64
  slices_S20480x8_S20480x1_0_5 : S20480x8.Slices ![0, 5] S20480x1
  slices_S8x128x64_S1x128x64_5_0_0 : S8x128x64.Slices ![5, 0, 0] S1x128x64
  slices_S20480x8_S20480x1_0_6 : S20480x8.Slices ![0, 6] S20480x1
  slices_S8x128x64_S1x128x64_6_0_0 : S8x128x64.Slices ![6, 0, 0] S1x128x64
  slices_S20480x8_S20480x1_0_7 : S20480x8.Slices ![0, 7] S20480x1
  slices_S8x128x64_S1x128x64_7_0_0 : S8x128x64.Slices ![7, 0, 0] S1x128x64
  bcast_S_S1024x64 : S_.BroadcastsInDim S1024x64 (![] : Fin 0 → Fin S1024x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  gather_S1000000x128_S262144x1_S262144x128_1_0_n_n_0_1_1128_wf : GatherDims.WF S1000000x128 S262144x1 S262144x128 [1] [0] [] [0] [] 1 ![1, 128]
  gather_S262144x128_S409600x1_S409600x128_1_0_n_n_0_1_1128_wf : GatherDims.WF S262144x128 S409600x1 S409600x128 [1] [0] [] [0] [] 1 ![1, 128]
  gather_S64x8_S409600x1_S409600x8_1_0_n_n_0_1_18_wf : GatherDims.WF S64x8 S409600x1 S409600x8 [1] [0] [] [0] [] 1 ![1, 8]
  dot_S409600x128_S128x128_S409600x128_1_0_0_1_n_n_wf : DotDims.WF S409600x128 S128x128 S409600x128 [1] [0] [0] [1] [] []
  scatter_S16384x128_S409600x1_S409600x128_1_0_0_1_wf : ScatterDims.WF S16384x128 S409600x1 S409600x128 [1] [0] [0] 1
  gather_S16384x128_S20480x1_S20480x128_1_0_n_n_0_1_1128_wf : GatherDims.WF S16384x128 S20480x1 S20480x128 [1] [0] [] [0] [] 1 ![1, 128]
  gather_S64x8_S20480x1_S20480x8_1_0_n_n_0_1_18_wf : GatherDims.WF S64x8 S20480x1 S20480x8 [1] [0] [] [0] [] 1 ![1, 8]
  dot_S20480x128_S128x64_S20480x64_1_0_0_1_n_n_wf : DotDims.WF S20480x128 S128x64 S20480x64 [1] [0] [0] [1] [] []
  scatter_S1024x64_S20480x1_S20480x64_1_0_0_1_wf : ScatterDims.WF S1024x64 S20480x1 S20480x64 [1] [0] [0] 1

variable [Facts₀]

def gather_S1000000x128_S262144x1_S262144x128_1_0_n_n_0_1_1128 : GatherDims S1000000x128 S262144x1 S262144x128 where
  offsetDims := [1]
  collapsedSliceDims := [0]
  operandBatchingDims := []
  startIndicesBatchingDims := []
  startIndexMap := [0]
  indexVectorDim := 1
  sliceSizes := ![1, 128]
  wf := gather_S1000000x128_S262144x1_S262144x128_1_0_n_n_0_1_1128_wf
def gather_S262144x128_S409600x1_S409600x128_1_0_n_n_0_1_1128 : GatherDims S262144x128 S409600x1 S409600x128 where
  offsetDims := [1]
  collapsedSliceDims := [0]
  operandBatchingDims := []
  startIndicesBatchingDims := []
  startIndexMap := [0]
  indexVectorDim := 1
  sliceSizes := ![1, 128]
  wf := gather_S262144x128_S409600x1_S409600x128_1_0_n_n_0_1_1128_wf
def gather_S64x8_S409600x1_S409600x8_1_0_n_n_0_1_18 : GatherDims S64x8 S409600x1 S409600x8 where
  offsetDims := [1]
  collapsedSliceDims := [0]
  operandBatchingDims := []
  startIndicesBatchingDims := []
  startIndexMap := [0]
  indexVectorDim := 1
  sliceSizes := ![1, 8]
  wf := gather_S64x8_S409600x1_S409600x8_1_0_n_n_0_1_18_wf
def dot_S409600x128_S128x128_S409600x128_1_0_0_1_n_n : DotDims S409600x128 S128x128 S409600x128 where
  lhsContracting := [1]
  rhsContracting := [0]
  lhsNonContracting := [0]
  rhsNonContracting := [1]
  lhsBatch := []
  rhsBatch := []
  wf := dot_S409600x128_S128x128_S409600x128_1_0_0_1_n_n_wf
def scatter_S16384x128_S409600x1_S409600x128_1_0_0_1 : ScatterDims S16384x128 S409600x1 S409600x128 where
  updateWindowDims := [1]
  insertedWindowDims := [0]
  scatterDimsToOperandDims := [0]
  indexVectorDim := 1
  wf := scatter_S16384x128_S409600x1_S409600x128_1_0_0_1_wf
def gather_S16384x128_S20480x1_S20480x128_1_0_n_n_0_1_1128 : GatherDims S16384x128 S20480x1 S20480x128 where
  offsetDims := [1]
  collapsedSliceDims := [0]
  operandBatchingDims := []
  startIndicesBatchingDims := []
  startIndexMap := [0]
  indexVectorDim := 1
  sliceSizes := ![1, 128]
  wf := gather_S16384x128_S20480x1_S20480x128_1_0_n_n_0_1_1128_wf
def gather_S64x8_S20480x1_S20480x8_1_0_n_n_0_1_18 : GatherDims S64x8 S20480x1 S20480x8 where
  offsetDims := [1]
  collapsedSliceDims := [0]
  operandBatchingDims := []
  startIndicesBatchingDims := []
  startIndexMap := [0]
  indexVectorDim := 1
  sliceSizes := ![1, 8]
  wf := gather_S64x8_S20480x1_S20480x8_1_0_n_n_0_1_18_wf
def dot_S20480x128_S128x64_S20480x64_1_0_0_1_n_n : DotDims S20480x128 S128x64 S20480x64 where
  lhsContracting := [1]
  rhsContracting := [0]
  lhsNonContracting := [0]
  rhsNonContracting := [1]
  lhsBatch := []
  rhsBatch := []
  wf := dot_S20480x128_S128x64_S20480x64_1_0_0_1_n_n_wf
def scatter_S1024x64_S20480x1_S20480x64_1_0_0_1 : ScatterDims S1024x64 S20480x1 S20480x64 where
  updateWindowDims := [1]
  insertedWindowDims := [0]
  scatterDimsToOperandDims := [0]
  indexVectorDim := 1
  wf := scatter_S1024x64_S20480x1_S20480x64_1_0_0_1_wf

class Facts : Prop extends Facts₀ where

variable [Facts]
-- ==== Proof.LibGather.lean ====
/-
  A row gather read at an index.

  `x[idx]` of a table `x` at an integer vector `idx` of length `E` lowers to `stablehlo.gather` with the indices
  reshaped to `[E, 1]` (the index vector on axis 1), the table's first axis collapsed and named by the start index
  map, and slice sizes of one row. The result's row `e` is the table's row at the start index `idx[e, 0]` read as a
  signed integer and clamped into `[0, N − 1]`, as StableHLO clamps every start index so that the slice fits.

  Two shapes: a table of scalars `[N]` (result `[E]`), and a table of rows `[N, C]` with the whole row as the slice
  (result `[E, C]`: entry `(e, c)` is the table's `(row, c)`).
-/
import Idealize.ShloMosaic.PureOps.ShapeOps
import Idealize.ShloMosaic.Lib.ValueIdx

noncomputable section

namespace Idealize.ShloMosaic.RowGather

open Idealize.ShloMosaic Idealize.ShloMosaic.ValueIdx

variable {α : Type}

/-- The row a start index word names in a table of `N` rows: the word read signed, clamped into `[0, N − 1]`. -/
def clampRow (N : Nat) (hN : 0 < N) {w : Nat} (v : BitVec w) : Fin N := ⟨min v.toInt.toNat (N - 1), by omega⟩

/-! ## A table of scalars -/

/-- The dimension numbers of `x[idx]` for `x : [N]`, the indices as `[E, 1]`, the result `[E]`. -/
abbrev scalarDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table at the clamped start index `idx[e, 0]`. -/
theorem gather_scalar_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (scalarDims N E wf) x idx j = x (ix1 (clampRow N hN (idx (ix2 (j 0) (0 : Fin 1))))) := by
  unfold Host.gather
  congr 1
  funext a
  obtain rfl : a = 0 := Subsingleton.elim _ _
  refine Fin.ext ?_
  show (scalarDims N E wf).start j idx 0 + (scalarDims N E wf).batchCoord j 0 + (scalarDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (scalarDims N E wf).startIndexMap from List.mem_singleton.mpr rfl)]
  have hsi : (scalarDims N E wf).siIdx j ⟨List.idxOf (0 : Fin 1) (scalarDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A table of rows -/

/-- The dimension numbers of `x[idx]` for `x : [N, C]`, the indices as `[E, 1]`, the result `[E, C]`: whole rows. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the table's row axis the operand index is the clamped start index `idx[e, 0]`. -/
theorem rowDims_operandIdx_zero {N C E w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (0 : Fin 2)).val = (clampRow N hN (idx (ix2 (j 0) (0 : Fin 1)))).val := by
  show (rowDims N C E wf).start j idx (0 : Fin 2) + (rowDims N C E wf).batchCoord j (0 : Fin 2)
    + (rowDims N C E wf).offCoord j (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx j ⟨List.idxOf (0 : Fin 2) (rowDims N C E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the operand index is the result's column. -/
theorem rowDims_operandIdx_one {N C E w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (1 : Fin 2)).val = (j 1).val := by
  show (rowDims N C E wf).start j idx (1 : Fin 2) + (rowDims N C E wf).batchCoord j (1 : Fin 2)
    + (rowDims N C E wf).offCoord j (1 : Fin 2) = _
  have hnot : ¬ (1 : Fin 2) ∈ (rowDims N C E wf).startIndexMap := by
    show ¬ (1 : Fin 2) ∈ ([0] : List (Fin 2)); decide
  have hkept : (1 : Fin 2) ∈ (rowDims N C E wf).sKept :=
    (GatherDims.mem_sKept _ _).mpr ⟨by show ¬ (1 : Fin 2) ∈ ([0] : List (Fin 2)); decide, List.not_mem_nil⟩
  have h0 : (rowDims N C E wf).start j idx (1 : Fin 2) = 0 := by
    unfold GatherDims.start; rw [dif_neg hnot]
  rw [h0, GatherDims.batchCoord_eq_zero _ _ _ List.not_mem_nil]
  simp only [Nat.zero_add, Nat.add_zero]
  unfold GatherDims.offCoord
  rw [dif_pos hkept]
  rfl

/-- Entry `(e, c)` of the gather is the table's entry `c` of the row at the clamped start index `idx[e, 0]`. -/
theorem gather_row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowDims N C E wf) x idx j = x (ix2 (clampRow N hN (idx (ix2 (j 0) (0 : Fin 1)))) (j 1)) := by
  unfold Host.gather
  congr 1
  funext a
  refine Fin.ext ?_
  match a with
  | ⟨0, _⟩ => exact rowDims_operandIdx_zero hN wf idx j
  | ⟨1, _⟩ => exact rowDims_operandIdx_one wf idx j

end Idealize.ShloMosaic.RowGather

end
-- ==== Proof.Spec.lean ====
/-
  The relational graph convolution with basis decomposition, as plain mathematics over the extended reals.

  One layer: every edge `e` carries a feature row `h[e, ·]`, eight basis coefficients `cg[e, ·]` and a weight `n[e]`.
  Its message is `m[e, j] = (∑_b cg[e, b] · ∑_k h[e, k] · V[b, k, j]) · n[e]`, and the layer's result at a destination
  `v` is the sum of the messages of the edges that land at `v`, plus a bias. A kernel may fold the weight into the
  coefficients and contract against the eight bases laid side by side, `Vst[k, b·O + j] = V[b, k, j]`:
  `m'[e, j] = ∑_b (∑_k h[e, k] · Vst[k, b·O + j]) · (cg[e, b] · n[e])`. On real numbers the two are equal
  (multiplication distributes over the finite sums); on the extended reals this needs every entry to be a real number.
-/
import Idealize.ShloMosaic.PureOps.Ideal.Laws
import Idealize.ShloMosaic.Lib.ValueIdx
import proofs.«426843_j75857712381962_3_alg».proof.Proof.LibGather

noncomputable section

namespace Rgcn

open Idealize.ShloMosaic Idealize.ShloMosaic.ValueIdx Idealize.ShloMosaic.RowGather

/-! ## Extended reals that are real numbers -/

/-- `x` is (the image of) a real number. -/
def IsReal (x : EReal) : Prop := ∃ r : ℝ, (r : EReal) = x

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, EReal.coe_add a b⟩
theorem IsReal.mul {x y : EReal} (hx : IsReal x) (hy : IsReal y) : IsReal (x * y) := by
  obtain ⟨a, rfl⟩ := hx; obtain ⟨b, rfl⟩ := hy; exact ⟨a * b, EReal.coe_mul a b⟩
theorem IsReal.max {x y : EReal} (hx : IsReal x) (hy : IsReal y) : IsReal (max x y) := by
  rcases max_choice x y with h | h <;> rw [h] <;> assumption
theorem IsReal.sum {ι : Type*} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The real number an extended real is, when it is one (else `0`). -/
def toR (x : EReal) : ℝ := x.toReal
theorem IsReal.coe_toR {x : EReal} (hx : IsReal x) : ((toR x : ℝ) : EReal) = x := by
  obtain ⟨a, rfl⟩ := hx; simp [toR]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One layer -/

variable {E H O W N : Nat}

/-- Column `b·O + j` of the eight bases laid side by side. -/
def stackCol (hW : W = 8 * O) (b : Fin 8) (j : Fin O) : Fin W :=
  ⟨b.val * O + j.val, by have := b.isLt; have := j.isLt; subst hW; nlinarith⟩

/-- The basis a stacked column belongs to. -/
def colBasis (hW : W = 8 * O) (q : Fin W) : Fin 8 :=
  ⟨q.val / O, by
    have hq := q.isLt; subst hW
    rcases Nat.eq_zero_or_pos O with h0 | h0
    · subst h0; simp at hq
    · exact Nat.div_lt_of_lt_mul (by omega)⟩

/-- The column inside its basis. -/
def colInner (hW : W = 8 * O) (q : Fin W) : Fin O :=
  ⟨q.val % O, by
    have hq := q.isLt; subst hW
    rcases Nat.eq_zero_or_pos O with h0 | h0
    · subst h0; simp at hq
    · exact Nat.mod_lt _ h0⟩

theorem colBasis_stackCol (hW : W = 8 * O) (b : Fin 8) (j : Fin O) : colBasis hW (stackCol hW b j) = b := by
  apply Fin.ext
  show (b.val * O + j.val) / O = b.val
  have hj := j.isLt
  have hO : 0 < O := by omega
  rw [Nat.add_comm, Nat.add_mul_div_right _ _ hO, Nat.div_eq_of_lt hj, Nat.zero_add]

theorem colInner_stackCol (hW : W = 8 * O) (b : Fin 8) (j : Fin O) : colInner hW (stackCol hW b j) = j := by
  apply Fin.ext
  show (b.val * O + j.val) % O = j.val
  have hj := j.isLt
  rw [Nat.add_comm, Nat.add_mul_mod_self_right, Nat.mod_eq_of_lt hj]

/-- The bases laid side by side: `Vst[k, b·O + j] = V[b, k, j]`. -/
def stackV (hW : W = 8 * O) (V : (⟨3, ![8, H, O]⟩ : Shape).Idx → EReal) : (⟨2, ![H, W]⟩ : Shape).Idx → EReal :=
  fun i => V (ix3 (colBasis hW (i 1)) (i 0) (colInner hW (i 1)))

theorem stackV_apply (hW : W = 8 * O) (V : (⟨3, ![8, H, O]⟩ : Shape).Idx → EReal) (k : Fin H) (q : Fin W) :
    stackV hW V (ix2 k q) = V (ix3 (colBasis hW q) k (colInner hW q)) := rfl

/-- The message with the weight folded into the coefficients, contracted against the stacked bases, at edge `e` and
    output column `j`. -/
def kmsgAt (hW : W = 8 * O) (h : (⟨2, ![E, H]⟩ : Shape).Idx → EReal) (cs : (⟨2, ![E, 8]⟩ : Shape).Idx → EReal)
    (vst : (⟨2, ![H, W]⟩ : Shape).Idx → EReal) (e : Fin E) (j : Fin O) : EReal :=
  ∑ b : Fin 8, (∑ k : Fin H, h (ix2 e k) * vst (ix2 k (stackCol hW b j))) * cs (ix2 e b)

/-- The same as an array over `[E, O]`. -/
def kmsg (hW : W = 8 * O) (h : (⟨2, ![E, H]⟩ : Shape).Idx → EReal) (cs : (⟨2, ![E, 8]⟩ : Shape).Idx → EReal)
    (vst : (⟨2, ![H, W]⟩ : Shape).Idx → EReal) : (⟨2, ![E, O]⟩ : Shape).Idx → EReal :=
  fun i => kmsgAt hW h cs vst (i 0) (i 1)

theorem kmsg_apply (hW : W = 8 * O) (h : (⟨2, ![E, H]⟩ : Shape).Idx → EReal) (cs : (⟨2, ![E, 8]⟩ : Shape).Idx → EReal)
    (vst : (⟨2, ![H, W]⟩ : Shape).Idx → EReal) (e : Fin E) (j : Fin O) :
    kmsg hW h cs vst (ix2 e j) = kmsgAt hW h cs vst e j := rfl

/-- The message as the reference writes it, at edge `e` and output column `j`. -/
def rmsgAt (h : (⟨2, ![E, H]⟩ : Shape).Idx → EReal) (cg : (⟨2, ![E, 8]⟩ : Shape).Idx → EReal)
    (V : (⟨3, ![8, H, O]⟩ : Shape).Idx → EReal) (n : (⟨1, ![E]⟩ : Shape).Idx → EReal) (e : Fin E) (j : Fin O) : EReal :=
  (∑ b : Fin 8, cg (ix2 e b) * ∑ k : Fin H, h (ix2 e k) * V (ix3 b k j)) * n (ix1 e)

/-- The same as an array over `[E, O]`. -/
def rmsg (h : (⟨2, ![E, H]⟩ : Shape).Idx → EReal) (cg : (⟨2, ![E, 8]⟩ : Shape).Idx → EReal)
    (V : (⟨3, ![8, H, O]⟩ : Shape).Idx → EReal) (n : (⟨1, ![E]⟩ : Shape).Idx → EReal) : (⟨2, ![E, O]⟩ : Shape).Idx → EReal :=
  fun i => rmsgAt h cg V n (i 0) (i 1)

theorem rmsg_apply (h : (⟨2, ![E, H]⟩ : Shape).Idx → EReal) (cg : (⟨2, ![E, 8]⟩ : Shape).Idx → EReal)
    (V : (⟨3, ![8, H, O]⟩ : Shape).Idx → EReal) (n : (⟨1, ![E]⟩ : Shape).Idx → EReal) (e : Fin E) (j : Fin O) :
    rmsg h cg V n (ix2 e j) = rmsgAt h cg V n e j := rfl

/-- The coefficients with the weight folded in. -/
def foldNorm (cg : (⟨2, ![E, 8]⟩ : Shape).Idx → EReal) (n : (⟨1, ![E]⟩ : Shape).Idx → EReal) :
    (⟨2, ![E, 8]⟩ : Shape).Idx → EReal := fun i => cg i * n (ix1 (i 0))

theorem foldNorm_apply (cg : (⟨2, ![E, 8]⟩ : Shape).Idx → EReal) (n : (⟨1, ![E]⟩ : Shape).Idx → EReal) (e : Fin E) (b : Fin 8) :
    foldNorm cg n (ix2 e b) = cg (ix2 e b) * n (ix1 e) := rfl

/-- On real entries the folded, stacked message is the reference's, entry by entry. -/
theorem kmsgAt_eq_rmsgAt (hW : W = 8 * O) (h : (⟨2, ![E, H]⟩ : Shape).Idx → EReal) (cg : (⟨2, ![E, 8]⟩ : Shape).Idx → EReal)
    (V : (⟨3, ![8, H, O]⟩ : Shape).Idx → EReal) (n : (⟨1, ![E]⟩ : Shape).Idx → EReal)
    (hh : ∀ i, IsReal (h i)) (hcg : ∀ i, IsReal (cg i)) (hV : ∀ i, IsReal (V i)) (hn : ∀ i, IsReal (n i))
    (e : Fin E) (j : Fin O) :
    kmsgAt hW h (foldNorm cg n) (stackV hW V) e j = rmsgAt h cg V n e j := by
  unfold kmsgAt rmsgAt
  simp only [stackV_apply, foldNorm_apply, colBasis_stackCol, colInner_stackCol]
  -- every factor is a real number
  have hPr : ∀ b : Fin 8, IsReal (∑ k : Fin H, h (ix2 e k) * V (ix3 b k j)) := fun b =>
    IsReal.sum _ _ fun k _ => (hh _).mul (hV _)
  obtain ⟨nr, hnr⟩ := hn (ix1 e)
  rw [← hnr]
  have e1 : ∀ b : Fin 8, (∑ k : Fin H, h (ix2 e k) * V (ix3 b k j)) * (cg (ix2 e b) * (nr : EReal))
      = ((toR (cg (ix2 e b)) * toR (∑ k : Fin H, h (ix2 e k) * V (ix3 b k j)) * nr : ℝ) : EReal) := by
    intro b
    conv_lhs => rw [← (hPr b).coe_toR, ← (hcg (ix2 e b)).coe_toR]
    rw [← EReal.coe_mul, ← EReal.coe_mul]
    congr 1; ring
  have e2 : ∀ b : Fin 8, cg (ix2 e b) * (∑ k : Fin H, h (ix2 e k) * V (ix3 b k j))
      = ((toR (cg (ix2 e b)) * toR (∑ k : Fin H, h (ix2 e k) * V (ix3 b k j)) : ℝ) : EReal) := by
    intro b
    conv_lhs => rw [← (hPr b).coe_toR, ← (hcg (ix2 e b)).coe_toR]
    rw [← EReal.coe_mul]
  simp only [e1, e2]
  rw [← coe_sum, ← coe_sum, ← EReal.coe_mul, Finset.sum_mul]

/-- On real entries the folded, stacked message is the reference's. -/
theorem kmsg_eq_rmsg (hW : W = 8 * O) (h : (⟨2, ![E, H]⟩ : Shape).Idx → EReal) (cg : (⟨2, ![E, 8]⟩ : Shape).Idx → EReal)
    (V : (⟨3, ![8, H, O]⟩ : Shape).Idx → EReal) (n : (⟨1, ![E]⟩ : Shape).Idx → EReal)
    (hh : ∀ i, IsReal (h i)) (hcg : ∀ i, IsReal (cg i)) (hV : ∀ i, IsReal (V i)) (hn : ∀ i, IsReal (n i)) :
    kmsg hW h (foldNorm cg n) (stackV hW V) = rmsg h cg V n :=
  funext fun i => kmsgAt_eq_rmsgAt hW h cg V n hh hcg hV hn (i 0) (i 1)

/-- Every entry of the reference's message is a real number when its operands' are. -/
theorem rmsg_isReal (h : (⟨2, ![E, H]⟩ : Shape).Idx → EReal) (cg : (⟨2, ![E, 8]⟩ : Shape).Idx → EReal)
    (V : (⟨3, ![8, H, O]⟩ : Shape).Idx → EReal) (n : (⟨1, ![E]⟩ : Shape).Idx → EReal)
    (hh : ∀ i, IsReal (h i)) (hcg : ∀ i, IsReal (cg i)) (hV : ∀ i, IsReal (V i)) (hn : ∀ i, IsReal (n i))
    (i : (⟨2, ![E, O]⟩ : Shape).Idx) : IsReal (rmsg h cg V n i) :=
  (IsReal.sum _ _ fun b _ => (hcg _).mul (IsReal.sum _ _ fun k _ => (hh _).mul (hV _))).mul (hn _)

/-- A row gather at clamped start indices: row `e` of the result is the table's row `clamp(idx[e])`. -/
def rowsAt (hN : 0 < N) (x : (⟨2, ![N, H]⟩ : Shape).Idx → EReal) (idx : (⟨1, ![E]⟩ : Shape).Idx → BitVec 32) :
    (⟨2, ![E, H]⟩ : Shape).Idx → EReal :=
  fun i => x (ix2 (clampRow N hN (idx (ix1 (i 0)))) (i 1))

/-- The index vector laid as a column `[E, 1]`. -/
def colIdx (idx : (⟨1, ![E]⟩ : Shape).Idx → BitVec 32) : (⟨2, ![E, 1]⟩ : Shape).Idx → BitVec 32 := fun i => idx (ix1 (i 0))

/-- One layer: the messages summed at their destinations (an edge whose destination is out of range contributes
    nothing), plus the bias. -/
def layer (sc : ScatterDims ⟨2, ![N, O]⟩ ⟨2, ![E, 1]⟩ ⟨2, ![E, O]⟩)
    (h : (⟨2, ![E, H]⟩ : Shape).Idx → EReal) (cg : (⟨2, ![E, 8]⟩ : Shape).Idx → EReal)
    (V : (⟨3, ![8, H, O]⟩ : Shape).Idx → EReal) (n : (⟨1, ![E]⟩ : Shape).Idx → EReal)
    (dst : (⟨1, ![E]⟩ : Shape).Idx → BitVec 32) (bias : (⟨1, ![O]⟩ : Shape).Idx → EReal) : (⟨2, ![N, O]⟩ : Shape).Idx → EReal :=
  fun i => Ideal.hostScatterAdd sc (fun _ => (0 : EReal)) (colIdx dst) (rmsg h cg V n) i + bias (ix1 (i 1))

theorem layer_isReal (sc : ScatterDims ⟨2, ![N, O]⟩ ⟨2, ![E, 1]⟩ ⟨2, ![E, O]⟩)
    (h : (⟨2, ![E, H]⟩ : Shape).Idx → EReal) (cg : (⟨2, ![E, 8]⟩ : Shape).Idx → EReal)
    (V : (⟨3, ![8, H, O]⟩ : Shape).Idx → EReal) (n : (⟨1, ![E]⟩ : Shape).Idx → EReal)
    (dst : (⟨1, ![E]⟩ : Shape).Idx → BitVec 32) (bias : (⟨1, ![O]⟩ : Shape).Idx → EReal)
    (hh : ∀ i, IsReal (h i)) (hcg : ∀ i, IsReal (cg i)) (hV : ∀ i, IsReal (V i)) (hn : ∀ i, IsReal (n i))
    (hb : ∀ i, IsReal (bias i)) (i) : IsReal (layer sc h cg V n dst bias i) := by
  unfold layer Ideal.hostScatterAdd
  exact (IsReal.zero.add (IsReal.sum _ _ fun j _ => rmsg_isReal h cg V n hh hcg hV hn j)).add (hb _)

/-- `max(x, 0)` entrywise. -/
def relu {s : Shape} (x : s.Idx → EReal) : s.Idx → EReal := fun i => max (x i) 0

/-! ## The two layers -/

/-- The inputs' domain: every index that names a table row is in that table's range, and every float entry is a real
    number. (The two destination vectors are unconstrained: an out-of-range destination drops its edge.) -/
structure InDomain
    (srcIds : (⟨1, ![262144]⟩ : Shape).Idx → BitVec 32)
    (e0Src e0Type : (⟨1, ![409600]⟩ : Shape).Idx → BitVec 32) (norm0 : (⟨1, ![409600]⟩ : Shape).Idx → EReal)
    (e1Src e1Type : (⟨1, ![20480]⟩ : Shape).Idx → BitVec 32) (norm1 : (⟨1, ![20480]⟩ : Shape).Idx → EReal)
    (emb : (⟨2, ![1000000, 128]⟩ : Shape).Idx → EReal) (V1 : (⟨3, ![8, 128, 128]⟩ : Shape).Idx → EReal)
    (comp1 : (⟨2, ![64, 8]⟩ : Shape).Idx → EReal) (b1 : (⟨1, ![128]⟩ : Shape).Idx → EReal)
    (V2 : (⟨3, ![8, 128, 64]⟩ : Shape).Idx → EReal) (comp2 : (⟨2, ![64, 8]⟩ : Shape).Idx → EReal)
    (b2 : (⟨1, ![64]⟩ : Shape).Idx → EReal) : Prop where
  srcIds_rng : ∀ i, 0 ≤ (srcIds i).toInt ∧ (srcIds i).toInt < 1000000
  e0Src_rng : ∀ i, 0 ≤ (e0Src i).toInt ∧ (e0Src i).toInt < 262144
  e0Type_rng : ∀ i, 0 ≤ (e0Type i).toInt ∧ (e0Type i).toInt < 64
  e1Src_rng : ∀ i, 0 ≤ (e1Src i).toInt ∧ (e1Src i).toInt < 16384
  e1Type_rng : ∀ i, 0 ≤ (e1Type i).toInt ∧ (e1Type i).toInt < 64
  norm0_real : ∀ i, IsReal (norm0 i)
  norm1_real : ∀ i, IsReal (norm1 i)
  emb_real : ∀ i, IsReal (emb i)
  V1_real : ∀ i, IsReal (V1 i)
  comp1_real : ∀ i, IsReal (comp1 i)
  b1_real : ∀ i, IsReal (b1 i)
  V2_real : ∀ i, IsReal (V2 i)
  comp2_real : ∀ i, IsReal (comp2 i)
  b2_real : ∀ i, IsReal (b2 i)

/-- The whole forward pass on its sixteen inputs: node features looked up through two index vectors, a layer into
    16384 nodes, `relu`, a second lookup, a layer into 1024 nodes. -/
def outSpec (sc1 : ScatterDims ⟨2, ![16384, 128]⟩ ⟨2, ![409600, 1]⟩ ⟨2, ![409600, 128]⟩)
    (sc2 : ScatterDims ⟨2, ![1024, 64]⟩ ⟨2, ![20480, 1]⟩ ⟨2, ![20480, 64]⟩)
    (srcIds : (⟨1, ![262144]⟩ : Shape).Idx → BitVec 32)
    (e0Src e0Dst e0Type : (⟨1, ![409600]⟩ : Shape).Idx → BitVec 32) (norm0 : (⟨1, ![409600]⟩ : Shape).Idx → EReal)
    (e1Src e1Dst e1Type : (⟨1, ![20480]⟩ : Shape).Idx → BitVec 32) (norm1 : (⟨1, ![20480]⟩ : Shape).Idx → EReal)
    (emb : (⟨2, ![1000000, 128]⟩ : Shape).Idx → EReal) (V1 : (⟨3, ![8, 128, 128]⟩ : Shape).Idx → EReal)
    (comp1 : (⟨2, ![64, 8]⟩ : Shape).Idx → EReal) (b1 : (⟨1, ![128]⟩ : Shape).Idx → EReal)
    (V2 : (⟨3, ![8, 128, 64]⟩ : Shape).Idx → EReal) (comp2 : (⟨2, ![64, 8]⟩ : Shape).Idx → EReal)
    (b2 : (⟨1, ![64]⟩ : Shape).Idx → EReal) : (⟨2, ![1024, 64]⟩ : Shape).Idx → EReal :=
  let idx0 : (⟨1, ![409600]⟩ : Shape).Idx → BitVec 32 := fun i => srcIds (ix1 (clampRow 262144 (by decide) (e0Src i)))
  let h0 := rowsAt (N := 1000000) (by decide) emb idx0
  let hid := relu (layer sc1 h0 (rowsAt (N := 64) (by decide) comp1 e0Type) V1 norm0 e0Dst b1)
  layer sc2 (rowsAt (N := 16384) (by decide) hid e1Src) (rowsAt (N := 64) (by decide) comp2 e1Type) V2 norm1 e1Dst b2

end Rgcn

end
-- ==== Proof.PreFacts.lean ====
/-
  The printed precondition, read: it is all ones exactly when every table index is in its table's range and every
  float entry is a real number.
-/
import proofs.«426843_j75857712381962_3_alg».proof.Pre_finite_inputs
import proofs.«426843_j75857712381962_3_alg».proof.Proof.Gen.Pre_finite_inputs
import proofs.«426843_j75857712381962_3_alg».proof.Proof.Spec
import Idealize.ShloMosaic.Lib.ReduceAll
import Idealize.ShloMosaic.Lib.StableHlo.Predicate

noncomputable section

namespace Cert.PreFacts

open Idealize.ShloMosaic Cert.Pre_finite_inputs

/-- The shape without axes has exactly one index. -/
instance : Subsingleton S_.Idx := ⟨fun a b => funext fun d => d.elim0⟩

/-- The f32 pattern of +∞ is the top of the extended reals. -/
theorem ofBits_inf : Ideal.ofBits .f32 0x7F800000#32 = (⊤ : EReal) := by simp [Ideal.ofBits, Ideal.ieee]

/-- An extended real whose absolute value `max x (-x)` is strictly below +∞ is a real number: `⊤` fails the test
    itself, `⊥` fails it through `-⊥ = ⊤`. -/
theorem isReal_of_abs_lt_inf (x : EReal)
    (h : Ideal.cmp .olt (max x (-x)) (Ideal.ofBits .f32 0x7F800000#32) = 1#1) : Rgcn.IsReal x := by
  rw [ofBits_inf] at h
  unfold Ideal.cmp at h
  rw [StableHlo.Predicate.ofBool_eq_one_iff, decide_eq_true_eq, max_lt_iff] at h
  induction x using EReal.rec with
  | bot => exact absurd h.2 (by simp)
  | coe r => exact ⟨r, rfl⟩
  | top => exact absurd h.1 (by simp)

/-- "Every entry of a float array has `|x| < +∞`", read back: every entry is a real number. The conjunction over all
    entries is 1 only if each entry's test is 1. -/
theorem all_real {s : Shape} {axes : List (Fin s.rank)} (x : FVec Ideal s .f32)
    (bc : S_.BroadcastsInDim s (![] : Fin 0 → Fin s.rank)) (rd : s.ReducesTo axes S_) (h0 : 0 < S_.numel)
    (init : IVec S_ 1)
    (h : Host.reduce IntOp.andi (cmpf .olt (Host.absf x) (broadcastInDim s ![] bc (constant S_ .f32 0x7F800000#32)))
      init rd h0 ValueIdx.ix0 = 1#1) (i : s.Idx) : Rgcn.IsReal (x i) :=
  isReal_of_abs_lt_inf (x i) (Host.reduce_andi_all _ init rd h0 ValueIdx.ix0 h i)

/-- "Every entry of an integer array has `0 ≤ x` and `x < N`" (signed comparisons), read back as inequalities of
    the signed values. -/
theorem all_range {s : Shape} {axes : List (Fin s.rank)} (x : IVec s 32) (N : BitVec 32)
    (bc : S_.BroadcastsInDim s (![] : Fin 0 → Fin s.rank)) (rd : s.ReducesTo axes S_) (h0 : 0 < S_.numel)
    (init : IVec S_ 1)
    (h : Host.reduce IntOp.andi
      (andi (cmpi .sge x (broadcastInDim s ![] bc (constantI S_ 32 0#32)))
        (cmpi .slt x (broadcastInDim s ![] bc (constantI S_ 32 N))))
      init rd h0 ValueIdx.ix0 = 1#1) (i : s.Idx) : 0 ≤ (x i).toInt ∧ (x i).toInt < N.toInt := by
  obtain ⟨e1, e2⟩ := IntOp.andi_eq_one.1 (Host.reduce_andi_all _ init rd h0 ValueIdx.ix0 h i)
  exact ⟨IntOp.cmpi_sge.1 e1, IntOp.cmpi_slt.1 e2⟩

/-- A conjunction of two one-bit scalars that is 1 has both conjuncts 1. -/
theorem and_split {a b : IVec S_ 1} (h : andi a b ValueIdx.ix0 = 1#1) :
    a ValueIdx.ix0 = 1#1 ∧ b ValueIdx.ix0 = 1#1 := IntOp.andi_eq_one.1 h

theorem inDomain_of_pre [Cert.Pre_finite_inputs.Facts]
    (a0 : IVec S262144 32) (a1 a2 a3 : IVec S409600 32) (a4 : FVec Ideal S409600 .f32) (a5 a6 a7 : IVec S20480 32)
    (a8 : FVec Ideal S20480 .f32) (a9 : FVec Ideal S1000000x128 .f32) (a10 : FVec Ideal S8x128x128 .f32)
    (a11 : FVec Ideal S64x8 .f32) (a12 : FVec Ideal S128 .f32) (a13 : FVec Ideal S8x128x64 .f32)
    (a14 : FVec Ideal S64x8 .f32) (a15 : FVec Ideal S64 .f32)
    (h : fn (F := Ideal) a0 a1 a2 a3 a4 a5 a6 a7 a8 a9 a10 a11 a12 a13 a14 a15 = fun _ => 1#1) :
    Rgcn.InDomain a0 a1 a3 a4 a5 a7 a8 a9 a10 a11 a12 a13 a14 a15 := by
  -- the predicate at its one index is a left-nested conjunction of fourteen "for all entries" tests
  have h0 := congrFun h ValueIdx.ix0
  dsimp only [fn, fn_part1, fn_part2, fn_part3, fn_part4] at h0
  obtain ⟨h0, r7⟩ := and_split h0
  obtain ⟨h0, r5⟩ := and_split h0
  obtain ⟨h0, r3⟩ := and_split h0
  obtain ⟨h0, r1⟩ := and_split h0
  obtain ⟨h0, r0⟩ := and_split h0
  obtain ⟨h0, f15⟩ := and_split h0
  obtain ⟨h0, f14⟩ := and_split h0
  obtain ⟨h0, f13⟩ := and_split h0
  obtain ⟨h0, f12⟩ := and_split h0
  obtain ⟨h0, f11⟩ := and_split h0
  obtain ⟨h0, f10⟩ := and_split h0
  obtain ⟨h0, f9⟩ := and_split h0
  obtain ⟨f4, f8⟩ := and_split h0
  exact
    { srcIds_rng := all_range a0 1000000#32 _ _ _ _ r0
      e0Src_rng := all_range a1 262144#32 _ _ _ _ r1
      e0Type_rng := all_range a3 64#32 _ _ _ _ r3
      e1Src_rng := all_range a5 16384#32 _ _ _ _ r5
      e1Type_rng := all_range a7 64#32 _ _ _ _ r7
      norm0_real := all_real a4 _ _ _ _ f4
      norm1_real := all_real a8 _ _ _ _ f8
      emb_real := all_real a9 _ _ _ _ f9
      V1_real := all_real a10 _ _ _ _ f10
      comp1_real := all_real a11 _ _ _ _ f11
      b1_real := all_real a12 _ _ _ _ f12
      V2_real := all_real a13 _ _ _ _ f13
      comp2_real := all_real a14 _ _ _ _ f14
      b2_real := all_real a15 _ _ _ _ f15 }

end Cert.PreFacts

end
-- ==== Proof.KRegion.lean ====
/-
  What each launch of the basis-combine kernel leaves in its output array: the folded, stacked message of Spec.lean,
  `Rgcn.kmsg`, of the three arrays the launch reads (edge features, folded coefficients, stacked bases).

  A launch walks the edges in blocks of 2048 rows. At a block the body multiplies the 2048 feature rows with ALL the
  stacked bases at once (one product of width `8·O`), cuts the product into its eight groups of `O` columns, scales
  group `b` by column `b` of the block's coefficients and adds the eight scaled groups: entry `(p, j)` of the result is
  `∑_b (∑_k h[p, k] · Vst[k, b·O + j]) · cs[p, b]`, which is `Rgcn.kmsgAt` at that edge. The blocks are the rows
  `2048·t … 2048·t + 2047` of the arrays and together cover every edge, so the output array ends holding `Rgcn.kmsg`.
-/
import proofs.«426843_j75857712381962_3_alg».proof.Proof.Gen.KernelIdeal.Frame
import proofs.«426843_j75857712381962_3_alg».proof.Proof.Spec
import Idealize.ShloMosaic.Lib.Pipeline.Value

set_option maxRecDepth 16384

noncomputable section

namespace Cert.KernelIdeal.KVal

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! The lemmas of this file other than the two results live in `Region`. -/
namespace Region

/-! ## Two layout operations of the body, read at an index -/

section Layout
variable {α : Type}

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The columns `off … off + n - 1` of a rank-2 array, all rows kept, read at `(p, c)`: the array at `(p, off + c)`. -/
theorem sliceCols_apply {a m n : ℕ} (off : ℕ) (x : (⟨2, ![a, m]⟩ : Shape).Idx → α)
    (h : (⟨2, ![a, m]⟩ : Shape).Slices ![0, off] ⟨2, ![a, n]⟩) (p : Fin a) (c : Fin n) (r : Fin m) (hr : r.val = off + c.val) :
    extractStridedSlice ⟨2, ![a, n]⟩ ![0, off] x h (ix2 p c) = x (ix2 p r) := by
  refine extractStridedSlice_apply ![0, off] x h (ix2 p c) (ix2 p r) fun ax => ?_
  match ax with
  | ⟨0, _⟩ => show p.val = 0 + p.val; omega
  | ⟨1, _⟩ => exact hr

end Layout

/-- The zero offsets of a whole-block access, as the constant function. -/
theorem hz : (![0, 0] : Fin 2 → Nat) = fun _ => 0 := funext fun a => by fin_cases a <;> rfl

/-! # Launch 0: 409600 edges, eight bases of 128 columns

## The block's product with the stacked bases, read at an index -/

theorem lhs_prod0_0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide), dif_pos (show (0 : Fin S2048x128.rank) ∈ dot_S2048x128_S128x1024_S2048x1024_1_0_0_1_n_n.lhsNonContracting by decide)]
  rfl
theorem lhs_prod0_1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q
theorem rhs_prod0_0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q
theorem rhs_prod0_1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide), dif_pos (show (1 : Fin S128x1024.rank) ∈ dot_S2048x128_S128x1024_S2048x1024_1_0_0_1_n_n.rhsNonContracting by decide)]
  rfl

/-- Entry `(p, r)` of the block's product is row `p` of the features against column `r` of the stacked bases. -/
theorem prod0_apply (a : FVec Ideal S2048x128 .bf16) (w : FVec Ideal S128x1024 .bf16) (p : Fin 2048) (r : Fin 1024) :
    matmul dot_S2048x128_S128x1024_S2048x1024_1_0_0_1_n_n none a w (constant (F := Ideal) S2048x1024 .f32 0x00000000#32) (ix2 p r)
      = ∑ k : Fin 128, a (ix2 p k) * w (ix2 k r) := by
  simp only [matmul]
  rw [Ideal.matmul_constant_zero_apply, ← Equiv.sum_comp (ValueIdx.contrEquiv1 dot_S2048x128_S128x1024_S2048x1024_1_0_0_1_n_n 128 rfl rfl).symm]
  refine Finset.sum_congr rfl fun k _ => ?_
  have hk := ValueIdx.contrEquiv1_symm_val dot_S2048x128_S128x1024_S2048x1024_1_0_0_1_n_n 128 rfl rfl k
  have el : dot_S2048x128_S128x1024_S2048x1024_1_0_0_1_n_n.lhsIdx (ix2 p r) ((ValueIdx.contrEquiv1 dot_S2048x128_S128x1024_S2048x1024_1_0_0_1_n_n 128 rfl rfl).symm k) = ix2 p k := funext fun ax => Fin.ext (by
    match ax with
    | ⟨0, _⟩ => exact lhs_prod0_0 _ _
    | ⟨1, _⟩ => exact (lhs_prod0_1 _ _).trans hk)
  have er : dot_S2048x128_S128x1024_S2048x1024_1_0_0_1_n_n.rhsIdx (ix2 p r) ((ValueIdx.contrEquiv1 dot_S2048x128_S128x1024_S2048x1024_1_0_0_1_n_n 128 rfl rfl).symm k) = ix2 k r := funext fun ax => Fin.ext (by
    match ax with
    | ⟨0, _⟩ => exact (rhs_prod0_0 _ _).trans hk
    | ⟨1, _⟩ => exact rhs_prod0_1 _ _)
  rw [el, er]

/-! ## The body's result at an index -/

/-- One basis's share of a block entry: the product's column `off + q` times coefficient `b` of row `p`. -/
theorem share0_apply (M : FVec Ideal S2048x1024 .f32) (cs : FVec Ideal S2048x8 .f32) (off b : ℕ)
    (hs : S2048x1024.Slices ![0, off] S2048x128) (hc : S2048x8.Slices ![0, b] S2048x1) (hb : S2048x1.Broadcasts S2048x128)
    (p : Fin 2048) (q : Fin 128) (r : Fin 1024) (hr : r.val = off + q.val) (b' : Fin 8) (hb' : b'.val = b + (0 : Fin 1).val) :
    extractStridedSlice S2048x128 ![0, off] M hs (ix2 p q) * broadcastTo S2048x128 (extractStridedSlice S2048x1 ![0, b] cs hc) hb (ix2 p q)
      = M (ix2 p r) * cs (ix2 p b') := by
  rw [sliceCols_apply off M hs p q r hr, broadcastTo_a1_ab_apply _ hb p q, sliceCols_apply b cs hc p (0 : Fin 1) b' hb']

/-- Entry `(p, q)` of the body's result on a feature block `x0`, the stacked bases `x2` and a coefficient block `x1`:
    the eight shares added (the change of float format before the product is the identity on extended reals, and the sum
    starts from zero). -/
theorem pay0_apply (x0 : Vec Ideal S2048x128 .f32) (x2 : Vec Ideal S128x1024 .f32) (x1 : Vec Ideal S2048x8 .f32) (p : Fin 2048) (q : Fin 128) :
    k0_pay1 (F := Ideal) x0 x2 x1 (ix2 p q)
      = ∑ b : Fin 8, (∑ k : Fin 128, x0 (ix2 p k) * x2 (ix2 k (Rgcn.stackCol (W := 1024) (O := 128) (by norm_num) b q))) * x1 (ix2 p b) := by
  unfold k0_pay1
  simp only [addf_apply, mulf_apply, broadcast_apply]
  rw [Fin.sum_univ_eight]
  have hz0 : (FloatOps.ofBits (F := Ideal) .f32 0x00000000#32 : EReal) = 0 := Ideal.ofBits_zero_f32
  rw [hz0, zero_add,
    share0_apply _ _ 0 0 _ _ _ p q (Rgcn.stackCol (W := 1024) (O := 128) (by norm_num) 0 q) rfl 0 rfl,
    share0_apply _ _ 128 1 _ _ _ p q (Rgcn.stackCol (W := 1024) (O := 128) (by norm_num) 1 q) rfl 1 rfl,
    share0_apply _ _ 256 2 _ _ _ p q (Rgcn.stackCol (W := 1024) (O := 128) (by norm_num) 2 q) rfl 2 rfl,
    share0_apply _ _ 384 3 _ _ _ p q (Rgcn.stackCol (W := 1024) (O := 128) (by norm_num) 3 q) rfl 3 rfl,
    share0_apply _ _ 512 4 _ _ _ p q (Rgcn.stackCol (W := 1024) (O := 128) (by norm_num) 4 q) rfl 4 rfl,
    share0_apply _ _ 640 5 _ _ _ p q (Rgcn.stackCol (W := 1024) (O := 128) (by norm_num) 5 q) rfl 5 rfl,
    share0_apply _ _ 768 6 _ _ _ p q (Rgcn.stackCol (W := 1024) (O := 128) (by norm_num) 6 q) rfl 6 rfl,
    share0_apply _ _ 896 7 _ _ _ p q (Rgcn.stackCol (W := 1024) (O := 128) (by norm_num) 7 q) rfl 7 rfl]
  simp only [prod0_apply, truncf_apply, shapeCast_self]

/-- The same on blocks whose row `p` is row `e` of the features `h` and of the coefficients `cs`, the bases' block being
    the whole of `vst`: the folded, stacked message at edge `e`. -/
theorem blockValue0 (x0 : Vec Ideal S2048x128 .f32) (x1 : Vec Ideal S2048x8 .f32) (x2 : Vec Ideal S128x1024 .f32)
    (h : S409600x128.Idx → EReal) (cs : S409600x8.Idx → EReal) (vst : S128x1024.Idx → EReal)
    (p : Fin 2048) (q : Fin 128) (e : Fin 409600)
    (h0 : ∀ k : Fin 128, x0 (ix2 p k) = h (ix2 e k)) (h1 : ∀ b : Fin 8, x1 (ix2 p b) = cs (ix2 e b))
    (h2 : ∀ (k : Fin 128) (r : Fin 1024), x2 (ix2 k r) = vst (ix2 k r)) :
    k0_pay1 (F := Ideal) x0 x2 x1 (ix2 p q) = Rgcn.kmsg (E := 409600) (H := 128) (O := 128) (W := 1024) (by norm_num) h cs vst (ix2 e q) := by
  rw [pay0_apply, Rgcn.kmsg_apply]
  unfold Rgcn.kmsgAt
  simp only [h0, h1, h2]

/-! ## From the blocks to the array -/

/-- The index maps over the grid: point `t` takes row block `t` of the edge features, of the coefficients and of the
    output, and the whole of the stacked bases. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `2048·t + p` of the edge features. -/
theorem blk0_0_apply (c : Dev nD) (t : Fin cfg0.N) (p : Fin 2048) (k : Fin 128) (e : Fin 409600) (he : e.val = t.val * 2048 + p.val) :
    (iblk0 V c 0 t : Vec Ideal S2048x128 .f32) (ix2 p k) = (V c main_v1 : S409600x128.Idx → EReal) (ix2 e k) := by
  obtain ⟨e0, e1, -⟩ := idx_facts0 t
  unfold iblk0
  rw [View.read_apply]
  show V c main_v1 _ = V c main_v1 _
  congr 1
  funext a
  apply Fin.ext
  match a with
  | ⟨0, _⟩ => show win0_0.index t (0 : Fin 2) * 2048 + 1 * p.val = e.val; rw [e0, he]; omega
  | ⟨1, _⟩ => show win0_0.index t (1 : Fin 2) * 128 + 1 * k.val = k.val; rw [e1]; omega

/-- Row `p` of the coefficient block at point `t` is row `2048·t + p` of the folded coefficients. -/
theorem blk0_1_apply (c : Dev nD) (t : Fin cfg0.N) (p : Fin 2048) (b : Fin 8) (e : Fin 409600) (he : e.val = t.val * 2048 + p.val) :
    (iblk0 V c 1 t : Vec Ideal S2048x8 .f32) (ix2 p b) = (V c main_v5 : S409600x8.Idx → EReal) (ix2 e b) := by
  obtain ⟨-, -, e0, e1, -⟩ := idx_facts0 t
  unfold iblk0
  rw [View.read_apply]
  show V c main_v5 _ = V c main_v5 _
  congr 1
  funext a
  apply Fin.ext
  match a with
  | ⟨0, _⟩ => show win0_1.index t (0 : Fin 2) * 2048 + 1 * p.val = e.val; rw [e0, he]; omega
  | ⟨1, _⟩ => show win0_1.index t (1 : Fin 2) * 8 + 1 * b.val = b.val; rw [e1]; omega

/-- The bases' block at every point is the whole array of stacked bases. -/
theorem blk0_2_apply (c : Dev nD) (t : Fin cfg0.N) (k : Fin 128) (r : Fin 1024) :
    (iblk0 V c 2 t : Vec Ideal S128x1024 .f32) (ix2 k r) = (V c main_v7 : S128x1024.Idx → EReal) (ix2 k r) := by
  obtain ⟨-, -, -, -, e0, e1, -⟩ := idx_facts0 t
  unfold iblk0
  rw [View.read_apply]
  show V c main_v7 _ = V c main_v7 _
  congr 1
  funext a
  apply Fin.ext
  match a with
  | ⟨0, _⟩ => show win0_2.index t (0 : Fin 2) * 128 + 1 * k.val = k.val; rw [e0]; omega
  | ⟨1, _⟩ => show win0_2.index t (1 : Fin 2) * 1024 + 1 * r.val = r.val; rw [e1]; omega

/-- What point `t` writes back is block `t` of the message of the three arrays as the launch finds them. -/
theorem flushed0_eq (c : Dev nD) (t : Fin cfg0.N) :
    (dat0 V c).flushed 3 t = ((cfg0.win 3).blk t).view.read (Elt Ideal)
      (Rgcn.kmsg (E := 409600) (H := 128) (O := 128) (W := 1024) (by norm_num) (V c main_v1) (V c main_v5) (V c main_v7)) := by
  show (cfg0.win 3).cut (grid0.coords t) ((dat0 V c).after 3 t) = _
  rw [after0_3]
  unfold out0_3
  rw [View.canon_unit_zero hz]
  simp only [View.ld_unit_zero (S := S2048x128) hz, View.ld_unit_zero (S := S128x1024) hz, View.ld_unit_zero (S := S2048x8) hz]
  have ht : t.val < 200 := lt_of_lt_of_eq t.isLt N_0
  obtain ⟨-, -, -, -, -, -, e6, e7⟩ := idx_facts0 t
  funext j
  obtain ⟨p, q, rfl⟩ : ∃ (p : Fin 2048) (q : Fin 128), j = ix2 p q := ⟨j 0, j 1, eq_ix2 j⟩
  have he : t.val * 2048 + p.val < 409600 := by have := p.isLt; omega
  show k0_pay1 (F := Ideal) (iblk0 V c 0 t) (iblk0 V c 2 t) (iblk0 V c 1 t) (ix2 p q)
    = Rgcn.kmsg (E := 409600) (H := 128) (O := 128) (W := 1024) (by norm_num) (V c main_v1) (V c main_v5) (V c main_v7) (((cfg0.win 3).blk t).view.emb (ix2 p q))
  refine (blockValue0 (iblk0 V c 0 t) (iblk0 V c 1 t) (iblk0 V c 2 t) (V c main_v1) (V c main_v5) (V c main_v7) p q ⟨t.val * 2048 + p.val, he⟩
    (fun k => blk0_0_apply V c t p k _ rfl) (fun b => blk0_1_apply V c t p b _ rfl) (fun k r => blk0_2_apply V c t k r)).trans ?_
  refine congrArg (Rgcn.kmsg (E := 409600) (H := 128) (O := 128) (W := 1024) (by norm_num) (V c main_v1) (V c main_v5) (V c main_v7)) ?_
  funext a
  apply Fin.ext
  match a with
  | ⟨0, _⟩ => show t.val * 2048 + p.val = win0_3.index t (0 : Fin 2) * 2048 + 1 * p.val; rw [e6]; omega
  | ⟨1, _⟩ => show q.val = win0_3.index t (1 : Fin 2) * 128 + 1 * q.val; rw [e7]; omega

/-- An index of the output array is in point `t`'s block iff each coordinate is in the block's range on its axis. -/
theorem mem_blk0 (t : Fin cfg0.N) (i : S409600x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v8).slice (win0_3.rect t)).set ↔ _
  rw [View.set_slice_whole, Rect.mem_set_unit]
  exact Iff.rfl

/-- Every row of the output lies in the block of the point `row / 2048`. -/
theorem cover0 (i : S409600x128.Idx) : ∃ t : Fin cfg0.N, (cfg0.win 3).flush t = true ∧ i ∈ ((cfg0.win 3).blk t).view.set := by
  have hi0 : (i 0).val < 409600 := idx2_lt0 i
  have hi1 : (i 1).val < 128 := idx2_lt1 i
  obtain ⟨t, ht⟩ : ∃ t : Fin cfg0.N, t.val = (i 0).val / 2048 := ⟨⟨(i 0).val / 2048, by rw [show cfg0.N = 200 from N_0]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; rw [e6, ht]; omega
  | ⟨1, _⟩ => show win0_3.index t (1 : Fin 2) * 128 ≤ (i 1).val ∧ (i 1).val < win0_3.index t (1 : Fin 2) * 128 + 128; rw [e7]; omega

/-! # Launch 1: 20480 edges, eight bases of 64 columns

## The block's product with the stacked bases, read at an index -/

theorem lhs_prod1_0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhs_prod1_1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem rhs_prod1_0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem rhs_prod1_1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- Entry `(p, r)` of the block's product is row `p` of the features against column `r` of the stacked bases. -/
theorem prod1_apply (a : FVec Ideal S2048x128 .bf16) (w : FVec Ideal S128x512 .bf16) (p : Fin 2048) (r : Fin 512) :
    matmul dot_S2048x128_S128x512_S2048x512_1_0_0_1_n_n none a w (constant (F := Ideal) S2048x512 .f32 0x00000000#32) (ix2 p r)
      = ∑ k : Fin 128, a (ix2 p k) * w (ix2 k r) := by
  simp only [matmul]
  rw [Ideal.matmul_constant_zero_apply, ← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 p r) ((ValueIdx.contrEquiv1 dot_S2048x128_S128x512_S2048x512_1_0_0_1_n_n 128 rfl rfl).symm k) = ix2 p k := funext fun ax => Fin.ext (by
    match ax with
    | ⟨0, _⟩ => exact lhs_prod1_0 _ _
    | ⟨1, _⟩ => exact (lhs_prod1_1 _ _).trans hk)
  have er : dot_S2048x128_S128x512_S2048x512_1_0_0_1_n_n.rhsIdx (ix2 p r) ((ValueIdx.contrEquiv1 dot_S2048x128_S128x512_S2048x512_1_0_0_1_n_n 128 rfl rfl).symm k) = ix2 k r := funext fun ax => Fin.ext (by
    match ax with
    | ⟨0, _⟩ => exact (rhs_prod1_0 _ _).trans hk
    | ⟨1, _⟩ => exact rhs_prod1_1 _ _)
  rw [el, er]

/-! ## The body's result at an index -/

/-- One basis's share of a block entry: the product's column `off + q` times coefficient `b` of row `p`. -/
theorem share1_apply (M : FVec Ideal S2048x512 .f32) (cs : FVec Ideal S2048x8 .f32) (off b : ℕ)
    (hs : S2048x512.Slices ![0, off] S2048x64) (hc : S2048x8.Slices ![0, b] S2048x1) (hb : S2048x1.Broadcasts S2048x64)
    (p : Fin 2048) (q : Fin 64) (r : Fin 512) (hr : r.val = off + q.val) (b' : Fin 8) (hb' : b'.val = b + (0 : Fin 1).val) :
    extractStridedSlice S2048x64 ![0, off] M hs (ix2 p q) * broadcastTo S2048x64 (extractStridedSlice S2048x1 ![0, b] cs hc) hb (ix2 p q)
      = M (ix2 p r) * cs (ix2 p b') := by
  rw [sliceCols_apply off M hs p q r hr, broadcastTo_a1_ab_apply _ hb p q, sliceCols_apply b cs hc p (0 : Fin 1) b' hb']

/-- Entry `(p, q)` of the body's result on a feature block `x0`, the stacked bases `x2` and a coefficient block `x1`:
    the eight shares added (the change of float format before the product is the identity on extended reals, and the sum
    starts from zero). -/
theorem pay1_apply (x0 : Vec Ideal S2048x128 .f32) (x2 : Vec Ideal S128x512 .f32) (x1 : Vec Ideal S2048x8 .f32) (p : Fin 2048) (q : Fin 64) :
    k1_pay1 (F := Ideal) x0 x2 x1 (ix2 p q)
      = ∑ b : Fin 8, (∑ k : Fin 128, x0 (ix2 p k) * x2 (ix2 k (Rgcn.stackCol (W := 512) (O := 64) (by norm_num) b q))) * x1 (ix2 p b) := by
  unfold k1_pay1
  simp only [addf_apply, mulf_apply, broadcast_apply]
  rw [Fin.sum_univ_eight]
  have hz0 : (FloatOps.ofBits (F := Ideal) .f32 0x00000000#32 : EReal) = 0 := Ideal.ofBits_zero_f32
  rw [hz0, zero_add,
    share1_apply _ _ 0 0 _ _ _ p q (Rgcn.stackCol (W := 512) (O := 64) (by norm_num) 0 q) rfl 0 rfl,
    share1_apply _ _ 64 1 _ _ _ p q (Rgcn.stackCol (W := 512) (O := 64) (by norm_num) 1 q) rfl 1 rfl,
    share1_apply _ _ 128 2 _ _ _ p q (Rgcn.stackCol (W := 512) (O := 64) (by norm_num) 2 q) rfl 2 rfl,
    share1_apply _ _ 192 3 _ _ _ p q (Rgcn.stackCol (W := 512) (O := 64) (by norm_num) 3 q) rfl 3 rfl,
    share1_apply _ _ 256 4 _ _ _ p q (Rgcn.stackCol (W := 512) (O := 64) (by norm_num) 4 q) rfl 4 rfl,
    share1_apply _ _ 320 5 _ _ _ p q (Rgcn.stackCol (W := 512) (O := 64) (by norm_num) 5 q) rfl 5 rfl,
    share1_apply _ _ 384 6 _ _ _ p q (Rgcn.stackCol (W := 512) (O := 64) (by norm_num) 6 q) rfl 6 rfl,
    share1_apply _ _ 448 7 _ _ _ p q (Rgcn.stackCol (W := 512) (O := 64) (by norm_num) 7 q) rfl 7 rfl]
  simp only [prod1_apply, truncf_apply, shapeCast_self]

/-- The same on blocks whose row `p` is row `e` of the features `h` and of the coefficients `cs`, the bases' block being
    the whole of `vst`: the folded, stacked message at edge `e`. -/
theorem blockValue1 (x0 : Vec Ideal S2048x128 .f32) (x1 : Vec Ideal S2048x8 .f32) (x2 : Vec Ideal S128x512 .f32)
    (h : S20480x128.Idx → EReal) (cs : S20480x8.Idx → EReal) (vst : S128x512.Idx → EReal)
    (p : Fin 2048) (q : Fin 64) (e : Fin 20480)
    (h0 : ∀ k : Fin 128, x0 (ix2 p k) = h (ix2 e k)) (h1 : ∀ b : Fin 8, x1 (ix2 p b) = cs (ix2 e b))
    (h2 : ∀ (k : Fin 128) (r : Fin 512), x2 (ix2 k r) = vst (ix2 k r)) :
    k1_pay1 (F := Ideal) x0 x2 x1 (ix2 p q) = Rgcn.kmsg (E := 20480) (H := 128) (O := 64) (W := 512) (by norm_num) h cs vst (ix2 e q) := by
  rw [pay1_apply, Rgcn.kmsg_apply]
  unfold Rgcn.kmsgAt
  simp only [h0, h1, h2]

/-! ## From the blocks to the array -/

/-- The index maps over the grid: point `t` takes row block `t` of the edge features, of the coefficients and of the
    output, and the whole of the stacked bases. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the feature block at point `t` is row `2048·t + p` of the edge features. -/
theorem blk1_0_apply (c : Dev nD) (t : Fin cfg1.N) (p : Fin 2048) (k : Fin 128) (e : Fin 20480) (he : e.val = t.val * 2048 + p.val) :
    (iblk1 V c 0 t : Vec Ideal S2048x128 .f32) (ix2 p k) = (V c main_v16 : S20480x128.Idx → EReal) (ix2 e k) := by
  obtain ⟨e0, e1, -⟩ := idx_facts1 t
  unfold iblk1
  rw [View.read_apply]
  show V c main_v16 _ = V c main_v16 _
  congr 1
  funext a
  apply Fin.ext
  match a with
  | ⟨0, _⟩ => show win1_0.index t (0 : Fin 2) * 2048 + 1 * p.val = e.val; rw [e0, he]; omega
  | ⟨1, _⟩ => show win1_0.index t (1 : Fin 2) * 128 + 1 * k.val = k.val; rw [e1]; omega

/-- Row `p` of the coefficient block at point `t` is row `2048·t + p` of the folded coefficients. -/
theorem blk1_1_apply (c : Dev nD) (t : Fin cfg1.N) (p : Fin 2048) (b : Fin 8) (e : Fin 20480) (he : e.val = t.val * 2048 + p.val) :
    (iblk1 V c 1 t : Vec Ideal S2048x8 .f32) (ix2 p b) = (V c main_v20 : S20480x8.Idx → EReal) (ix2 e b) := by
  obtain ⟨-, -, e0, e1, -⟩ := idx_facts1 t
  unfold iblk1
  rw [View.read_apply]
  show V c main_v20 _ = V c main_v20 _
  congr 1
  funext a
  apply Fin.ext
  match a with
  | ⟨0, _⟩ => show win1_1.index t (0 : Fin 2) * 2048 + 1 * p.val = e.val; rw [e0, he]; omega
  | ⟨1, _⟩ => show win1_1.index t (1 : Fin 2) * 8 + 1 * b.val = b.val; rw [e1]; omega

/-- The bases' block at every point is the whole array of stacked bases. -/
theorem blk1_2_apply (c : Dev nD) (t : Fin cfg1.N) (k : Fin 128) (r : Fin 512) :
    (iblk1 V c 2 t : Vec Ideal S128x512 .f32) (ix2 k r) = (V c main_v22 : S128x512.Idx → EReal) (ix2 k r) := by
  obtain ⟨-, -, -, -, e0, e1, -⟩ := idx_facts1 t
  unfold iblk1
  rw [View.read_apply]
  show V c main_v22 _ = V c main_v22 _
  congr 1
  funext a
  apply Fin.ext
  match a with
  | ⟨0, _⟩ => show win1_2.index t (0 : Fin 2) * 128 + 1 * k.val = k.val; rw [e0]; omega
  | ⟨1, _⟩ => show win1_2.index t (1 : Fin 2) * 512 + 1 * r.val = r.val; rw [e1]; omega

/-- What point `t` writes back is block `t` of the message of the three arrays as the launch finds them. -/
theorem flushed1_eq (c : Dev nD) (t : Fin cfg1.N) :
    (dat1 V c).flushed 3 t = ((cfg1.win 3).blk t).view.read (Elt Ideal)
      (Rgcn.kmsg (E := 20480) (H := 128) (O := 64) (W := 512) (by norm_num) (V c main_v16) (V c main_v20) (V c main_v22)) := by
  show (cfg1.win 3).cut (grid1.coords t) ((dat1 V c).after 3 t) = _
  rw [after1_3]
  unfold out1_3
  rw [View.canon_unit_zero hz]
  simp only [View.ld_unit_zero (S := S2048x128) hz, View.ld_unit_zero (S := S128x512) hz, View.ld_unit_zero (S := S2048x8) hz]
  have ht : t.val < 10 := lt_of_lt_of_eq t.isLt N_1
  obtain ⟨-, -, -, -, -, -, e6, e7⟩ := idx_facts1 t
  funext j
  obtain ⟨p, q, rfl⟩ : ∃ (p : Fin 2048) (q : Fin 64), j = ix2 p q := ⟨j 0, j 1, eq_ix2 j⟩
  have he : t.val * 2048 + p.val < 20480 := by have := p.isLt; omega
  show k1_pay1 (F := Ideal) (iblk1 V c 0 t) (iblk1 V c 2 t) (iblk1 V c 1 t) (ix2 p q)
    = Rgcn.kmsg (E := 20480) (H := 128) (O := 64) (W := 512) (by norm_num) (V c main_v16) (V c main_v20) (V c main_v22) (((cfg1.win 3).blk t).view.emb (ix2 p q))
  refine (blockValue1 (iblk1 V c 0 t) (iblk1 V c 1 t) (iblk1 V c 2 t) (V c main_v16) (V c main_v20) (V c main_v22) p q ⟨t.val * 2048 + p.val, he⟩
    (fun k => blk1_0_apply V c t p k _ rfl) (fun b => blk1_1_apply V c t p b _ rfl) (fun k r => blk1_2_apply V c t k r)).trans ?_
  refine congrArg (Rgcn.kmsg (E := 20480) (H := 128) (O := 64) (W := 512) (by norm_num) (V c main_v16) (V c main_v20) (V c main_v22)) ?_
  funext a
  apply Fin.ext
  match a with
  | ⟨0, _⟩ => show t.val * 2048 + p.val = win1_3.index t (0 : Fin 2) * 2048 + 1 * p.val; rw [e6]; omega
  | ⟨1, _⟩ => show q.val = win1_3.index t (1 : Fin 2) * 64 + 1 * q.val; rw [e7]; omega

/-- An index of the output array is in point `t`'s block iff each coordinate is in the block's range on its axis. -/
theorem mem_blk1 (t : Fin cfg1.N) (i : S20480x64.Idx) :
    i ∈ ((cfg1.win 3).blk t).view.set ↔ ∀ a : Fin 2, win1_3.index t a * S2048x64.size a ≤ (i a).val ∧ (i a).val < win1_3.index t a * S2048x64.size a + S2048x64.size a := by
  show i ∈ ((View.whole main_v23).slice (win1_3.rect t)).set ↔ _
  rw [View.set_slice_whole, Rect.mem_set_unit]
  exact Iff.rfl

/-- Every row of the output lies in the block of the point `row / 2048`. -/
theorem cover1 (i : S20480x64.Idx) : ∃ t : Fin cfg1.N, (cfg1.win 3).flush t = true ∧ i ∈ ((cfg1.win 3).blk t).view.set := by
  have hi0 : (i 0).val < 20480 := idx2_lt0 i
  have hi1 : (i 1).val < 64 := idx2_lt1 i
  obtain ⟨t, ht⟩ : ∃ t : Fin cfg1.N, t.val = (i 0).val / 2048 := ⟨⟨(i 0).val / 2048, by rw [show cfg1.N = 10 from N_1]; omega⟩, rfl⟩
  obtain ⟨-, -, -, -, -, -, e6, e7⟩ := idx_facts1 t
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; rw [e6, ht]; omega
  | ⟨1, _⟩ => show win1_3.index t (1 : Fin 2) * 64 ≤ (i 1).val ∧ (i 1).val < win1_3.index t (1 : Fin 2) * 64 + 64; rw [e7]; omega

end Region

/-! # The two launches' results -/

/-- After the launch the output array holds the folded, stacked message of the three arrays the launch found. -/
theorem region0_value (c : Dev nD) :
    (dat0 (F := Ideal) V c).arrAt 3 cfg0.N
      = Rgcn.kmsg (E := 409600) (H := 128) (O := 128) (W := 1024) (by norm_num) (V c main_v1) (V c main_v5) (V c main_v7) :=
  (dat0 V c).arrAt_eq_of_cover 3 _ (fun t _ => Region.flushed0_eq V c t) Region.cover0

/-- After the launch the output array holds the folded, stacked message of the three arrays the launch found. -/
theorem region1_value (c : Dev nD) :
    (dat1 (F := Ideal) V c).arrAt 3 cfg1.N
      = Rgcn.kmsg (E := 20480) (H := 128) (O := 64) (W := 512) (by norm_num) (V c main_v16) (V c main_v20) (V c main_v22) :=
  (dat1 V c).arrAt_eq_of_cover 3 _ (fun t _ => Region.flushed1_eq V c t) Region.cover1

end Cert.KernelIdeal.KVal

end
-- ==== Proof.KTake.lean ====
/-
  The kernel program looks rows up with out-of-range reads filled (a mask of the in-range indices selects between the
  gathered row and a fill value). For indices in range the mask is all ones and the lookup is the plain row gather at
  the index itself: one lemma per lookup of the program, each over the buffer contents just before its operations.
-/
import proofs.«426843_j75857712381962_3_alg».proof.Proof.Gen.KernelIdeal.Frame
import proofs.«426843_j75857712381962_3_alg».proof.Proof.Spec
import Idealize.ShloMosaic.Lib.StableHlo.Predicate

set_option maxRecDepth 16384

noncomputable section

namespace Rgcn.FillTake

open Idealize.ShloMosaic Idealize.ShloMosaic.ValueIdx Idealize.ShloMosaic.RowGather

/-! ## Words -/

/-- A word that reads non-negative is not below zero. -/
theorem cmpi_slt_zero {a : BitVec 32} (h : 0 ≤ a.toInt) : IntOp.cmpi .slt a 0#32 = 0#1 := by
  have h0 : (0#32 : BitVec 32).toInt = 0 := by decide
  have hf : a.slt 0#32 = false := by
    simp only [BitVec.slt, h0, decide_eq_false_iff_not, not_lt]; exact h
  show BitVec.ofBool (a.slt 0#32) = 0#1
  rw [hf]; rfl

/-- A word that reads non-negative is at least zero. -/
theorem cmpi_sge_zero {a : BitVec 32} (h : 0 ≤ a.toInt) : IntOp.cmpi .sge a 0#32 = 1#1 := by
  have h0 : (0#32 : BitVec 32).toInt = 0 := by decide
  have ht : (0#32 : BitVec 32).sle a = true := by
    simp only [BitVec.sle, h0, decide_eq_true_eq]; exact h
  show BitVec.ofBool ((0#32 : BitVec 32).sle a) = 1#1
  rw [ht]; rfl

/-- Signed comparison of two words is the comparison of their signed readings. -/
theorem cmpi_sle_of_le {a b : BitVec 32} (h : a.toInt ≤ b.toInt) : IntOp.cmpi .sle a b = 1#1 := by
  have ht : a.sle b = true := by
    simp only [BitVec.sle, decide_eq_true_eq]; exact h
  show BitVec.ofBool (a.sle b) = 1#1
  rw [ht]; rfl

/-! ## A conjunction over an axis -/

/-- A left fold by "and" from 1 over 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- The "and" of an all-ones array along any axes, from 1, is all ones. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

/-! ## A vector laid along the first axis -/

/-- A vector of length E broadcast along the first axis of an [E, C] rectangle reads, at (e, c), the vector at e. -/
theorem bcast_axis0_apply {α : Type} {E C : Nat} (hb : (⟨1, ![E]⟩ : Shape).BroadcastsInDim ⟨2, ![E, C]⟩ ![0])
    (v : (⟨1, ![E]⟩ : Shape).Idx → α) (j : (⟨2, ![E, C]⟩ : Shape).Idx) :
    broadcastInDim ⟨2, ![E, C]⟩ ![0] hb v j = v (ix1 (j 0)) := by
  simp only [broadcastInDim]
  congr 1
  funext a
  obtain rfl : a = 0 := Subsingleton.elim _ _
  apply Fin.ext
  have hp : (j 0).val < E := idx2_lt0 j
  split
  · next h1 => change E = 1 at h1; show (0 : Nat) = (j 0).val; omega
  · rfl

/-! ## The filled lookup -/

variable {E : Nat}

/-- The start indices of the lookup: the index vector with the table's length added where it reads negative, laid as an
    [E, 1] column. -/
abbrev normCol (hb0 : (⟨0, ![]⟩ : Shape).BroadcastsInDim ⟨1, ![E]⟩ ![])
    (hbc : (⟨1, ![E]⟩ : Shape).BroadcastsInDim ⟨2, ![E, 1]⟩ ![0]) (cN : BitVec 32) (idx : IVec ⟨1, ![E]⟩ 32) : IVec ⟨2, ![E, 1]⟩ 32 :=
  broadcastInDim ⟨2, ![E, 1]⟩ ![0] hbc
    (select (cmpi .slt idx (broadcastInDim ⟨1, ![E]⟩ ![] hb0 (constantI ⟨0, ![]⟩ 32 0#32)))
      (addi idx (broadcastInDim ⟨1, ![E]⟩ ![] hb0 (constantI ⟨0, ![]⟩ 32 cN))) idx)

/-- The mask of the start indices that lie in [0, cM], one bit per looked-up row. -/
abbrev inMask (hb0c : (⟨0, ![]⟩ : Shape).BroadcastsInDim ⟨2, ![E, 1]⟩ ![])
    (hb1 : (⟨1, ![1]⟩ : Shape).BroadcastsInDim ⟨2, ![1, 1]⟩ ![1])
    (hb11 : (⟨2, ![1, 1]⟩ : Shape).BroadcastsInDim ⟨2, ![E, 1]⟩ ![0, 1])
    (hred : (⟨2, ![E, 1]⟩ : Shape).ReducesTo [1] ⟨1, ![E]⟩) (hu : 0 < (⟨0, ![]⟩ : Shape).numel)
    (cM : BitVec 32) (v : IVec ⟨2, ![E, 1]⟩ 32) : IVec ⟨1, ![E]⟩ 1 :=
  Host.reduce IntOp.andi
    (andi (cmpi .sge v (broadcastInDim ⟨2, ![E, 1]⟩ ![] hb0c (constantI ⟨0, ![]⟩ 32 0#32)))
      (cmpi .sle v (broadcastInDim ⟨2, ![E, 1]⟩ ![0, 1] hb11 (broadcastInDim ⟨2, ![1, 1]⟩ ![1] hb1 (constantI ⟨1, ![1]⟩ 32 cM)))))
    (constantI ⟨0, ![]⟩ 1 1#1) hred hu

/-- Where the index reads non-negative the start index is the index itself. -/
theorem normCol_apply (hb0 : (⟨0, ![]⟩ : Shape).BroadcastsInDim ⟨1, ![E]⟩ ![])
    (hbc : (⟨1, ![E]⟩ : Shape).BroadcastsInDim ⟨2, ![E, 1]⟩ ![0]) (cN : BitVec 32) (idx : IVec ⟨1, ![E]⟩ 32)
    (j : (⟨2, ![E, 1]⟩ : Shape).Idx) (h : 0 ≤ (idx (ix1 (j 0))).toInt) :
    normCol hb0 hbc cN idx j = idx (ix1 (j 0)) := by
  rw [normCol, bcast_axis0_apply]
  show Scalar.select (IntOp.cmpi .slt (idx (ix1 (j 0))) 0#32) (IntOp.addi (idx (ix1 (j 0))) cN) (idx (ix1 (j 0))) = _
  rw [cmpi_slt_zero h, select_zero]

/-- With every start index in [0, cM] the mask is all ones. -/
theorem inMask_eq_one (hb0c : (⟨0, ![]⟩ : Shape).BroadcastsInDim ⟨2, ![E, 1]⟩ ![])
    (hb1 : (⟨1, ![1]⟩ : Shape).BroadcastsInDim ⟨2, ![1, 1]⟩ ![1])
    (hb11 : (⟨2, ![1, 1]⟩ : Shape).BroadcastsInDim ⟨2, ![E, 1]⟩ ![0, 1])
    (hred : (⟨2, ![E, 1]⟩ : Shape).ReducesTo [1] ⟨1, ![E]⟩) (hu : 0 < (⟨0, ![]⟩ : Shape).numel)
    (cM : BitVec 32) (v : IVec ⟨2, ![E, 1]⟩ 32) (hv : ∀ j, 0 ≤ (v j).toInt ∧ (v j).toInt ≤ cM.toInt) (i : (⟨1, ![E]⟩ : Shape).Idx) :
    inMask hb0c hb1 hb11 hred hu cM v i = 1#1 := by
  refine reduce_andi_ones _ _ hred hu (fun _ => rfl) (fun j => ?_) i
  show IntOp.andi (IntOp.cmpi .sge (v j) 0#32) (IntOp.cmpi .sle (v j) cM) = 1#1
  rw [cmpi_sge_zero (hv j).1, cmpi_sle_of_le (hv j).2]; rfl

/-- The filled lookup in a table of scalars, all indices in range: entry e is the table at the index. -/
theorem take_scalar_eq {α : Type} {N : Nat} (hN : 0 < N)
    (wf : GatherDims.WF ⟨1, ![N]⟩ ⟨2, ![E, 1]⟩ ⟨1, ![E]⟩ [] [0] [] [0] [] 1 ![1])
    (hb0 : (⟨0, ![]⟩ : Shape).BroadcastsInDim ⟨1, ![E]⟩ ![])
    (hbc : (⟨1, ![E]⟩ : Shape).BroadcastsInDim ⟨2, ![E, 1]⟩ ![0])
    (hb0c : (⟨0, ![]⟩ : Shape).BroadcastsInDim ⟨2, ![E, 1]⟩ ![])
    (hb1 : (⟨1, ![1]⟩ : Shape).BroadcastsInDim ⟨2, ![1, 1]⟩ ![1])
    (hb11 : (⟨2, ![1, 1]⟩ : Shape).BroadcastsInDim ⟨2, ![E, 1]⟩ ![0, 1])
    (hred : (⟨2, ![E, 1]⟩ : Shape).ReducesTo [1] ⟨1, ![E]⟩) (hu : 0 < (⟨0, ![]⟩ : Shape).numel)
    (cN cM : BitVec 32) (hM : cM.toInt = (N : Int) - 1)
    (x : (⟨1, ![N]⟩ : Shape).Idx → α) (idx : IVec ⟨1, ![E]⟩ 32) (fill : (⟨1, ![E]⟩ : Shape).Idx → α)
    (h : ∀ i, 0 ≤ (idx i).toInt ∧ (idx i).toInt < N) :
    select (inMask hb0c hb1 hb11 hred hu cM (normCol hb0 hbc cN idx))
        (Host.gather (scalarDims N E wf) x (normCol hb0 hbc cN idx)) fill
      = fun i => x (ix1 (clampRow N hN (idx i))) := by
  funext i
  have hv : ∀ j, 0 ≤ (normCol hb0 hbc cN idx j).toInt ∧ (normCol hb0 hbc cN idx j).toInt ≤ cM.toInt := fun j => by
    rw [normCol_apply hb0 hbc cN idx j (h _).1, hM]
    have := h (ix1 (j 0)); omega
  rw [select_apply, inMask_eq_one hb0c hb1 hb11 hred hu cM _ hv, select_one, gather_scalar_apply hN,
    normCol_apply hb0 hbc cN idx _ (h _).1]
  exact congrArg (fun k => x (ix1 (clampRow N hN (idx k)))) (eq_ix1 i).symm

/-- The filled lookup in a table of rows, all indices in range: row e is the table's row at the index. -/
theorem take_rows_eq {α : Type} {N C : Nat} (hN : 0 < N)
    (wf : GatherDims.WF ⟨2, ![N, C]⟩ ⟨2, ![E, 1]⟩ ⟨2, ![E, C]⟩ [1] [0] [] [0] [] 1 ![1, C])
    (hb0 : (⟨0, ![]⟩ : Shape).BroadcastsInDim ⟨1, ![E]⟩ ![])
    (hbc : (⟨1, ![E]⟩ : Shape).BroadcastsInDim ⟨2, ![E, 1]⟩ ![0])
    (hb0c : (⟨0, ![]⟩ : Shape).BroadcastsInDim ⟨2, ![E, 1]⟩ ![])
    (hb1 : (⟨1, ![1]⟩ : Shape).BroadcastsInDim ⟨2, ![1, 1]⟩ ![1])
    (hb11 : (⟨2, ![1, 1]⟩ : Shape).BroadcastsInDim ⟨2, ![E, 1]⟩ ![0, 1])
    (hred : (⟨2, ![E, 1]⟩ : Shape).ReducesTo [1] ⟨1, ![E]⟩) (hu : 0 < (⟨0, ![]⟩ : Shape).numel)
    (hbm : (⟨1, ![E]⟩ : Shape).BroadcastsInDim ⟨2, ![E, C]⟩ ![0])
    (cN cM : BitVec 32) (hM : cM.toInt = (N : Int) - 1)
    (x : (⟨2, ![N, C]⟩ : Shape).Idx → α) (idx : IVec ⟨1, ![E]⟩ 32) (fill : (⟨2, ![E, C]⟩ : Shape).Idx → α)
    (h : ∀ i, 0 ≤ (idx i).toInt ∧ (idx i).toInt < N) :
    select (broadcastInDim ⟨2, ![E, C]⟩ ![0] hbm (inMask hb0c hb1 hb11 hred hu cM (normCol hb0 hbc cN idx)))
        (Host.gather (rowDims N C E wf) x (normCol hb0 hbc cN idx)) fill
      = fun i => x (ix2 (clampRow N hN (idx (ix1 (i 0)))) (i 1)) := by
  funext i
  have hv : ∀ j, 0 ≤ (normCol hb0 hbc cN idx j).toInt ∧ (normCol hb0 hbc cN idx j).toInt ≤ cM.toInt := fun j => by
    rw [normCol_apply hb0 hbc cN idx j (h _).1, hM]
    have := h (ix1 (j 0)); omega
  rw [select_apply, bcast_axis0_apply, inMask_eq_one hb0c hb1 hb11 hred hu cM _ hv, select_one, gather_row_apply hN,
    normCol_apply hb0 hbc cN idx _ (h _).1]
  rfl

end Rgcn.FillTake

namespace Cert.KernelIdeal.KVal

open Cert.KernelIdeal Cert.KernelIdeal.Gen
open Idealize.ShloMosaic Idealize.ShloMosaic.TcCoe Idealize.SL.Sem Idealize.ShloMosaic.ValueIdx Idealize.ShloMosaic.RowGather

/-! Each lookup, stated over any contents of the buffers before it. -/
namespace Take

/-- Contents carried to a reference's own type and back are the contents. -/
theorem ofBuf_toBuf' {sg : RefSig} {T : BufTy} {Val : EltTy → Type} (x : StableHlo.TRef sg T) (v : T.Contents Val) :
    x.ofBuf (x.toBuf v) = v := by
  obtain ⟨r, rfl, _, _⟩ := x
  rfl

set_option maxHeartbeats 1000000 in
/-- The first lookup over any contents of the buffers before it: with the indices in range the mask is all ones and the
    result is the table read at the index. -/
theorem srcIds_get (V : Valuation τ sig (Elt Ideal))
    (h : ∀ i, 0 ≤ (((StableHlo.TRef.of (T := ⟨S409600, .i32⟩) main_arg1).ofBuf (V (Proc.devRef .tc main_arg1))) i).toInt
      ∧ (((StableHlo.TRef.of (T := ⟨S409600, .i32⟩) main_arg1).ofBuf (V (Proc.devRef .tc main_arg1))) i).toInt < 262144) :
    (StableHlo.TRef.of (T := ⟨S409600, .i32⟩) main_v0).ofBuf (StableHlo.after hostOps0 V (Proc.devRef .tc main_v0))
      = fun i => ((StableHlo.TRef.of (T := ⟨S262144, .i32⟩) main_arg0).ofBuf (V (Proc.devRef .tc main_arg0)))
          (ix1 (clampRow 262144 (by decide) (((StableHlo.TRef.of (T := ⟨S409600, .i32⟩) main_arg1).ofBuf (V (Proc.devRef .tc main_arg1))) i))) := by
  after_results_simp
  simp only [ofBuf_toBuf']
  generalize (StableHlo.TRef.of (T := ⟨S409600, .i32⟩) main_arg1).ofBuf (V (Proc.devRef .tc main_arg1)) = idx at h ⊢
  generalize (StableHlo.TRef.of (T := ⟨S262144, .i32⟩) main_arg0).ofBuf (V (Proc.devRef .tc main_arg0)) = tbl
  exact Rgcn.FillTake.take_scalar_eq (N := 262144) (E := 409600) (by decide) _ _ _ _ _ _ _ _ 262144#32 262143#32 (by decide) tbl idx _ h

set_option maxHeartbeats 1000000 in
/-- The second lookup (rows of the embedding table) over any contents of the buffers before it. -/
theorem emb_get (V : Valuation τ sig (Elt Ideal))
    (h : ∀ i, 0 ≤ (((StableHlo.TRef.of (T := ⟨S409600, .i32⟩) main_v0).ofBuf (V (Proc.devRef .tc main_v0))) i).toInt
      ∧ (((StableHlo.TRef.of (T := ⟨S409600, .i32⟩) main_v0).ofBuf (V (Proc.devRef .tc main_v0))) i).toInt < 1000000) :
    (StableHlo.TRef.of (T := ⟨S409600x128, .f32⟩) main_v1).ofBuf (StableHlo.after hostOps0_1 V (Proc.devRef .tc main_v1))
      = Rgcn.rowsAt (N := 1000000) (by decide)
          ((StableHlo.TRef.of (T := ⟨S1000000x128, .f32⟩) main_arg9).ofBuf (V (Proc.devRef .tc main_arg9)))
          ((StableHlo.TRef.of (T := ⟨S409600, .i32⟩) main_v0).ofBuf (V (Proc.devRef .tc main_v0))) := by
  after_results_simp
  simp only [ofBuf_toBuf']
  generalize (StableHlo.TRef.of (T := ⟨S409600, .i32⟩) main_v0).ofBuf (V (Proc.devRef .tc main_v0)) = idx at h ⊢
  generalize (StableHlo.TRef.of (T := ⟨S1000000x128, .f32⟩) main_arg9).ofBuf (V (Proc.devRef .tc main_arg9)) = tbl
  exact Rgcn.FillTake.take_rows_eq (N := 1000000) (C := 128) (E := 409600) (by decide) _ _ _ _ _ _ _ _ _ 1000000#32 999999#32 (by decide) tbl idx _ h

set_option maxHeartbeats 1000000 in
/-- The third lookup (rows of the first layer's coefficients) over any contents of the buffers before it. -/
theorem comp1_get (V : Valuation τ sig (Elt Ideal))
    (h : ∀ i, 0 ≤ (((StableHlo.TRef.of (T := ⟨S409600, .i32⟩) main_arg3).ofBuf (V (Proc.devRef .tc main_arg3))) i).toInt
      ∧ (((StableHlo.TRef.of (T := ⟨S409600, .i32⟩) main_arg3).ofBuf (V (Proc.devRef .tc main_arg3))) i).toInt < 64) :
    (StableHlo.TRef.of (T := ⟨S409600x8, .f32⟩) main_v2).ofBuf (StableHlo.after hostOps0_2 V (Proc.devRef .tc main_v2))
      = Rgcn.rowsAt (N := 64) (by decide)
          ((StableHlo.TRef.of (T := ⟨S64x8, .f32⟩) main_arg11).ofBuf (V (Proc.devRef .tc main_arg11)))
          ((StableHlo.TRef.of (T := ⟨S409600, .i32⟩) main_arg3).ofBuf (V (Proc.devRef .tc main_arg3))) := by
  after_results_simp
  simp only [ofBuf_toBuf']
  generalize (StableHlo.TRef.of (T := ⟨S409600, .i32⟩) main_arg3).ofBuf (V (Proc.devRef .tc main_arg3)) = idx at h ⊢
  generalize (StableHlo.TRef.of (T := ⟨S64x8, .f32⟩) main_arg11).ofBuf (V (Proc.devRef .tc main_arg11)) = tbl
  exact Rgcn.FillTake.take_rows_eq (N := 64) (C := 8) (E := 409600) (by decide) _ _ _ _ _ _ _ _ _ 64#32 63#32 (by decide) tbl idx _ h

set_option maxHeartbeats 1000000 in
/-- The fourth lookup (rows of the hidden features) over any contents of the buffers before it. -/
theorem hid_get (V : Valuation τ sig (Elt Ideal))
    (h : ∀ i, 0 ≤ (((StableHlo.TRef.of (T := ⟨S20480, .i32⟩) main_arg5).ofBuf (V (Proc.devRef .tc main_arg5))) i).toInt
      ∧ (((StableHlo.TRef.of (T := ⟨S20480, .i32⟩) main_arg5).ofBuf (V (Proc.devRef .tc main_arg5))) i).toInt < 16384) :
    (StableHlo.TRef.of (T := ⟨S20480x128, .f32⟩) main_v16).ofBuf (StableHlo.after hostOps1_2 V (Proc.devRef .tc main_v16))
      = Rgcn.rowsAt (N := 16384) (by decide)
          ((StableHlo.TRef.of (T := ⟨S16384x128, .f32⟩) main_v15).ofBuf (V (Proc.devRef .tc main_v15)))
          ((StableHlo.TRef.of (T := ⟨S20480, .i32⟩) main_arg5).ofBuf (V (Proc.devRef .tc main_arg5))) := by
  after_results_simp
  simp only [ofBuf_toBuf']
  generalize (StableHlo.TRef.of (T := ⟨S20480, .i32⟩) main_arg5).ofBuf (V (Proc.devRef .tc main_arg5)) = idx at h ⊢
  generalize (StableHlo.TRef.of (T := ⟨S16384x128, .f32⟩) main_v15).ofBuf (V (Proc.devRef .tc main_v15)) = tbl
  exact Rgcn.FillTake.take_rows_eq (N := 16384) (C := 128) (E := 20480) (by decide) _ _ _ _ _ _ _ _ _ 16384#32 16383#32 (by decide) tbl idx _ h

set_option maxHeartbeats 1000000 in
/-- The fifth lookup (rows of the second layer's coefficients) over any contents of the buffers before it. -/
theorem comp2_get (V : Valuation τ sig (Elt Ideal))
    (h : ∀ i, 0 ≤ (((StableHlo.TRef.of (T := ⟨S20480, .i32⟩) main_arg7).ofBuf (V (Proc.devRef .tc main_arg7))) i).toInt
      ∧ (((StableHlo.TRef.of (T := ⟨S20480, .i32⟩) main_arg7).ofBuf (V (Proc.devRef .tc main_arg7))) i).toInt < 64) :
    (StableHlo.TRef.of (T := ⟨S20480x8, .f32⟩) main_v17).ofBuf (StableHlo.after hostOps1_3 V (Proc.devRef .tc main_v17))
      = Rgcn.rowsAt (N := 64) (by decide)
          ((StableHlo.TRef.of (T := ⟨S64x8, .f32⟩) main_arg14).ofBuf (V (Proc.devRef .tc main_arg14)))
          ((StableHlo.TRef.of (T := ⟨S20480, .i32⟩) main_arg7).ofBuf (V (Proc.devRef .tc main_arg7))) := by
  after_results_simp
  simp only [ofBuf_toBuf']
  generalize (StableHlo.TRef.of (T := ⟨S20480, .i32⟩) main_arg7).ofBuf (V (Proc.devRef .tc main_arg7)) = idx at h ⊢
  generalize (StableHlo.TRef.of (T := ⟨S64x8, .f32⟩) main_arg14).ofBuf (V (Proc.devRef .tc main_arg14)) = tbl
  exact Rgcn.FillTake.take_rows_eq (N := 64) (C := 8) (E := 20480) (by decide) _ _ _ _ _ _ _ _ _ 64#32 63#32 (by decide) tbl idx _ h

end Take

variable (m : (ℓ : Loc nD τ sig) → Buf (Elt Ideal) ℓ) (ρ : Dev nD → PrngReg)

/-- `src_ids[e0_src]`: the first lookup (a table of scalars). -/
theorem take_srcIds (c : Dev nD)
    (h : ∀ i, 0 ≤ (((W0 (F := Ideal) m ρ c (Proc.devRef .tc main_arg1)) : IVec S409600 32) i).toInt ∧ (((W0 (F := Ideal) m ρ c (Proc.devRef .tc main_arg1)) : IVec S409600 32) i).toInt < 262144) :
    ((W1 (F := Ideal) m ρ c (Proc.devRef .tc main_v0)) : IVec S409600 32)
      = fun i => ((W0 (F := Ideal) m ρ c (Proc.devRef .tc main_arg0)) : IVec S262144 32) (ix1 (clampRow 262144 (by decide) (((W0 (F := Ideal) m ρ c (Proc.devRef .tc main_arg1)) : IVec S409600 32) i))) := by
  exact Take.srcIds_get (W0 (F := Ideal) m ρ c) h

/-- `emb[idx0]`. -/
theorem take_emb (c : Dev nD)
    (h : ∀ i, 0 ≤ (((W1 (F := Ideal) m ρ c (Proc.devRef .tc main_v0)) : IVec S409600 32) i).toInt ∧ (((W1 (F := Ideal) m ρ c (Proc.devRef .tc main_v0)) : IVec S409600 32) i).toInt < 1000000) :
    ((W2 (F := Ideal) m ρ c (Proc.devRef .tc main_v1)) : FVec Ideal S409600x128 .f32)
      = Rgcn.rowsAt (N := 1000000) (by decide) ((W1 (F := Ideal) m ρ c (Proc.devRef .tc main_arg9)) : FVec Ideal S1000000x128 .f32) ((W1 (F := Ideal) m ρ c (Proc.devRef .tc main_v0)) : IVec S409600 32) := by
  exact Take.emb_get (W1 (F := Ideal) m ρ c) h

/-- `comp1[e0_type]`. -/
theorem take_comp1 (c : Dev nD)
    (h : ∀ i, 0 ≤ (((W2 (F := Ideal) m ρ c (Proc.devRef .tc main_arg3)) : IVec S409600 32) i).toInt ∧ (((W2 (F := Ideal) m ρ c (Proc.devRef .tc main_arg3)) : IVec S409600 32) i).toInt < 64) :
    ((W3 (F := Ideal) m ρ c (Proc.devRef .tc main_v2)) : FVec Ideal S409600x8 .f32)
      = Rgcn.rowsAt (N := 64) (by decide) ((W2 (F := Ideal) m ρ c (Proc.devRef .tc main_arg11)) : FVec Ideal S64x8 .f32) ((W2 (F := Ideal) m ρ c (Proc.devRef .tc main_arg3)) : IVec S409600 32) := by
  exact Take.comp1_get (W2 (F := Ideal) m ρ c) h

/-- `h[e1_src]`. -/
theorem take_hid (c : Dev nD)
    (h : ∀ i, 0 ≤ (((W7 (F := Ideal) m ρ c (Proc.devRef .tc main_arg5)) : IVec S20480 32) i).toInt ∧ (((W7 (F := Ideal) m ρ c (Proc.devRef .tc main_arg5)) : IVec S20480 32) i).toInt < 16384) :
    ((W8 (F := Ideal) m ρ c (Proc.devRef .tc main_v16)) : FVec Ideal S20480x128 .f32)
      = Rgcn.rowsAt (N := 16384) (by decide) ((W7 (F := Ideal) m ρ c (Proc.devRef .tc main_v15)) : FVec Ideal S16384x128 .f32) ((W7 (F := Ideal) m ρ c (Proc.devRef .tc main_arg5)) : IVec S20480 32) := by
  exact Take.hid_get (W7 (F := Ideal) m ρ c) h

/-- `comp2[e1_type]`. -/
theorem take_comp2 (c : Dev nD)
    (h : ∀ i, 0 ≤ (((W8 (F := Ideal) m ρ c (Proc.devRef .tc main_arg7)) : IVec S20480 32) i).toInt ∧ (((W8 (F := Ideal) m ρ c (Proc.devRef .tc main_arg7)) : IVec S20480 32) i).toInt < 64) :
    ((W9 (F := Ideal) m ρ c (Proc.devRef .tc main_v17)) : FVec Ideal S20480x8 .f32)
      = Rgcn.rowsAt (N := 64) (by decide) ((W8 (F := Ideal) m ρ c (Proc.devRef .tc main_arg14)) : FVec Ideal S64x8 .f32) ((W8 (F := Ideal) m ρ c (Proc.devRef .tc main_arg7)) : IVec S20480 32) := by
  exact Take.comp2_get (W8 (F := Ideal) m ρ c) h

end Cert.KernelIdeal.KVal

end
-- ==== Proof.KKeep.lean ====
/-
  What the kernel program's host stretches and launches leave alone: no operation writes an argument, so at every
  level an argument's buffer holds its launch contents; and a computed buffer keeps its contents across the
  stretches that do not write it.
-/
import proofs.«426843_j75857712381962_3_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-! ## What each stretch of host operations writes, and that it leaves every other buffer alone -/

theorem ne_of_not_mem {l : List (Ref sig .tc)} {r y : Ref sig .tc} (h : r ∉ l) (hy : y ∈ l) : r ≠ y :=
  fun e => h (e ▸ hy)

/-- The buffers `hostOps0` writes. -/
def wr0 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v0]

theorem keep_wr0 {F : FTy → Type} [FloatOps F] (X : Valuation τ sig (Elt F)) (r : Ref sig .tc) (h : r ∉ wr0) :
    StableHlo.after (hostOps0 (F := F)) X (Proc.devRef .tc r) = X (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The buffers `hostOps0_1` writes. -/
def wr0_1 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]

theorem keep_wr0_1 {F : FTy → Type} [FloatOps F] (X : Valuation τ sig (Elt F)) (r : Ref sig .tc) (h : r ∉ wr0_1) :
    StableHlo.after (hostOps0_1 (F := F)) X (Proc.devRef .tc r) = X (Proc.devRef .tc r) :=
  StableHlo.after_of_forall_not_mem (b := Proc.devRef .tc r) _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The buffers `hostOps0_2` writes. -/
def wr0_2 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v2]

theorem keep_wr0_2 {F : FTy → Type} [FloatOps F] (X : Valuation τ sig (Elt F)) (r : Ref sig .tc) (h : r ∉ wr0_2) :
    StableHlo.after (hostOps0_2 (F := F)) X (Proc.devRef .tc r) = X (Proc.devRef .tc r) :=
  StableHlo.after_of_forall_not_mem (b := Proc.devRef .tc r) _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The buffers `hostOps0_3` writes. -/
def wr0_3 : List (Ref sig .tc) :=
  [main_v3, main_v4, main_v5, main_v6, main_v7]

theorem keep_wr0_3 {F : FTy → Type} [FloatOps F] (X : Valuation τ sig (Elt F)) (r : Ref sig .tc) (h : r ∉ wr0_3) :
    StableHlo.after (hostOps0_3 (F := F)) X (Proc.devRef .tc r) = X (Proc.devRef .tc r) :=
  StableHlo.after_of_forall_not_mem (b := Proc.devRef .tc r) _ _ (List.forall_iff_forall_mem.mp (by
    simp only [hostOps0_3, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The buffers `hostOps1` writes. -/
def wr1 : List (Ref sig .tc) :=
  [main_cst, main_v9, main_v10, main_v11, main_v12, main_v13, main_v14]

theorem keep_wr1 {F : FTy → Type} [FloatOps F] (X : Valuation τ sig (Elt F)) (r : Ref sig .tc) (h : r ∉ wr1) :
    StableHlo.after (hostOps1 (F := F)) X (Proc.devRef .tc r) = X (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The buffers `hostOps1_1` writes. -/
def wr1_1 : List (Ref sig .tc) :=
  [main_call3_cst, main_call3_v0, main_v15]

theorem keep_wr1_1 {F : FTy → Type} [FloatOps F] (X : Valuation τ sig (Elt F)) (r : Ref sig .tc) (h : r ∉ wr1_1) :
    StableHlo.after (hostOps1_1 (F := F)) X (Proc.devRef .tc r) = X (Proc.devRef .tc r) :=
  StableHlo.after_of_forall_not_mem (b := Proc.devRef .tc r) _ _ (List.forall_iff_forall_mem.mp (by
    simp only [hostOps1_1, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The buffers `hostOps1_2` writes. -/
def wr1_2 : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v16]

theorem keep_wr1_2 {F : FTy → Type} [FloatOps F] (X : Valuation τ sig (Elt F)) (r : Ref sig .tc) (h : r ∉ wr1_2) :
    StableHlo.after (hostOps1_2 (F := F)) X (Proc.devRef .tc r) = X (Proc.devRef .tc r) :=
  StableHlo.after_of_forall_not_mem (b := Proc.devRef .tc r) _ _ (List.forall_iff_forall_mem.mp (by
    simp only [hostOps1_2, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The buffers `hostOps1_3` writes. -/
def wr1_3 : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v17]

theorem keep_wr1_3 {F : FTy → Type} [FloatOps F] (X : Valuation τ sig (Elt F)) (r : Ref sig .tc) (h : r ∉ wr1_3) :
    StableHlo.after (hostOps1_3 (F := F)) X (Proc.devRef .tc r) = X (Proc.devRef .tc r) :=
  StableHlo.after_of_forall_not_mem (b := Proc.devRef .tc r) _ _ (List.forall_iff_forall_mem.mp (by
    simp only [hostOps1_3, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The buffers `hostOps1_4` writes. -/
def wr1_4 : List (Ref sig .tc) :=
  [main_v18, main_v19, main_v20, main_v21, main_v22]

theorem keep_wr1_4 {F : FTy → Type} [FloatOps F] (X : Valuation τ sig (Elt F)) (r : Ref sig .tc) (h : r ∉ wr1_4) :
    StableHlo.after (hostOps1_4 (F := F)) X (Proc.devRef .tc r) = X (Proc.devRef .tc r) :=
  StableHlo.after_of_forall_not_mem (b := Proc.devRef .tc r) _ _ (List.forall_iff_forall_mem.mp (by
    simp only [hostOps1_4, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The buffers `hostOps2` writes. -/
def wr2 : List (Ref sig .tc) :=
  [main_cst_0, main_v24, main_v25, main_v26, main_v27, main_v28, main_v29]

theorem keep_wr2 {F : FTy → Type} [FloatOps F] (X : Valuation τ sig (Elt F)) (r : Ref sig .tc) (h : r ∉ wr2) :
    StableHlo.after (hostOps2 (F := F)) X (Proc.devRef .tc r) = X (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_not_mem h (by decide))))

/-- The sixteen argument buffers. -/
def argRefs : List (Ref sig .tc) := [main_arg0, main_arg1, main_arg2, main_arg3, main_arg4, main_arg5, main_arg6, main_arg7, main_arg8, main_arg9, main_arg10, main_arg11, main_arg12, main_arg13, main_arg14, main_arg15]

/-! ## No stretch writes an argument, and no launch has an argument among the arrays it rewrites -/

theorem arg_not_wr0 : ∀ b ∈ argRefs, b ∉ wr0 := by decide
theorem arg_not_wr0_1 : ∀ b ∈ argRefs, b ∉ wr0_1 := by decide
theorem arg_not_wr0_2 : ∀ b ∈ argRefs, b ∉ wr0_2 := by decide
theorem arg_not_wr0_3 : ∀ b ∈ argRefs, b ∉ wr0_3 := by decide
theorem arg_not_wr1 : ∀ b ∈ argRefs, b ∉ wr1 := by decide
theorem arg_not_wr1_1 : ∀ b ∈ argRefs, b ∉ wr1_1 := by decide
theorem arg_not_wr1_2 : ∀ b ∈ argRefs, b ∉ wr1_2 := by decide
theorem arg_not_wr1_3 : ∀ b ∈ argRefs, b ∉ wr1_3 := by decide
theorem arg_not_wr1_4 : ∀ b ∈ argRefs, b ∉ wr1_4 := by decide
theorem arg_not_arr0 : ∀ b ∈ argRefs, ∀ w, Pipeline.arrRef spec0 w ≠ b := by decide
theorem arg_not_arr1 : ∀ b ∈ argRefs, ∀ w, Pipeline.arrRef spec1 w ≠ b := by decide

theorem W1_arg (c : Dev nD) (b : Ref sig .tc) (hb : b ∈ argRefs) :
    W1 m ρ c (Proc.devRef .tc b) = m ((c : Thread nD τ).loc b) :=
  (keep_wr0 _ b (arg_not_wr0 b hb)).trans rfl

theorem W2_arg (c : Dev nD) (b : Ref sig .tc) (hb : b ∈ argRefs) :
    W2 m ρ c (Proc.devRef .tc b) = m ((c : Thread nD τ).loc b) :=
  (keep_wr0_1 _ b (arg_not_wr0_1 b hb)).trans (W1_arg m ρ c b hb)

theorem W3_arg (c : Dev nD) (b : Ref sig .tc) (hb : b ∈ argRefs) :
    W3 m ρ c (Proc.devRef .tc b) = m ((c : Thread nD τ).loc b) :=
  (keep_wr0_2 _ b (arg_not_wr0_2 b hb)).trans (W2_arg m ρ c b hb)

theorem W4_arg (c : Dev nD) (b : Ref sig .tc) (hb : b ∈ argRefs) :
    W4 m ρ c (Proc.devRef .tc b) = m ((c : Thread nD τ).loc b) :=
  (keep_wr0_3 _ b (arg_not_wr0_3 b hb)).trans (W3_arg m ρ c b hb)

theorem W5_arg (c : Dev nD) (b : Ref sig .tc) (hb : b ∈ argRefs) :
    W5 m ρ c (Proc.devRef .tc b) = m ((c : Thread nD τ).loc b) :=
  (W5_of_ne m ρ c b (arg_not_arr0 b hb)).trans (W4_arg m ρ c b hb)

theorem W6_arg (c : Dev nD) (b : Ref sig .tc) (hb : b ∈ argRefs) :
    W6 m ρ c (Proc.devRef .tc b) = m ((c : Thread nD τ).loc b) :=
  (keep_wr1 _ b (arg_not_wr1 b hb)).trans (W5_arg m ρ c b hb)

theorem W7_arg (c : Dev nD) (b : Ref sig .tc) (hb : b ∈ argRefs) :
    W7 m ρ c (Proc.devRef .tc b) = m ((c : Thread nD τ).loc b) :=
  (keep_wr1_1 _ b (arg_not_wr1_1 b hb)).trans (W6_arg m ρ c b hb)

theorem W8_arg (c : Dev nD) (b : Ref sig .tc) (hb : b ∈ argRefs) :
    W8 m ρ c (Proc.devRef .tc b) = m ((c : Thread nD τ).loc b) :=
  (keep_wr1_2 _ b (arg_not_wr1_2 b hb)).trans (W7_arg m ρ c b hb)

theorem W9_arg (c : Dev nD) (b : Ref sig .tc) (hb : b ∈ argRefs) :
    W9 m ρ c (Proc.devRef .tc b) = m ((c : Thread nD τ).loc b) :=
  (keep_wr1_3 _ b (arg_not_wr1_3 b hb)).trans (W8_arg m ρ c b hb)

theorem W10_arg (c : Dev nD) (b : Ref sig .tc) (hb : b ∈ argRefs) :
    W10 m ρ c (Proc.devRef .tc b) = m ((c : Thread nD τ).loc b) :=
  (keep_wr1_4 _ b (arg_not_wr1_4 b hb)).trans (W9_arg m ρ c b hb)

theorem W11_arg (c : Dev nD) (b : Ref sig .tc) (hb : b ∈ argRefs) :
    W11 m ρ c (Proc.devRef .tc b) = m ((c : Thread nD τ).loc b) :=
  (W11_of_ne m ρ c b (arg_not_arr1 b hb)).trans (W10_arg m ρ c b hb)

/-- The gathered source rows of layer 1 reach the first launch as the lookup left them. -/
theorem W4_main_v1 (c : Dev nD) :
    W4 m ρ c (Proc.devRef .tc main_v1) = W2 m ρ c (Proc.devRef .tc main_v1) :=
  (keep_wr0_3 _ main_v1 (by decide)).trans (keep_wr0_2 _ main_v1 (by decide))

/-- The gathered source rows of layer 2 reach the second launch as the lookup left them. -/
theorem W10_main_v16 (c : Dev nD) :
    W10 m ρ c (Proc.devRef .tc main_v16) = W8 m ρ c (Proc.devRef .tc main_v16) :=
  (keep_wr1_4 _ main_v16 (by decide)).trans (keep_wr1_3 _ main_v16 (by decide))

end Cert.KernelIdeal.KVal

end
-- ==== Proof.KStretch.lean ====
/-
  The kernel program's host operations other than the lookups, one stretch at a time: what each writes, as a function of
  the buffer contents at the level before, in the specification's forms (the weight folded into the coefficients,
  the bases laid side by side, the messages summed at their destinations plus the bias, `relu`).
-/
import proofs.«426843_j75857712381962_3_alg».proof.Proof.Gen.KernelIdeal.Frame
import proofs.«426843_j75857712381962_3_alg».proof.Proof.Spec
import Idealize.ShloMosaic.Lib.Pipeline.Value
import Idealize.ShloMosaic.Lib.IdealHost

set_option maxRecDepth 16384

noncomputable section

namespace Cert.KernelIdeal.KVal

open Cert.KernelIdeal Cert.KernelIdeal.Gen
open Idealize.ShloMosaic Idealize.ShloMosaic.TcCoe Idealize.SL.Sem Idealize.ShloMosaic.ValueIdx

/-! ## The host operations between the lookups and the launches, read at an index -/

/-- The zero array: a zero scalar broadcast to any shape. -/
private theorem zeros_eq {T : Shape} (h : (⟨0, ![]⟩ : Shape).BroadcastsInDim T ![]) :
    broadcastInDim T ![] h (constant (F := Ideal) S_ .f32 0x00000000#32) = fun _ => (0 : EReal) := by
  funext i
  rw [broadcastInDim_scalar_apply, constant_apply, Ideal.ofBits_zero_f32]

/-- An index vector laid as a column. -/
private theorem col_eq {E : Nat} (h : (⟨1, ![E]⟩ : Shape).BroadcastsInDim ⟨2, ![E, 1]⟩ ![0])
    (idx : (⟨1, ![E]⟩ : Shape).Idx → BitVec 32) :
    broadcastInDim ⟨2, ![E, 1]⟩ ![0] h idx = Rgcn.colIdx idx := by
  funext i
  refine broadcastInDim_apply _ _ _ i (ix1 (i 0)) fun a => ?_
  match a with
  | ⟨0, _⟩ =>
    show (i 0).val = if E = 1 then 0 else (i 0).val
    split_ifs with hE
    · have h0 : (i 0).val < E := (i 0).isLt; omega
    · rfl

/-- The coefficients times the weight, the weight laid as a column and repeated across the eight bases. -/
private theorem fold_eq {E : Nat} (h1 : (⟨1, ![E]⟩ : Shape).BroadcastsInDim ⟨2, ![E, 1]⟩ ![0])
    (h2 : (⟨2, ![E, 1]⟩ : Shape).BroadcastsInDim ⟨2, ![E, 8]⟩ ![0, 1])
    (cg : FVec Ideal ⟨2, ![E, 8]⟩ .f32) (n : FVec Ideal ⟨1, ![E]⟩ .f32) :
    mulf cg (broadcastInDim ⟨2, ![E, 8]⟩ ![0, 1] h2 (broadcastInDim ⟨2, ![E, 1]⟩ ![0] h1 n)) = Rgcn.foldNorm cg n := by
  funext i
  show cg i * _ = cg i * n (ix1 (i 0))
  congr 1
  refine (broadcastInDim_apply _ _ _ i (ix2 (i 0) (0 : Fin 1)) fun a => ?_).trans
    (broadcastInDim_apply _ _ _ (ix2 (i 0) (0 : Fin 1)) (ix1 (i 0)) fun a => ?_)
  · match a with
    | ⟨0, _⟩ =>
      show (i 0).val = if E = 1 then 0 else (i 0).val
      split_ifs with hE
      · have h0 : (i 0).val < E := (i 0).isLt; omega
      · rfl
    | ⟨1, _⟩ => rfl
  · match a with
    | ⟨0, _⟩ =>
      show (i 0).val = if E = 1 then 0 else (i 0).val
      split_ifs with hE
      · have h0 : (i 0).val < E := (i 0).isLt; omega
      · rfl

/-- A bias vector laid as a row and repeated down the rows. -/
private theorem bias_eq {N O : Nat} (h1 : (⟨1, ![O]⟩ : Shape).BroadcastsInDim ⟨2, ![1, O]⟩ ![1])
    (h2 : (⟨2, ![1, O]⟩ : Shape).BroadcastsInDim ⟨2, ![N, O]⟩ ![0, 1])
    (b : FVec Ideal ⟨1, ![O]⟩ .f32) (i : (⟨2, ![N, O]⟩ : Shape).Idx) :
    broadcastInDim ⟨2, ![N, O]⟩ ![0, 1] h2 (broadcastInDim ⟨2, ![1, O]⟩ ![1] h1 b) i = b (ix1 (i 1)) := by
  refine (broadcastInDim_apply _ _ _ i (ix2 (0 : Fin 1) (i 1)) fun a => ?_).trans
    (broadcastInDim_apply _ _ _ (ix2 (0 : Fin 1) (i 1)) (ix1 (i 1)) fun a => ?_)
  · match a with
    | ⟨0, _⟩ => rfl
    | ⟨1, _⟩ =>
      show (i 1).val = if O = 1 then 0 else (i 1).val
      split_ifs with hO
      · have h1 : (i 1).val < O := (i 1).isLt; omega
      · rfl
  · match a with
    | ⟨0, _⟩ =>
      show (i 1).val = if O = 1 then 0 else (i 1).val
      split_ifs with hO
      · have h1 : (i 1).val < O := (i 1).isLt; omega
      · rfl

/-- The scatter of the messages into a zero array, plus the bias: one layer's result from its messages. -/
private theorem scatter_bias_eq {N O E : Nat} (sc : ScatterDims ⟨2, ![N, O]⟩ ⟨2, ![E, 1]⟩ ⟨2, ![E, O]⟩)
    (hz : (⟨0, ![]⟩ : Shape).BroadcastsInDim ⟨2, ![N, O]⟩ ![])
    (hc : (⟨1, ![E]⟩ : Shape).BroadcastsInDim ⟨2, ![E, 1]⟩ ![0])
    (h1 : (⟨1, ![O]⟩ : Shape).BroadcastsInDim ⟨2, ![1, O]⟩ ![1])
    (h2 : (⟨2, ![1, O]⟩ : Shape).BroadcastsInDim ⟨2, ![N, O]⟩ ![0, 1])
    (dst : (⟨1, ![E]⟩ : Shape).Idx → BitVec 32) (msg : FVec Ideal ⟨2, ![E, O]⟩ .f32) (b : FVec Ideal ⟨1, ![O]⟩ .f32) :
    addf (Host.scatterAdd (F := Ideal) sc (broadcastInDim ⟨2, ![N, O]⟩ ![] hz (constant (F := Ideal) S_ .f32 0x00000000#32))
        (broadcastInDim ⟨2, ![E, 1]⟩ ![0] hc dst) msg)
      (broadcastInDim ⟨2, ![N, O]⟩ ![0, 1] h2 (broadcastInDim ⟨2, ![1, O]⟩ ![1] h1 b))
      = fun i => Ideal.hostScatterAdd sc (fun _ => (0 : EReal)) (Rgcn.colIdx dst) msg i + b (ix1 (i 1)) := by
  funext i
  rw [addf_apply, bias_eq, zeros_eq, col_eq]
  rfl

/-- The maximum with the zero array. -/
private theorem relu_eq {T : Shape} (h : (⟨0, ![]⟩ : Shape).BroadcastsInDim T ![]) (x : FVec Ideal T .f32) :
    maximumf x (broadcastInDim T ![] h (constant (F := Ideal) S_ .f32 0x00000000#32)) = Rgcn.relu x := by
  funext i
  rw [maximumf_apply, zeros_eq]
  rfl

/-! ## The bases laid side by side -/

/-- The bases transposed to `[128, 8, 128]` and flattened to `[128, 1024]`: entry `(k, q)` is row-major position
    `k·1024 + q = (k·8 + q / 128)·128 + q % 128` of the transposed array, which is the bases' entry `(q / 128, k, q % 128)`. -/
private theorem stack1_eq (hW : 1024 = 8 * 128) (x : FVec Ideal S8x128x128 .f32) :
    shapeCast S128x1024 (transpose S128x8x128 [1, 0, 2] x transposes_S8x128x128_S128x8x128_1_0_2) shapeCasts_S128x8x128_S128x1024
      = Rgcn.stackV (H := 128) (O := 128) (W := 1024) hW x := by
  funext i
  have hk : (i 0).val < 128 := idx2_lt0 i
  have hq : (i 1).val < 1024 := idx2_lt1 i
  refine (shapeCast_apply _ shapeCasts_S128x8x128_S128x1024 i
    (ix3 (i 0) (Rgcn.colBasis hW (i 1)) (Rgcn.colInner hW (i 1))) ?_).trans ?_
  · rw [Shape.rowMajor_val_three, Shape.rowMajor_val_two]
    show ((i 0).val * 8 + (i 1).val / 128) * 128 + (i 1).val % 128 = (i 0).val * 1024 + (i 1).val
    omega
  · exact transpose_apply [1, 0, 2] x transposes_S8x128x128_S128x8x128_1_0_2
      (ix3 (i 0) (Rgcn.colBasis hW (i 1)) (Rgcn.colInner hW (i 1)))
      (ix3 (Rgcn.colBasis hW (i 1)) (i 0) (Rgcn.colInner hW (i 1)))
      (fun b => by match b with | ⟨0, _⟩ => rfl | ⟨1, _⟩ => rfl | ⟨2, _⟩ => rfl)

/-- The bases transposed to `[128, 8, 64]` and flattened to `[128, 512]`: entry `(k, q)` is row-major position
    `k·512 + q = (k·8 + q / 64)·64 + q % 64` of the transposed array, which is the bases' entry `(q / 64, k, q % 64)`. -/
private theorem stack2_eq (hW : 512 = 8 * 64) (x : FVec Ideal S8x128x64 .f32) :
    shapeCast S128x512 (transpose S128x8x64 [1, 0, 2] x transposes_S8x128x64_S128x8x64_1_0_2) shapeCasts_S128x8x64_S128x512
      = Rgcn.stackV (H := 128) (O := 64) (W := 512) hW x := by
  funext i
  have hk : (i 0).val < 128 := idx2_lt0 i
  have hq : (i 1).val < 512 := idx2_lt1 i
  refine (shapeCast_apply _ shapeCasts_S128x8x64_S128x512 i
    (ix3 (i 0) (Rgcn.colBasis hW (i 1)) (Rgcn.colInner hW (i 1))) ?_).trans ?_
  · rw [Shape.rowMajor_val_three, Shape.rowMajor_val_two]
    show ((i 0).val * 8 + (i 1).val / 64) * 64 + (i 1).val % 64 = (i 0).val * 512 + (i 1).val
    omega
  · exact transpose_apply [1, 0, 2] x transposes_S8x128x64_S128x8x64_1_0_2
      (ix3 (i 0) (Rgcn.colBasis hW (i 1)) (Rgcn.colInner hW (i 1)))
      (ix3 (Rgcn.colBasis hW (i 1)) (i 0) (Rgcn.colInner hW (i 1)))
      (fun b => by match b with | ⟨0, _⟩ => rfl | ⟨1, _⟩ => rfl | ⟨2, _⟩ => rfl)

/-! ## Each stretch over arbitrary contents before it -/

private theorem v5_at (V : Valuation τ sig (Elt Ideal)) :
    (StableHlo.after (hostOps0_3 (F := Ideal)) V (Proc.devRef .tc main_v5) : FVec Ideal S409600x8 .f32)
      = Rgcn.foldNorm (V (Proc.devRef .tc main_v2) : FVec Ideal S409600x8 .f32) (V (Proc.devRef .tc main_arg4) : FVec Ideal S409600 .f32) := by
  after_results
  exact fold_eq _ _ _ _

private theorem v7_at (V : Valuation τ sig (Elt Ideal)) :
    (StableHlo.after (hostOps0_3 (F := Ideal)) V (Proc.devRef .tc main_v7) : FVec Ideal S128x1024 .f32)
      = Rgcn.stackV (O := 128) (W := 1024) (by norm_num) (V (Proc.devRef .tc main_arg10) : FVec Ideal S8x128x128 .f32) := by
  after_results
  exact stack1_eq _ _

private theorem v14_at (V : Valuation τ sig (Elt Ideal)) :
    (StableHlo.after (hostOps1 (F := Ideal)) V (Proc.devRef .tc main_v14) : FVec Ideal S16384x128 .f32)
      = fun i => Ideal.hostScatterAdd scatter_S16384x128_S409600x1_S409600x128_1_0_0_1 (fun _ => (0 : EReal))
          (Rgcn.colIdx (V (Proc.devRef .tc main_arg2) : IVec S409600 32)) (V (Proc.devRef .tc main_v8) : FVec Ideal S409600x128 .f32) i
          + (V (Proc.devRef .tc main_arg12) : FVec Ideal S128 .f32) (ix1 (i 1)) := by
  after_results
  exact scatter_bias_eq _ _ _ _ _ _ _ _

private theorem v15_at (V : Valuation τ sig (Elt Ideal)) :
    (StableHlo.after (hostOps1_1 (F := Ideal)) V (Proc.devRef .tc main_v15) : FVec Ideal S16384x128 .f32)
      = Rgcn.relu (V (Proc.devRef .tc main_v14) : FVec Ideal S16384x128 .f32) := by
  after_results
  show maximumf (V (Proc.devRef .tc main_v14) : FVec Ideal S16384x128 .f32)
      (broadcastInDim S16384x128 ![] bcast_S_S16384x128 (constant (F := Ideal) S_ .f32 0x00000000#32)) = _
  exact relu_eq bcast_S_S16384x128 _

private theorem v20_at (V : Valuation τ sig (Elt Ideal)) :
    (StableHlo.after (hostOps1_4 (F := Ideal)) V (Proc.devRef .tc main_v20) : FVec Ideal S20480x8 .f32)
      = Rgcn.foldNorm (V (Proc.devRef .tc main_v17) : FVec Ideal S20480x8 .f32) (V (Proc.devRef .tc main_arg8) : FVec Ideal S20480 .f32) := by
  after_results
  exact fold_eq _ _ _ _

private theorem v22_at (V : Valuation τ sig (Elt Ideal)) :
    (StableHlo.after (hostOps1_4 (F := Ideal)) V (Proc.devRef .tc main_v22) : FVec Ideal S128x512 .f32)
      = Rgcn.stackV (O := 64) (W := 512) (by norm_num) (V (Proc.devRef .tc main_arg13) : FVec Ideal S8x128x64 .f32) := by
  after_results
  exact stack2_eq _ _

private theorem v29_at (V : Valuation τ sig (Elt Ideal)) :
    (StableHlo.after (hostOps2 (F := Ideal)) V (Proc.devRef .tc main_v29) : FVec Ideal S1024x64 .f32)
      = fun i => Ideal.hostScatterAdd scatter_S1024x64_S20480x1_S20480x64_1_0_0_1 (fun _ => (0 : EReal))
          (Rgcn.colIdx (V (Proc.devRef .tc main_arg6) : IVec S20480 32)) (V (Proc.devRef .tc main_v23) : FVec Ideal S20480x64 .f32) i
          + (V (Proc.devRef .tc main_arg15) : FVec Ideal S64 .f32) (ix1 (i 1)) := by
  after_results
  exact scatter_bias_eq _ _ _ _ _ _ _ _

/-! ## The stretches at their fold levels -/

variable (m : (ℓ : Loc nD τ sig) → Buf (Elt Ideal) ℓ) (ρ : Dev nD → PrngReg)

/-- Layer 1's coefficients with the edge weight folded in. -/
theorem v5_eq (c : Dev nD) :
    ((W4 (F := Ideal) m ρ c (Proc.devRef .tc main_v5)) : FVec Ideal S409600x8 .f32)
      = Rgcn.foldNorm ((W3 (F := Ideal) m ρ c (Proc.devRef .tc main_v2)) : FVec Ideal S409600x8 .f32) ((W3 (F := Ideal) m ρ c (Proc.devRef .tc main_arg4)) : FVec Ideal S409600 .f32) := by
  exact v5_at (W3 (F := Ideal) m ρ c)

/-- Layer 1's bases laid side by side. -/
theorem v7_eq (c : Dev nD) :
    ((W4 (F := Ideal) m ρ c (Proc.devRef .tc main_v7)) : FVec Ideal S128x1024 .f32)
      = Rgcn.stackV (O := 128) (W := 1024) (by norm_num) ((W3 (F := Ideal) m ρ c (Proc.devRef .tc main_arg10)) : FVec Ideal S8x128x128 .f32) := by
  exact v7_at (W3 (F := Ideal) m ρ c)

/-- Layer 1's messages summed at their destinations, plus the bias. -/
theorem v14_eq (c : Dev nD) :
    ((W6 (F := Ideal) m ρ c (Proc.devRef .tc main_v14)) : FVec Ideal S16384x128 .f32)
      = fun i => Ideal.hostScatterAdd scatter_S16384x128_S409600x1_S409600x128_1_0_0_1 (fun _ => (0 : EReal))
          (Rgcn.colIdx ((W5 (F := Ideal) m ρ c (Proc.devRef .tc main_arg2)) : IVec S409600 32)) ((W5 (F := Ideal) m ρ c (Proc.devRef .tc main_v8)) : FVec Ideal S409600x128 .f32) i
          + ((W5 (F := Ideal) m ρ c (Proc.devRef .tc main_arg12)) : FVec Ideal S128 .f32) (ix1 (i 1)) := by
  exact v14_at (W5 (F := Ideal) m ρ c)

/-- The hidden layer. -/
theorem v15_eq (c : Dev nD) :
    ((W7 (F := Ideal) m ρ c (Proc.devRef .tc main_v15)) : FVec Ideal S16384x128 .f32) = Rgcn.relu ((W6 (F := Ideal) m ρ c (Proc.devRef .tc main_v14)) : FVec Ideal S16384x128 .f32) := by
  exact v15_at (W6 (F := Ideal) m ρ c)

/-- Layer 2's coefficients with the edge weight folded in. -/
theorem v20_eq (c : Dev nD) :
    ((W10 (F := Ideal) m ρ c (Proc.devRef .tc main_v20)) : FVec Ideal S20480x8 .f32)
      = Rgcn.foldNorm ((W9 (F := Ideal) m ρ c (Proc.devRef .tc main_v17)) : FVec Ideal S20480x8 .f32) ((W9 (F := Ideal) m ρ c (Proc.devRef .tc main_arg8)) : FVec Ideal S20480 .f32) := by
  exact v20_at (W9 (F := Ideal) m ρ c)

/-- Layer 2's bases laid side by side. -/
theorem v22_eq (c : Dev nD) :
    ((W10 (F := Ideal) m ρ c (Proc.devRef .tc main_v22)) : FVec Ideal S128x512 .f32)
      = Rgcn.stackV (O := 64) (W := 512) (by norm_num) ((W9 (F := Ideal) m ρ c (Proc.devRef .tc main_arg13)) : FVec Ideal S8x128x64 .f32) := by
  exact v22_at (W9 (F := Ideal) m ρ c)

/-- Layer 2's messages summed at their destinations, plus the bias: the program's result. -/
theorem v29_eq (c : Dev nD) :
    ((W12 (F := Ideal) m ρ c (Proc.devRef .tc main_v29)) : FVec Ideal S1024x64 .f32)
      = fun i => Ideal.hostScatterAdd scatter_S1024x64_S20480x1_S20480x64_1_0_0_1 (fun _ => (0 : EReal))
          (Rgcn.colIdx ((W11 (F := Ideal) m ρ c (Proc.devRef .tc main_arg6)) : IVec S20480 32)) ((W11 (F := Ideal) m ρ c (Proc.devRef .tc main_v23)) : FVec Ideal S20480x64 .f32) i
          + ((W11 (F := Ideal) m ρ c (Proc.devRef .tc main_arg15)) : FVec Ideal S64 .f32) (ix1 (i 1)) := by
  exact v29_at (W11 (F := Ideal) m ρ c)

end Cert.KernelIdeal.KVal

end
-- ==== Proof.KHost.lean ====
/-
  The kernel program's result buffer after its last host operation, as one function of the sixteen launch arrays.

  The program is a chain: three lookups, the fold of the edge weight into the coefficients and the bases laid side by
  side, the first launch, the scatter of its messages plus the bias, `relu`, two more lookups, the same preparation,
  the second launch, the second scatter plus bias. Each link is an equation over the buffer
  contents at the level before; here the links are composed, level by level, with the launch arrays substituted for the
  argument buffers, and the two launches' folded, stacked messages turned into the reference's (which needs every
  entry that enters a product to be a real number: the inputs' are by the domain, a looked-up row's entries are
  entries of the table, and the hidden layer's are sums and maxima of real numbers).
-/
import proofs.«426843_j75857712381962_3_alg».proof.Proof.Gen.KernelIdeal.Frame
import proofs.«426843_j75857712381962_3_alg».proof.Proof.Spec
import proofs.«426843_j75857712381962_3_alg».proof.Proof.KRegion
import proofs.«426843_j75857712381962_3_alg».proof.Proof.KTake
import proofs.«426843_j75857712381962_3_alg».proof.Proof.KKeep
import proofs.«426843_j75857712381962_3_alg».proof.Proof.KStretch

set_option maxRecDepth 16384

noncomputable section

namespace Cert.KernelIdeal.KVal

open Cert.KernelIdeal Cert.KernelIdeal.Gen
open Idealize.ShloMosaic Idealize.ShloMosaic.TcCoe Idealize.SL.Sem
open Idealize.ShloMosaic.ValueIdx Idealize.ShloMosaic.RowGather

variable (m : (ℓ : Loc nD τ sig) → Buf (Elt Ideal) ℓ) (ρ : Dev nD → PrngReg)

namespace Host

/-! ## Real entries pass through a lookup and through `relu` -/

/-- An entry of a looked-up row is an entry of the table. -/
theorem rowsAt_isReal {E H N : Nat} (hN : 0 < N) (x : (⟨2, ![N, H]⟩ : Shape).Idx → EReal)
    (idx : (⟨1, ![E]⟩ : Shape).Idx → BitVec 32) (hx : ∀ i, Rgcn.IsReal (x i)) (i : (⟨2, ![E, H]⟩ : Shape).Idx) :
    Rgcn.IsReal (Rgcn.rowsAt hN x idx i) := hx _

/-- The maximum of a real number and zero is a real number. -/
theorem relu_isReal {s : Shape} (x : s.Idx → EReal) (hx : ∀ i, Rgcn.IsReal (x i)) (i : s.Idx) :
    Rgcn.IsReal (Rgcn.relu x i) := (hx i).max Rgcn.IsReal.zero

/-! ## The launch arrays by role, and the specification's intermediate arrays -/

abbrev srcIds (c : Dev nD) : IVec S262144 32 := m ((c : Thread nD τ).loc main_arg0)
abbrev e0Src (c : Dev nD) : IVec S409600 32 := m ((c : Thread nD τ).loc main_arg1)
abbrev e0Dst (c : Dev nD) : IVec S409600 32 := m ((c : Thread nD τ).loc main_arg2)
abbrev e0Type (c : Dev nD) : IVec S409600 32 := m ((c : Thread nD τ).loc main_arg3)
abbrev norm0 (c : Dev nD) : FVec Ideal S409600 .f32 := m ((c : Thread nD τ).loc main_arg4)
abbrev e1Src (c : Dev nD) : IVec S20480 32 := m ((c : Thread nD τ).loc main_arg5)
abbrev e1Dst (c : Dev nD) : IVec S20480 32 := m ((c : Thread nD τ).loc main_arg6)
abbrev e1Type (c : Dev nD) : IVec S20480 32 := m ((c : Thread nD τ).loc main_arg7)
abbrev norm1 (c : Dev nD) : FVec Ideal S20480 .f32 := m ((c : Thread nD τ).loc main_arg8)
abbrev emb (c : Dev nD) : FVec Ideal S1000000x128 .f32 := m ((c : Thread nD τ).loc main_arg9)
abbrev V1 (c : Dev nD) : FVec Ideal S8x128x128 .f32 := m ((c : Thread nD τ).loc main_arg10)
abbrev comp1 (c : Dev nD) : FVec Ideal S64x8 .f32 := m ((c : Thread nD τ).loc main_arg11)
abbrev b1 (c : Dev nD) : FVec Ideal S128 .f32 := m ((c : Thread nD τ).loc main_arg12)
abbrev V2 (c : Dev nD) : FVec Ideal S8x128x64 .f32 := m ((c : Thread nD τ).loc main_arg13)
abbrev comp2 (c : Dev nD) : FVec Ideal S64x8 .f32 := m ((c : Thread nD τ).loc main_arg14)
abbrev b2 (c : Dev nD) : FVec Ideal S64 .f32 := m ((c : Thread nD τ).loc main_arg15)

/-- The inputs' domain, over the launch arrays by role. -/
abbrev Dom (c : Dev nD) : Prop :=
  Rgcn.InDomain (srcIds m c) (e0Src m c) (e0Type m c) (norm0 m c) (e1Src m c) (e1Type m c) (norm1 m c) (emb m c)
    (V1 m c) (comp1 m c) (b1 m c) (V2 m c) (comp2 m c) (b2 m c)

/-- The embedding row each edge of layer 1 reads: the source node's identifier. -/
def idx0 (c : Dev nD) : IVec S409600 32 :=
  fun i => srcIds m c (ix1 (clampRow 262144 (by decide) (e0Src m c i)))

/-- Layer 1's edge features. -/
def h0 (c : Dev nD) : FVec Ideal S409600x128 .f32 := Rgcn.rowsAt (N := 1000000) (by decide) (emb m c) (idx0 m c)

/-- Layer 1's coefficients. -/
def cg1 (c : Dev nD) : FVec Ideal S409600x8 .f32 := Rgcn.rowsAt (N := 64) (by decide) (comp1 m c) (e0Type m c)

/-- Layer 1. -/
def lay1 (c : Dev nD) : FVec Ideal S16384x128 .f32 :=
  Rgcn.layer scatter_S16384x128_S409600x1_S409600x128_1_0_0_1 (h0 m c) (cg1 m c) (V1 m c) (norm0 m c) (e0Dst m c) (b1 m c)

/-- The hidden layer. -/
def hid (c : Dev nD) : FVec Ideal S16384x128 .f32 := Rgcn.relu (lay1 m c)

/-- Layer 2's edge features. -/
def h1 (c : Dev nD) : FVec Ideal S20480x128 .f32 := Rgcn.rowsAt (N := 16384) (by decide) (hid m c) (e1Src m c)

/-- Layer 2's coefficients. -/
def cg2 (c : Dev nD) : FVec Ideal S20480x8 .f32 := Rgcn.rowsAt (N := 64) (by decide) (comp2 m c) (e1Type m c)

theorem h0_isReal (c : Dev nD) (hd : Dom m c) (i) : Rgcn.IsReal (h0 m c i) := rowsAt_isReal _ _ _ hd.emb_real i
theorem cg1_isReal (c : Dev nD) (hd : Dom m c) (i) : Rgcn.IsReal (cg1 m c i) := rowsAt_isReal _ _ _ hd.comp1_real i
theorem hid_isReal (c : Dev nD) (hd : Dom m c) (i) : Rgcn.IsReal (hid m c i) :=
  relu_isReal _ (fun j => Rgcn.layer_isReal _ _ _ _ _ _ _ (h0_isReal m c hd) (cg1_isReal m c hd) hd.V1_real hd.norm0_real
    hd.b1_real j) i
theorem h1_isReal (c : Dev nD) (hd : Dom m c) (i) : Rgcn.IsReal (h1 m c i) := rowsAt_isReal _ _ _ (hid_isReal m c hd) i
theorem cg2_isReal (c : Dev nD) (hd : Dom m c) (i) : Rgcn.IsReal (cg2 m c i) := rowsAt_isReal _ _ _ hd.comp2_real i

/-! ## Layer 1, buffer by buffer -/

/-- The first lookup: the source nodes' identifiers. -/
theorem v0_val (c : Dev nD) (hd : Dom m c) :
    ((W1 (F := Ideal) m ρ c (Proc.devRef .tc main_v0)) : IVec S409600 32) = idx0 m c :=
  take_srcIds m ρ c hd.e0Src_rng

/-- The second lookup: the edge features. -/
theorem v1_val (c : Dev nD) (hd : Dom m c) :
    ((W2 (F := Ideal) m ρ c (Proc.devRef .tc main_v1)) : FVec Ideal S409600x128 .f32) = h0 m c := by
  have hr : ∀ i, 0 ≤ (((W1 (F := Ideal) m ρ c (Proc.devRef .tc main_v0)) : IVec S409600 32) i).toInt
      ∧ (((W1 (F := Ideal) m ρ c (Proc.devRef .tc main_v0)) : IVec S409600 32) i).toInt < 1000000 := by
    rw [v0_val m ρ c hd]
    intro i
    exact hd.srcIds_rng _
  rw [take_emb m ρ c hr, v0_val m ρ c hd, W1_arg m ρ c main_arg9 (by simp [argRefs])]
  rfl

/-- The third lookup: the coefficients. -/
theorem v2_val (c : Dev nD) (hd : Dom m c) :
    ((W3 (F := Ideal) m ρ c (Proc.devRef .tc main_v2)) : FVec Ideal S409600x8 .f32) = cg1 m c := by
  have hr : ∀ i, 0 ≤ (((W2 (F := Ideal) m ρ c (Proc.devRef .tc main_arg3)) : IVec S409600 32) i).toInt
      ∧ (((W2 (F := Ideal) m ρ c (Proc.devRef .tc main_arg3)) : IVec S409600 32) i).toInt < 64 := by
    rw [W2_arg m ρ c main_arg3 (by simp [argRefs])]
    exact hd.e0Type_rng
  rw [take_comp1 m ρ c hr, W2_arg m ρ c main_arg3 (by simp [argRefs]), W2_arg m ρ c main_arg11 (by simp [argRefs])]
  rfl

/-- The coefficients with the weight folded in. -/
theorem v5_val (c : Dev nD) (hd : Dom m c) :
    ((W4 (F := Ideal) m ρ c (Proc.devRef .tc main_v5)) : FVec Ideal S409600x8 .f32) = Rgcn.foldNorm (cg1 m c) (norm0 m c) := by
  rw [v5_eq m ρ c, v2_val m ρ c hd, W3_arg m ρ c main_arg4 (by simp [argRefs])]

/-- The bases laid side by side. -/
theorem v7_val (c : Dev nD) :
    ((W4 (F := Ideal) m ρ c (Proc.devRef .tc main_v7)) : FVec Ideal S128x1024 .f32)
      = Rgcn.stackV (O := 128) (W := 1024) (by norm_num) (V1 m c) := by
  rw [v7_eq m ρ c, W3_arg m ρ c main_arg10 (by simp [argRefs])]

/-- The edge features as the first launch finds them. -/
theorem v1_val4 (c : Dev nD) (hd : Dom m c) :
    ((W4 (F := Ideal) m ρ c (Proc.devRef .tc main_v1)) : FVec Ideal S409600x128 .f32) = h0 m c :=
  (W4_main_v1 m ρ c).trans (v1_val m ρ c hd)

/-- The first launch leaves the reference's messages. -/
theorem v8_val (c : Dev nD) (hd : Dom m c) :
    ((W5 (F := Ideal) m ρ c (Proc.devRef .tc main_v8)) : FVec Ideal S409600x128 .f32)
      = Rgcn.rmsg (h0 m c) (cg1 m c) (V1 m c) (norm0 m c) := by
  refine ((W5_arr m ρ c 3).trans (region0_value (V4 m ρ) c)).trans ?_
  show Rgcn.kmsg (E := 409600) (H := 128) (O := 128) (W := 1024) (by norm_num)
      ((W4 (F := Ideal) m ρ c (Proc.devRef .tc main_v1)) : FVec Ideal S409600x128 .f32)
      ((W4 (F := Ideal) m ρ c (Proc.devRef .tc main_v5)) : FVec Ideal S409600x8 .f32)
      ((W4 (F := Ideal) m ρ c (Proc.devRef .tc main_v7)) : FVec Ideal S128x1024 .f32) = _
  rw [v1_val4 m ρ c hd, v5_val m ρ c hd, v7_val m ρ c]
  exact Rgcn.kmsg_eq_rmsg _ _ _ _ _ (h0_isReal m c hd) (cg1_isReal m c hd) hd.V1_real hd.norm0_real

/-- Layer 1. -/
theorem v14_val (c : Dev nD) (hd : Dom m c) :
    ((W6 (F := Ideal) m ρ c (Proc.devRef .tc main_v14)) : FVec Ideal S16384x128 .f32) = lay1 m c := by
  rw [v14_eq m ρ c, v8_val m ρ c hd, W5_arg m ρ c main_arg2 (by simp [argRefs]),
    W5_arg m ρ c main_arg12 (by simp [argRefs])]
  rfl

/-- The hidden layer. -/
theorem v15_val (c : Dev nD) (hd : Dom m c) :
    ((W7 (F := Ideal) m ρ c (Proc.devRef .tc main_v15)) : FVec Ideal S16384x128 .f32) = hid m c := by
  rw [v15_eq m ρ c, v14_val m ρ c hd]
  rfl

/-! ## Layer 2, buffer by buffer -/

/-- The fourth lookup: the edge features, rows of the hidden layer. -/
theorem v16_val (c : Dev nD) (hd : Dom m c) :
    ((W8 (F := Ideal) m ρ c (Proc.devRef .tc main_v16)) : FVec Ideal S20480x128 .f32) = h1 m c := by
  have hr : ∀ i, 0 ≤ (((W7 (F := Ideal) m ρ c (Proc.devRef .tc main_arg5)) : IVec S20480 32) i).toInt
      ∧ (((W7 (F := Ideal) m ρ c (Proc.devRef .tc main_arg5)) : IVec S20480 32) i).toInt < 16384 := by
    rw [W7_arg m ρ c main_arg5 (by simp [argRefs])]
    exact hd.e1Src_rng
  rw [take_hid m ρ c hr, v15_val m ρ c hd, W7_arg m ρ c main_arg5 (by simp [argRefs])]
  rfl

/-- The fifth lookup: the coefficients. -/
theorem v17_val (c : Dev nD) (hd : Dom m c) :
    ((W9 (F := Ideal) m ρ c (Proc.devRef .tc main_v17)) : FVec Ideal S20480x8 .f32) = cg2 m c := by
  have hr : ∀ i, 0 ≤ (((W8 (F := Ideal) m ρ c (Proc.devRef .tc main_arg7)) : IVec S20480 32) i).toInt
      ∧ (((W8 (F := Ideal) m ρ c (Proc.devRef .tc main_arg7)) : IVec S20480 32) i).toInt < 64 := by
    rw [W8_arg m ρ c main_arg7 (by simp [argRefs])]
    exact hd.e1Type_rng
  rw [take_comp2 m ρ c hr, W8_arg m ρ c main_arg7 (by simp [argRefs]), W8_arg m ρ c main_arg14 (by simp [argRefs])]
  rfl

/-- The coefficients with the weight folded in. -/
theorem v20_val (c : Dev nD) (hd : Dom m c) :
    ((W10 (F := Ideal) m ρ c (Proc.devRef .tc main_v20)) : FVec Ideal S20480x8 .f32) = Rgcn.foldNorm (cg2 m c) (norm1 m c) := by
  rw [v20_eq m ρ c, v17_val m ρ c hd, W9_arg m ρ c main_arg8 (by simp [argRefs])]

/-- The bases laid side by side. -/
theorem v22_val (c : Dev nD) :
    ((W10 (F := Ideal) m ρ c (Proc.devRef .tc main_v22)) : FVec Ideal S128x512 .f32)
      = Rgcn.stackV (O := 64) (W := 512) (by norm_num) (V2 m c) := by
  rw [v22_eq m ρ c, W9_arg m ρ c main_arg13 (by simp [argRefs])]

/-- The edge features as the second launch finds them. -/
theorem v16_val10 (c : Dev nD) (hd : Dom m c) :
    ((W10 (F := Ideal) m ρ c (Proc.devRef .tc main_v16)) : FVec Ideal S20480x128 .f32) = h1 m c :=
  (W10_main_v16 m ρ c).trans (v16_val m ρ c hd)

/-- The second launch leaves the reference's messages. -/
theorem v23_val (c : Dev nD) (hd : Dom m c) :
    ((W11 (F := Ideal) m ρ c (Proc.devRef .tc main_v23)) : FVec Ideal S20480x64 .f32)
      = Rgcn.rmsg (h1 m c) (cg2 m c) (V2 m c) (norm1 m c) := by
  refine ((W11_arr m ρ c 3).trans (region1_value (V10 m ρ) c)).trans ?_
  show Rgcn.kmsg (E := 20480) (H := 128) (O := 64) (W := 512) (by norm_num)
      ((W10 (F := Ideal) m ρ c (Proc.devRef .tc main_v16)) : FVec Ideal S20480x128 .f32)
      ((W10 (F := Ideal) m ρ c (Proc.devRef .tc main_v20)) : FVec Ideal S20480x8 .f32)
      ((W10 (F := Ideal) m ρ c (Proc.devRef .tc main_v22)) : FVec Ideal S128x512 .f32) = _
  rw [v16_val10 m ρ c hd, v20_val m ρ c hd, v22_val m ρ c]
  exact Rgcn.kmsg_eq_rmsg _ _ _ _ _ (h1_isReal m c hd) (cg2_isReal m c hd) hd.V2_real hd.norm1_real

/-- Layer 2: the program's result. -/
theorem v29_val (c : Dev nD) (hd : Dom m c) :
    ((W12 (F := Ideal) m ρ c (Proc.devRef .tc main_v29)) : FVec Ideal S1024x64 .f32)
      = Rgcn.layer scatter_S1024x64_S20480x1_S20480x64_1_0_0_1 (h1 m c) (cg2 m c) (V2 m c) (norm1 m c) (e1Dst m c) (b2 m c) := by
  rw [v29_eq m ρ c, v23_val m ρ c hd, W11_arg m ρ c main_arg6 (by simp [argRefs]),
    W11_arg m ρ c main_arg15 (by simp [argRefs])]
  rfl

end Host

/-! ## The result -/

theorem value (c : Dev nD)
    (hd : Rgcn.InDomain (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :
    W12 (F := Ideal) m ρ c (Proc.devRef .tc main_v29)
      = Rgcn.outSpec scatter_S16384x128_S409600x1_S409600x128_1_0_0_1 scatter_S1024x64_S20480x1_S20480x64_1_0_0_1
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (Host.v29_val m ρ c hd).trans rfl

end Cert.KernelIdeal.KVal

end
-- ==== Proof.RefMsg.lean ====
/-
  The reference's per-edge message, read index by index: its eight basis products, each scaled by its coefficient and
  summed, then scaled by the edge weight, is `Rgcn.rmsg` of the gathered features, the gathered coefficients, the
  bases and the weights — for both layers.
-/
import proofs.«426843_j75857712381962_3_alg».proof.Proof.RefRead
import proofs.«426843_j75857712381962_3_alg».proof.Proof.Spec

noncomputable section

namespace Cert.ReferenceIdeal.RVal

open Cert.ReferenceIdeal Cert.ReferenceIdeal.Gen Cert.ReferenceIdeal.ReadP
open Idealize.ShloMosaic Idealize.ShloMosaic.TcCoe Idealize.ShloMosaic.ValueIdx

/-! ## Layer 1: the composed index maps -/

/-- Coefficient column 0, broadcast across the row, reads the gathered coefficients at `(e, 0)`. -/
private theorem l1_cidx0 (i : S409600x128.Idx) : idx_main_v22 (idx_main_v26 i) = ix2 (i 0) (0 : Fin 8) :=
  funext fun a => Fin.ext (by match a with | ⟨0, _⟩ => rfl | ⟨1, _⟩ => rfl)

/-- Basis 0, sliced and flattened to a matrix, read at `(k, j)` is the bases' entry `(0, k, j)`. -/
private theorem l1_vidx0 (i : S409600x128.Idx) (k : Fin 128) :
    idx_main_v23 (idx_main_v24 (ridx_main_v25 i k)) = ix3 (0 : Fin 8) k (i 1) :=
  funext fun a => Fin.ext (by
    have hk : k.val < 128 := k.isLt
    have hj : (i 1).val < 128 := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)

/-- The contraction's left index is `(e, k)`. -/
private theorem l1_hidx0 (i : S409600x128.Idx) (k : Fin 128) : lidx_main_v25 i k = ix2 (i 0) k :=
  funext fun a => Fin.ext (by match a with | ⟨0, _⟩ => rfl | ⟨1, _⟩ => rfl)

/-- Coefficient column 1, broadcast across the row, reads the gathered coefficients at `(e, 1)`. -/
private theorem l1_cidx1 (i : S409600x128.Idx) : idx_main_v29 (idx_main_v33 i) = ix2 (i 0) (1 : Fin 8) :=
  funext fun a => Fin.ext (by match a with | ⟨0, _⟩ => rfl | ⟨1, _⟩ => rfl)

/-- Basis 1, sliced and flattened to a matrix, read at `(k, j)` is the bases' entry `(1, k, j)`. -/
private theorem l1_vidx1 (i : S409600x128.Idx) (k : Fin 128) :
    idx_main_v30 (idx_main_v31 (ridx_main_v32 i k)) = ix3 (1 : Fin 8) k (i 1) :=
  funext fun a => Fin.ext (by
    have hk : k.val < 128 := k.isLt
    have hj : (i 1).val < 128 := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)

/-- The contraction's left index is `(e, k)`. -/
private theorem l1_hidx1 (i : S409600x128.Idx) (k : Fin 128) : lidx_main_v32 i k = ix2 (i 0) k :=
  funext fun a => Fin.ext (by match a with | ⟨0, _⟩ => rfl | ⟨1, _⟩ => rfl)

/-- Coefficient column 2, broadcast across the row, reads the gathered coefficients at `(e, 2)`. -/
private theorem l1_cidx2 (i : S409600x128.Idx) : idx_main_v36 (idx_main_v40 i) = ix2 (i 0) (2 : Fin 8) :=
  funext fun a => Fin.ext (by match a with | ⟨0, _⟩ => rfl | ⟨1, _⟩ => rfl)

/-- Basis 2, sliced and flattened to a matrix, read at `(k, j)` is the bases' entry `(2, k, j)`. -/
private theorem l1_vidx2 (i : S409600x128.Idx) (k : Fin 128) :
    idx_main_v37 (idx_main_v38 (ridx_main_v39 i k)) = ix3 (2 : Fin 8) k (i 1) :=
  funext fun a => Fin.ext (by
    have hk : k.val < 128 := k.isLt
    have hj : (i 1).val < 128 := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)

/-- The contraction's left index is `(e, k)`. -/
private theorem l1_hidx2 (i : S409600x128.Idx) (k : Fin 128) : lidx_main_v39 i k = ix2 (i 0) k :=
  funext fun a => Fin.ext (by match a with | ⟨0, _⟩ => rfl | ⟨1, _⟩ => rfl)

/-- Coefficient column 3, broadcast across the row, reads the gathered coefficients at `(e, 3)`. -/
private theorem l1_cidx3 (i : S409600x128.Idx) : idx_main_v43 (idx_main_v47 i) = ix2 (i 0) (3 : Fin 8) :=
  funext fun a => Fin.ext (by match a with | ⟨0, _⟩ => rfl | ⟨1, _⟩ => rfl)

/-- Basis 3, sliced and flattened to a matrix, read at `(k, j)` is the bases' entry `(3, k, j)`. -/
private theorem l1_vidx3 (i : S409600x128.Idx) (k : Fin 128) :
    idx_main_v44 (idx_main_v45 (ridx_main_v46 i k)) = ix3 (3 : Fin 8) k (i 1) :=
  funext fun a => Fin.ext (by
    have hk : k.val < 128 := k.isLt
    have hj : (i 1).val < 128 := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)

/-- The contraction's left index is `(e, k)`. -/
private theorem l1_hidx3 (i : S409600x128.Idx) (k : Fin 128) : lidx_main_v46 i k = ix2 (i 0) k :=
  funext fun a => Fin.ext (by match a with | ⟨0, _⟩ => rfl | ⟨1, _⟩ => rfl)

/-- Coefficient column 4, broadcast across the row, reads the gathered coefficients at `(e, 4)`. -/
private theorem l1_cidx4 (i : S409600x128.Idx) : idx_main_v50 (idx_main_v54 i) = ix2 (i 0) (4 : Fin 8) :=
  funext fun a => Fin.ext (by match a with | ⟨0, _⟩ => rfl | ⟨1, _⟩ => rfl)

/-- Basis 4, sliced and flattened to a matrix, read at `(k, j)` is the bases' entry `(4, k, j)`. -/
private theorem l1_vidx4 (i : S409600x128.Idx) (k : Fin 128) :
    idx_main_v51 (idx_main_v52 (ridx_main_v53 i k)) = ix3 (4 : Fin 8) k (i 1) :=
  funext fun a => Fin.ext (by
    have hk : k.val < 128 := k.isLt
    have hj : (i 1).val < 128 := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)

/-- The contraction's left index is `(e, k)`. -/
private theorem l1_hidx4 (i : S409600x128.Idx) (k : Fin 128) : lidx_main_v53 i k = ix2 (i 0) k :=
  funext fun a => Fin.ext (by match a with | ⟨0, _⟩ => rfl | ⟨1, _⟩ => rfl)

/-- Coefficient column 5, broadcast across the row, reads the gathered coefficients at `(e, 5)`. -/
private theorem l1_cidx5 (i : S409600x128.Idx) : idx_main_v57 (idx_main_v61 i) = ix2 (i 0) (5 : Fin 8) :=
  funext fun a => Fin.ext (by match a with | ⟨0, _⟩ => rfl | ⟨1, _⟩ => rfl)

/-- Basis 5, sliced and flattened to a matrix, read at `(k, j)` is the bases' entry `(5, k, j)`. -/
private theorem l1_vidx5 (i : S409600x128.Idx) (k : Fin 128) :
    idx_main_v58 (idx_main_v59 (ridx_main_v60 i k)) = ix3 (5 : Fin 8) k (i 1) :=
  funext fun a => Fin.ext (by
    have hk : k.val < 128 := k.isLt
    have hj : (i 1).val < 128 := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)

/-- The contraction's left index is `(e, k)`. -/
private theorem l1_hidx5 (i : S409600x128.Idx) (k : Fin 128) : lidx_main_v60 i k = ix2 (i 0) k :=
  funext fun a => Fin.ext (by match a with | ⟨0, _⟩ => rfl | ⟨1, _⟩ => rfl)

/-- Coefficient column 6, broadcast across the row, reads the gathered coefficients at `(e, 6)`. -/
private theorem l1_cidx6 (i : S409600x128.Idx) : idx_main_v64 (idx_main_v68 i) = ix2 (i 0) (6 : Fin 8) :=
  funext fun a => Fin.ext (by match a with | ⟨0, _⟩ => rfl | ⟨1, _⟩ => rfl)

/-- Basis 6, sliced and flattened to a matrix, read at `(k, j)` is the bases' entry `(6, k, j)`. -/
private theorem l1_vidx6 (i : S409600x128.Idx) (k : Fin 128) :
    idx_main_v65 (idx_main_v66 (ridx_main_v67 i k)) = ix3 (6 : Fin 8) k (i 1) :=
  funext fun a => Fin.ext (by
    have hk : k.val < 128 := k.isLt
    have hj : (i 1).val < 128 := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)

/-- The contraction's left index is `(e, k)`. -/
private theorem l1_hidx6 (i : S409600x128.Idx) (k : Fin 128) : lidx_main_v67 i k = ix2 (i 0) k :=
  funext fun a => Fin.ext (by match a with | ⟨0, _⟩ => rfl | ⟨1, _⟩ => rfl)

/-- Coefficient column 7, broadcast across the row, reads the gathered coefficients at `(e, 7)`. -/
private theorem l1_cidx7 (i : S409600x128.Idx) : idx_main_v71 (idx_main_v75 i) = ix2 (i 0) (7 : Fin 8) :=
  funext fun a => Fin.ext (by match a with | ⟨0, _⟩ => rfl | ⟨1, _⟩ => rfl)

/-- Basis 7, sliced and flattened to a matrix, read at `(k, j)` is the bases' entry `(7, k, j)`. -/
private theorem l1_vidx7 (i : S409600x128.Idx) (k : Fin 128) :
    idx_main_v72 (idx_main_v73 (ridx_main_v74 i k)) = ix3 (7 : Fin 8) k (i 1) :=
  funext fun a => Fin.ext (by
    have hk : k.val < 128 := k.isLt
    have hj : (i 1).val < 128 := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)

/-- The contraction's left index is `(e, k)`. -/
private theorem l1_hidx7 (i : S409600x128.Idx) (k : Fin 128) : lidx_main_v74 i k = ix2 (i 0) k :=
  funext fun a => Fin.ext (by match a with | ⟨0, _⟩ => rfl | ⟨1, _⟩ => rfl)

/-- The edge weight, laid as a column and broadcast across the row, reads the weight vector at `e`. -/
private theorem l1_nidx (i : S409600x128.Idx) : idx_main_v78 (idx_main_v79 i) = ix1 (i 0) :=
  funext fun a => Fin.ext (by match a with | ⟨0, _⟩ => rfl)

theorem msg0 (x0 : IVec S262144 32) (x1 x3 : IVec S409600 32) (x4 : FVec Ideal S409600 .f32)
    (x9 : FVec Ideal S1000000x128 .f32) (x10 : FVec Ideal S8x128x128 .f32) (x11 : FVec Ideal S64x8 .f32) :
    val_main_v80 (F := Ideal) x0 x1 x3 x4 x9 x10 x11
      = Rgcn.rmsg (val_main_v13 (F := Ideal) x0 x1 x9) (val_main_v20 (F := Ideal) x3 x11) x10 x4 := by
  funext i
  -- read every operation of the stage at the index, down to the gathered operands, the bases and the weights
  simp only [
    val_main_v80_apply, val_main_v79_apply, val_main_v78_apply, val_main_v77_apply, val_main_v76_apply, val_main_v75_apply,
    val_main_v74_apply, val_main_v73_apply, val_main_v72_apply, val_main_v71_apply, val_main_v70_apply, val_main_v69_apply,
    val_main_v68_apply, val_main_v67_apply, val_main_v66_apply, val_main_v65_apply, val_main_v64_apply, val_main_v63_apply,
    val_main_v62_apply, val_main_v61_apply, val_main_v60_apply, val_main_v59_apply, val_main_v58_apply, val_main_v57_apply,
    val_main_v56_apply, val_main_v55_apply, val_main_v54_apply, val_main_v53_apply, val_main_v52_apply, val_main_v51_apply,
    val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply, val_main_v30_apply, val_main_v29_apply, val_main_v28_apply, val_main_v27_apply,
    val_main_v26_apply, val_main_v25_apply, val_main_v24_apply, val_main_v23_apply, val_main_v22_apply, val_main_v21_apply,
    val_main_cst_apply,
    Ideal.mulf_def, Ideal.addf_def, Ideal.ofBits_def, Ideal.ofBits_zero_f32, zero_add]
  -- the composed index maps are the coordinates themselves
  simp only [l1_cidx0, l1_cidx1, l1_cidx2, l1_cidx3, l1_cidx4, l1_cidx5, l1_cidx6, l1_cidx7,
    l1_vidx0, l1_vidx1, l1_vidx2, l1_vidx3, l1_vidx4, l1_vidx5, l1_vidx6, l1_vidx7,
    l1_hidx0, l1_hidx1, l1_hidx2, l1_hidx3, l1_hidx4, l1_hidx5, l1_hidx6, l1_hidx7, l1_nidx]
  -- the eight terms, summed left to right, are the sum over the bases
  show _ = Rgcn.rmsgAt _ _ _ _ (i 0) (i 1)
  unfold Rgcn.rmsgAt
  rw [Fin.sum_univ_eight]

/-! ## Layer 2: the composed index maps -/

/-- Coefficient column 0, broadcast across the row, reads the gathered coefficients at `(e, 0)`. -/
private theorem l2_cidx0 (i : S20480x64.Idx) : idx_main_v103 (idx_main_v107 i) = ix2 (i 0) (0 : Fin 8) :=
  funext fun a => Fin.ext (by match a with | ⟨0, _⟩ => rfl | ⟨1, _⟩ => rfl)

/-- Basis 0, sliced and flattened to a matrix, read at `(k, j)` is the bases' entry `(0, k, j)`. -/
private theorem l2_vidx0 (i : S20480x64.Idx) (k : Fin 128) :
    idx_main_v104 (idx_main_v105 (ridx_main_v106 i k)) = ix3 (0 : Fin 8) k (i 1) :=
  funext fun a => Fin.ext (by
    have hk : k.val < 128 := k.isLt
    have hj : (i 1).val < 64 := idx2_lt1 i
    match a with
    | ⟨0, _⟩ => rfl
    | ⟨1, _⟩ => show (k.val * 64 + (i 1).val) / 64 % 128 = k.val; omega
    | ⟨2, _⟩ => show (k.val * 64 + (i 1).val) % 64 = (i 1).val; omega)

/-- The contraction's left index is `(e, k)`. -/
private theorem l2_hidx0 (i : S20480x64.Idx) (k : Fin 128) : lidx_main_v106 i k = ix2 (i 0) k :=
  funext fun a => Fin.ext (by match a with | ⟨0, _⟩ => rfl | ⟨1, _⟩ => rfl)

/-- Coefficient column 1, broadcast across the row, reads the gathered coefficients at `(e, 1)`. -/
private theorem l2_cidx1 (i : S20480x64.Idx) : idx_main_v110 (idx_main_v114 i) = ix2 (i 0) (1 : Fin 8) :=
  funext fun a => Fin.ext (by match a with | ⟨0, _⟩ => rfl | ⟨1, _⟩ => rfl)

/-- Basis 1, sliced and flattened to a matrix, read at `(k, j)` is the bases' entry `(1, k, j)`. -/
private theorem l2_vidx1 (i : S20480x64.Idx) (k : Fin 128) :
    idx_main_v111 (idx_main_v112 (ridx_main_v113 i k)) = ix3 (1 : Fin 8) k (i 1) :=
  funext fun a => Fin.ext (by
    have hk : k.val < 128 := k.isLt
    have hj : (i 1).val < 64 := idx2_lt1 i
    match a with
    | ⟨0, _⟩ => rfl
    | ⟨1, _⟩ => show (k.val * 64 + (i 1).val) / 64 % 128 = k.val; omega
    | ⟨2, _⟩ => show (k.val * 64 + (i 1).val) % 64 = (i 1).val; omega)

/-- The contraction's left index is `(e, k)`. -/
private theorem l2_hidx1 (i : S20480x64.Idx) (k : Fin 128) : lidx_main_v113 i k = ix2 (i 0) k :=
  funext fun a => Fin.ext (by match a with | ⟨0, _⟩ => rfl | ⟨1, _⟩ => rfl)

/-- Coefficient column 2, broadcast across the row, reads the gathered coefficients at `(e, 2)`. -/
private theorem l2_cidx2 (i : S20480x64.Idx) : idx_main_v117 (idx_main_v121 i) = ix2 (i 0) (2 : Fin 8) :=
  funext fun a => Fin.ext (by match a with | ⟨0, _⟩ => rfl | ⟨1, _⟩ => rfl)

/-- Basis 2, sliced and flattened to a matrix, read at `(k, j)` is the bases' entry `(2, k, j)`. -/
private theorem l2_vidx2 (i : S20480x64.Idx) (k : Fin 128) :
    idx_main_v118 (idx_main_v119 (ridx_main_v120 i k)) = ix3 (2 : Fin 8) k (i 1) :=
  funext fun a => Fin.ext (by
    have hk : k.val < 128 := k.isLt
    have hj : (i 1).val < 64 := idx2_lt1 i
    match a with
    | ⟨0, _⟩ => rfl
    | ⟨1, _⟩ => show (k.val * 64 + (i 1).val) / 64 % 128 = k.val; omega
    | ⟨2, _⟩ => show (k.val * 64 + (i 1).val) % 64 = (i 1).val; omega)

/-- The contraction's left index is `(e, k)`. -/
private theorem l2_hidx2 (i : S20480x64.Idx) (k : Fin 128) : lidx_main_v120 i k = ix2 (i 0) k :=
  funext fun a => Fin.ext (by match a with | ⟨0, _⟩ => rfl | ⟨1, _⟩ => rfl)

/-- Coefficient column 3, broadcast across the row, reads the gathered coefficients at `(e, 3)`. -/
private theorem l2_cidx3 (i : S20480x64.Idx) : idx_main_v124 (idx_main_v128 i) = ix2 (i 0) (3 : Fin 8) :=
  funext fun a => Fin.ext (by match a with | ⟨0, _⟩ => rfl | ⟨1, _⟩ => rfl)

/-- Basis 3, sliced and flattened to a matrix, read at `(k, j)` is the bases' entry `(3, k, j)`. -/
private theorem l2_vidx3 (i : S20480x64.Idx) (k : Fin 128) :
    idx_main_v125 (idx_main_v126 (ridx_main_v127 i k)) = ix3 (3 : Fin 8) k (i 1) :=
  funext fun a => Fin.ext (by
    have hk : k.val < 128 := k.isLt
    have hj : (i 1).val < 64 := idx2_lt1 i
    match a with
    | ⟨0, _⟩ => rfl
    | ⟨1, _⟩ => show (k.val * 64 + (i 1).val) / 64 % 128 = k.val; omega
    | ⟨2, _⟩ => show (k.val * 64 + (i 1).val) % 64 = (i 1).val; omega)

/-- The contraction's left index is `(e, k)`. -/
private theorem l2_hidx3 (i : S20480x64.Idx) (k : Fin 128) : lidx_main_v127 i k = ix2 (i 0) k :=
  funext fun a => Fin.ext (by match a with | ⟨0, _⟩ => rfl | ⟨1, _⟩ => rfl)

/-- Coefficient column 4, broadcast across the row, reads the gathered coefficients at `(e, 4)`. -/
private theorem l2_cidx4 (i : S20480x64.Idx) : idx_main_v131 (idx_main_v135 i) = ix2 (i 0) (4 : Fin 8) :=
  funext fun a => Fin.ext (by match a with | ⟨0, _⟩ => rfl | ⟨1, _⟩ => rfl)

/-- Basis 4, sliced and flattened to a matrix, read at `(k, j)` is the bases' entry `(4, k, j)`. -/
private theorem l2_vidx4 (i : S20480x64.Idx) (k : Fin 128) :
    idx_main_v132 (idx_main_v133 (ridx_main_v134 i k)) = ix3 (4 : Fin 8) k (i 1) :=
  funext fun a => Fin.ext (by
    have hk : k.val < 128 := k.isLt
    have hj : (i 1).val < 64 := idx2_lt1 i
    match a with
    | ⟨0, _⟩ => rfl
    | ⟨1, _⟩ => show (k.val * 64 + (i 1).val) / 64 % 128 = k.val; omega
    | ⟨2, _⟩ => show (k.val * 64 + (i 1).val) % 64 = (i 1).val; omega)

/-- The contraction's left index is `(e, k)`. -/
private theorem l2_hidx4 (i : S20480x64.Idx) (k : Fin 128) : lidx_main_v134 i k = ix2 (i 0) k :=
  funext fun a => Fin.ext (by match a with | ⟨0, _⟩ => rfl | ⟨1, _⟩ => rfl)

/-- Coefficient column 5, broadcast across the row, reads the gathered coefficients at `(e, 5)`. -/
private theorem l2_cidx5 (i : S20480x64.Idx) : idx_main_v138 (idx_main_v142 i) = ix2 (i 0) (5 : Fin 8) :=
  funext fun a => Fin.ext (by match a with | ⟨0, _⟩ => rfl | ⟨1, _⟩ => rfl)

/-- Basis 5, sliced and flattened to a matrix, read at `(k, j)` is the bases' entry `(5, k, j)`. -/
private theorem l2_vidx5 (i : S20480x64.Idx) (k : Fin 128) :
    idx_main_v139 (idx_main_v140 (ridx_main_v141 i k)) = ix3 (5 : Fin 8) k (i 1) :=
  funext fun a => Fin.ext (by
    have hk : k.val < 128 := k.isLt
    have hj : (i 1).val < 64 := idx2_lt1 i
    match a with
    | ⟨0, _⟩ => rfl
    | ⟨1, _⟩ => show (k.val * 64 + (i 1).val) / 64 % 128 = k.val; omega
    | ⟨2, _⟩ => show (k.val * 64 + (i 1).val) % 64 = (i 1).val; omega)

/-- The contraction's left index is `(e, k)`. -/
private theorem l2_hidx5 (i : S20480x64.Idx) (k : Fin 128) : lidx_main_v141 i k = ix2 (i 0) k :=
  funext fun a => Fin.ext (by match a with | ⟨0, _⟩ => rfl | ⟨1, _⟩ => rfl)

/-- Coefficient column 6, broadcast across the row, reads the gathered coefficients at `(e, 6)`. -/
private theorem l2_cidx6 (i : S20480x64.Idx) : idx_main_v145 (idx_main_v149 i) = ix2 (i 0) (6 : Fin 8) :=
  funext fun a => Fin.ext (by match a with | ⟨0, _⟩ => rfl | ⟨1, _⟩ => rfl)

/-- Basis 6, sliced and flattened to a matrix, read at `(k, j)` is the bases' entry `(6, k, j)`. -/
private theorem l2_vidx6 (i : S20480x64.Idx) (k : Fin 128) :
    idx_main_v146 (idx_main_v147 (ridx_main_v148 i k)) = ix3 (6 : Fin 8) k (i 1) :=
  funext fun a => Fin.ext (by
    have hk : k.val < 128 := k.isLt
    have hj : (i 1).val < 64 := idx2_lt1 i
    match a with
    | ⟨0, _⟩ => rfl
    | ⟨1, _⟩ => show (k.val * 64 + (i 1).val) / 64 % 128 = k.val; omega
    | ⟨2, _⟩ => show (k.val * 64 + (i 1).val) % 64 = (i 1).val; omega)

/-- The contraction's left index is `(e, k)`. -/
private theorem l2_hidx6 (i : S20480x64.Idx) (k : Fin 128) : lidx_main_v148 i k = ix2 (i 0) k :=
  funext fun a => Fin.ext (by match a with | ⟨0, _⟩ => rfl | ⟨1, _⟩ => rfl)

/-- Coefficient column 7, broadcast across the row, reads the gathered coefficients at `(e, 7)`. -/
private theorem l2_cidx7 (i : S20480x64.Idx) : idx_main_v152 (idx_main_v156 i) = ix2 (i 0) (7 : Fin 8) :=
  funext fun a => Fin.ext (by match a with | ⟨0, _⟩ => rfl | ⟨1, _⟩ => rfl)

/-- Basis 7, sliced and flattened to a matrix, read at `(k, j)` is the bases' entry `(7, k, j)`. -/
private theorem l2_vidx7 (i : S20480x64.Idx) (k : Fin 128) :
    idx_main_v153 (idx_main_v154 (ridx_main_v155 i k)) = ix3 (7 : Fin 8) k (i 1) :=
  funext fun a => Fin.ext (by
    have hk : k.val < 128 := k.isLt
    have hj : (i 1).val < 64 := idx2_lt1 i
    match a with
    | ⟨0, _⟩ => rfl
    | ⟨1, _⟩ => show (k.val * 64 + (i 1).val) / 64 % 128 = k.val; omega
    | ⟨2, _⟩ => show (k.val * 64 + (i 1).val) % 64 = (i 1).val; omega)

/-- The contraction's left index is `(e, k)`. -/
private theorem l2_hidx7 (i : S20480x64.Idx) (k : Fin 128) : lidx_main_v155 i k = ix2 (i 0) k :=
  funext fun a => Fin.ext (by match a with | ⟨0, _⟩ => rfl | ⟨1, _⟩ => rfl)

/-- The edge weight, laid as a column and broadcast across the row, reads the weight vector at `e`. -/
private theorem l2_nidx (i : S20480x64.Idx) : idx_main_v159 (idx_main_v160 i) = ix1 (i 0) :=
  funext fun a => Fin.ext (by match a with | ⟨0, _⟩ => rfl)

theorem msg1 (x0 : IVec S262144 32) (x1 x2 x3 : IVec S409600 32) (x4 : FVec Ideal S409600 .f32) (x5 x7 : IVec S20480 32)
    (x8 : FVec Ideal S20480 .f32) (x9 : FVec Ideal S1000000x128 .f32) (x10 : FVec Ideal S8x128x128 .f32)
    (x11 : FVec Ideal S64x8 .f32) (x12 : FVec Ideal S128 .f32) (x13 : FVec Ideal S8x128x64 .f32) (x14 : FVec Ideal S64x8 .f32) :
    val_main_v161 (F := Ideal) x0 x1 x2 x3 x4 x5 x7 x8 x9 x10 x11 x12 x13 x14
      = Rgcn.rmsg (val_main_v94 (F := Ideal) x0 x1 x2 x3 x4 x5 x9 x10 x11 x12) (val_main_v101 (F := Ideal) x7 x14) x13 x8 := by
  funext i
  -- read every operation of the stage at the index, down to the gathered operands, the bases and the weights
  simp only [
    val_main_v161_apply, val_main_v160_apply, val_main_v159_apply, val_main_v158_apply, val_main_v157_apply, val_main_v156_apply,
    val_main_v155_apply, val_main_v154_apply, val_main_v153_apply, val_main_v152_apply, val_main_v151_apply, val_main_v150_apply,
    val_main_v149_apply, val_main_v148_apply, val_main_v147_apply, val_main_v146_apply, val_main_v145_apply, val_main_v144_apply,
    val_main_v143_apply, val_main_v142_apply, val_main_v141_apply, val_main_v140_apply, val_main_v139_apply, val_main_v138_apply,
    val_main_v137_apply, val_main_v136_apply, val_main_v135_apply, val_main_v134_apply, val_main_v133_apply, val_main_v132_apply,
    val_main_v131_apply, val_main_v130_apply, val_main_v129_apply, val_main_v128_apply, val_main_v127_apply, val_main_v126_apply,
    val_main_v125_apply, val_main_v124_apply, val_main_v123_apply, val_main_v122_apply, val_main_v121_apply, val_main_v120_apply,
    val_main_v119_apply, val_main_v118_apply, val_main_v117_apply, val_main_v116_apply, val_main_v115_apply, val_main_v114_apply,
    val_main_v113_apply, val_main_v112_apply, val_main_v111_apply, val_main_v110_apply, val_main_v109_apply, val_main_v108_apply,
    val_main_v107_apply, val_main_v106_apply, val_main_v105_apply, val_main_v104_apply, val_main_v103_apply, val_main_v102_apply,
    val_main_cst_10_apply,
    Ideal.mulf_def, Ideal.addf_def, Ideal.ofBits_def, Ideal.ofBits_zero_f32, zero_add]
  -- the composed index maps are the coordinates themselves
  simp only [l2_cidx0, l2_cidx1, l2_cidx2, l2_cidx3, l2_cidx4, l2_cidx5, l2_cidx6, l2_cidx7,
    l2_vidx0, l2_vidx1, l2_vidx2, l2_vidx3, l2_vidx4, l2_vidx5, l2_vidx6, l2_vidx7,
    l2_hidx0, l2_hidx1, l2_hidx2, l2_hidx3, l2_hidx4, l2_hidx5, l2_hidx6, l2_hidx7, l2_nidx]
  -- the eight terms, summed left to right, are the sum over the bases
  show _ = Rgcn.rmsgAt _ _ _ _ (i 0) (i 1)
  unfold Rgcn.rmsgAt
  rw [Fin.sum_univ_eight]

end Cert.ReferenceIdeal.RVal

end
-- ==== Proof.RValue.lean ====
/-
  The reference program's result, as the specification's function of the sixteen launch arrays.
-/
import proofs.«426843_j75857712381962_3_alg».proof.Proof.RefRead
import proofs.«426843_j75857712381962_3_alg».proof.Proof.RefMsg
import proofs.«426843_j75857712381962_3_alg».proof.Proof.Spec

noncomputable section

namespace Cert.ReferenceIdeal.RVal

open Cert.ReferenceIdeal Cert.ReferenceIdeal.Gen Cert.ReferenceIdeal.ReadP
open Idealize.ShloMosaic Idealize.ShloMosaic.TcCoe Idealize.SL.Sem Idealize.ShloMosaic.ValueIdx

open Idealize.ShloMosaic.RowGather

/-! ## A non-negative index is its own normalisation -/

/-- A word that is not negative as a signed integer does not compare below zero. -/
theorem cmpi_slt_zero {w : BitVec 32} (h : 0 ≤ w.toInt) : IntOp.cmpi .slt w 0#32 = 0#1 := by
  have h0 : (0#32 : BitVec 32).toInt = 0 := by decide
  have hs : w.slt 0#32 = false := by
    unfold BitVec.slt
    rw [h0]
    exact decide_eq_false (not_lt.mpr h)
  show BitVec.ofBool (w.slt 0#32) = 0#1
  rw [hs]; rfl

/-- The normalising select keeps the index when it is not negative. -/
theorem norm_eq {α : Type} {w : BitVec 32} (a b : α) (h : 0 ≤ w.toInt) :
    Scalar.select (IntOp.cmpi .slt w 0#32) a b = b := by
  rw [cmpi_slt_zero h, select_zero]

theorem v4_eq (x0 : IVec S262144 32) (h : ∀ i, 0 ≤ (x0 i).toInt) : val_main_v4 (F := Ideal) x0 = x0 := by
  funext i
  rw [val_main_v4_apply, val_main_v1_apply, val_main_v0_apply, val_main_c_apply]
  exact norm_eq _ _ (h i)

theorem v11_eq (x1 : IVec S409600 32) (h : ∀ i, 0 ≤ (x1 i).toInt) : val_main_v11 (F := Ideal) x1 = x1 := by
  funext i
  rw [val_main_v11_apply, val_main_v8_apply, val_main_v7_apply, val_main_c_1_apply]
  exact norm_eq _ _ (h i)

theorem v18_eq (x3 : IVec S409600 32) (h : ∀ i, 0 ≤ (x3 i).toInt) : val_main_v18 (F := Ideal) x3 = x3 := by
  funext i
  rw [val_main_v18_apply, val_main_v15_apply, val_main_v14_apply, val_main_c_3_apply]
  exact norm_eq _ _ (h i)

theorem v92_eq (x5 : IVec S20480 32) (h : ∀ i, 0 ≤ (x5 i).toInt) : val_main_v92 (F := Ideal) x5 = x5 := by
  funext i
  rw [val_main_v92_apply, val_main_v89_apply, val_main_v88_apply, val_main_c_6_apply]
  exact norm_eq _ _ (h i)

theorem v99_eq (x7 : IVec S20480 32) (h : ∀ i, 0 ≤ (x7 i).toInt) : val_main_v99 (F := Ideal) x7 = x7 := by
  funext i
  rw [val_main_v99_apply, val_main_v96_apply, val_main_v95_apply, val_main_c_8_apply]
  exact norm_eq _ _ (h i)

/-! ## An index vector laid as a column -/

theorem v5_eq (x0 : IVec S262144 32) (h : ∀ i, 0 ≤ (x0 i).toInt) : val_main_v5 (F := Ideal) x0 = Rgcn.colIdx x0 := by
  funext i
  rw [val_main_v5_apply, v4_eq x0 h]
  show x0 (idx_main_v5 i) = x0 (ix1 (i 0))
  congr 1
  funext a
  match a with
  | ⟨0, _⟩ => rfl

theorem v12_eq (x1 : IVec S409600 32) (h : ∀ i, 0 ≤ (x1 i).toInt) : val_main_v12 (F := Ideal) x1 = Rgcn.colIdx x1 := by
  funext i
  rw [val_main_v12_apply, v11_eq x1 h]
  show x1 (idx_main_v12 i) = x1 (ix1 (i 0))
  congr 1
  funext a
  match a with
  | ⟨0, _⟩ => rfl

theorem v19_eq (x3 : IVec S409600 32) (h : ∀ i, 0 ≤ (x3 i).toInt) : val_main_v19 (F := Ideal) x3 = Rgcn.colIdx x3 := by
  funext i
  rw [val_main_v19_apply, v18_eq x3 h]
  show x3 (idx_main_v19 i) = x3 (ix1 (i 0))
  congr 1
  funext a
  match a with
  | ⟨0, _⟩ => rfl

theorem v82_eq (x2 : IVec S409600 32) : val_main_v82 (F := Ideal) x2 = Rgcn.colIdx x2 := by
  funext i
  rw [val_main_v82_apply]
  show x2 (idx_main_v82 i) = x2 (ix1 (i 0))
  congr 1
  funext a
  match a with
  | ⟨0, _⟩ => rfl

theorem v93_eq (x5 : IVec S20480 32) (h : ∀ i, 0 ≤ (x5 i).toInt) : val_main_v93 (F := Ideal) x5 = Rgcn.colIdx x5 := by
  funext i
  rw [val_main_v93_apply, v92_eq x5 h]
  show x5 (idx_main_v93 i) = x5 (ix1 (i 0))
  congr 1
  funext a
  match a with
  | ⟨0, _⟩ => rfl

theorem v100_eq (x7 : IVec S20480 32) (h : ∀ i, 0 ≤ (x7 i).toInt) : val_main_v100 (F := Ideal) x7 = Rgcn.colIdx x7 := by
  funext i
  rw [val_main_v100_apply, v99_eq x7 h]
  show x7 (idx_main_v100 i) = x7 (ix1 (i 0))
  congr 1
  funext a
  match a with
  | ⟨0, _⟩ => rfl

theorem v163_eq (x6 : IVec S20480 32) : val_main_v163 (F := Ideal) x6 = Rgcn.colIdx x6 := by
  funext i
  rw [val_main_v163_apply]
  show x6 (idx_main_v163 i) = x6 (ix1 (i 0))
  congr 1
  funext a
  match a with
  | ⟨0, _⟩ => rfl

/-! ## The lookups -/

/-- A row gather through an index column is the table's rows at the clamped indices. -/
theorem gather_colIdx {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → EReal) (idx : (⟨1, ![E]⟩ : Shape).Idx → BitVec 32) :
    Host.gather (rowDims N C E wf) x (Rgcn.colIdx idx) = Rgcn.rowsAt hN x idx := by
  funext j
  rw [gather_row_apply hN wf x (Rgcn.colIdx idx) j]
  rfl

/-- Rows of rows: a lookup in a looked-up table is one lookup through the composed index. -/
theorem rowsAt_rowsAt {N M C E : Nat} (hN : 0 < N) (hM : 0 < M) (x : (⟨2, ![N, C]⟩ : Shape).Idx → EReal)
    (a : (⟨1, ![M]⟩ : Shape).Idx → BitVec 32) (b : (⟨1, ![E]⟩ : Shape).Idx → BitVec 32) :
    Rgcn.rowsAt hM (Rgcn.rowsAt hN x a) b = Rgcn.rowsAt hN x (fun i => a (ix1 (clampRow M hM (b i)))) := by
  funext j
  rfl

theorem v6_eq (x0 : IVec S262144 32) (x9 : FVec Ideal S1000000x128 .f32) (h0 : ∀ i, 0 ≤ (x0 i).toInt) :
    val_main_v6 (F := Ideal) x0 x9 = Rgcn.rowsAt (N := 1000000) (by decide) x9 x0 := by
  unfold val_main_v6
  rw [v5_eq x0 h0]
  exact gather_colIdx (by decide) gather_S1000000x128_S262144x1_S262144x128_1_0_n_n_0_1_1128_wf x9 x0

theorem v13_eq (x0 : IVec S262144 32) (x1 : IVec S409600 32) (x9 : FVec Ideal S1000000x128 .f32)
    (h0 : ∀ i, 0 ≤ (x0 i).toInt) (h1 : ∀ i, 0 ≤ (x1 i).toInt) :
    val_main_v13 (F := Ideal) x0 x1 x9
      = Rgcn.rowsAt (N := 1000000) (by decide) x9 (fun i => x0 (ix1 (clampRow 262144 (by decide) (x1 i)))) := by
  unfold val_main_v13
  rw [v6_eq x0 x9 h0, v12_eq x1 h1, ← rowsAt_rowsAt]
  exact gather_colIdx (by decide) gather_S262144x128_S409600x1_S409600x128_1_0_n_n_0_1_1128_wf _ x1

theorem v20_eq (x3 : IVec S409600 32) (x11 : FVec Ideal S64x8 .f32) (h3 : ∀ i, 0 ≤ (x3 i).toInt) :
    val_main_v20 (F := Ideal) x3 x11 = Rgcn.rowsAt (N := 64) (by decide) x11 x3 := by
  unfold val_main_v20
  rw [v19_eq x3 h3]
  exact gather_colIdx (by decide) gather_S64x8_S409600x1_S409600x8_1_0_n_n_0_1_18_wf x11 x3

/-! ## The zero arrays and the bias rows -/

theorem zero_f32 : FloatOps.ofBits (F := Ideal) .f32 0x00000000#32 = (0 : EReal) := Ideal.ofBits_zero_f32

theorem v81_eq : val_main_v81 (F := Ideal) = fun _ => (0 : EReal) := by
  funext i
  rw [val_main_v81_apply, val_main_cst_5_apply]
  exact zero_f32

theorem v162_eq : val_main_v162 (F := Ideal) = fun _ => (0 : EReal) := by
  funext i
  rw [val_main_v162_apply, val_main_cst_11_apply]
  exact zero_f32

theorem call0_v0_eq (i : S16384x128.Idx) : val_main_call0_v0 (F := Ideal) i = (0 : EReal) := by
  rw [val_main_call0_v0_apply, val_main_call0_cst_apply]
  exact zero_f32

theorem v85_eq (x12 : FVec Ideal S128 .f32) (i : S16384x128.Idx) : val_main_v85 (F := Ideal) x12 i = x12 (ix1 (i 1)) := by
  rw [val_main_v85_apply, val_main_v84_apply]
  congr 1
  funext a
  match a with
  | ⟨0, _⟩ => rfl

theorem v166_eq (x15 : FVec Ideal S64 .f32) (i : S1024x64.Idx) : val_main_v166 (F := Ideal) x15 i = x15 (ix1 (i 1)) := by
  rw [val_main_v166_apply, val_main_v165_apply]
  congr 1
  funext a
  match a with
  | ⟨0, _⟩ => rfl

/-! ## The first layer -/

theorem v83_eq (x0 : IVec S262144 32) (x1 x2 x3 : IVec S409600 32) (x4 : FVec Ideal S409600 .f32)
    (x9 : FVec Ideal S1000000x128 .f32) (x10 : FVec Ideal S8x128x128 .f32) (x11 : FVec Ideal S64x8 .f32)
    (h0 : ∀ i, 0 ≤ (x0 i).toInt) (h1 : ∀ i, 0 ≤ (x1 i).toInt) (h3 : ∀ i, 0 ≤ (x3 i).toInt) :
    val_main_v83 (F := Ideal) x0 x1 x2 x3 x4 x9 x10 x11
      = Ideal.hostScatterAdd scatter_S16384x128_S409600x1_S409600x128_1_0_0_1 (fun _ => (0 : EReal)) (Rgcn.colIdx x2)
          (Rgcn.rmsg (Rgcn.rowsAt (N := 1000000) (by decide) x9 (fun i => x0 (ix1 (clampRow 262144 (by decide) (x1 i)))))
            (Rgcn.rowsAt (N := 64) (by decide) x11 x3) x10 x4) := by
  unfold val_main_v83
  rw [v81_eq, v82_eq, msg0, v13_eq x0 x1 x9 h0 h1, v20_eq x3 x11 h3]
  rfl

theorem v86_eq (x0 : IVec S262144 32) (x1 x2 x3 : IVec S409600 32) (x4 : FVec Ideal S409600 .f32)
    (x9 : FVec Ideal S1000000x128 .f32) (x10 : FVec Ideal S8x128x128 .f32) (x11 : FVec Ideal S64x8 .f32)
    (x12 : FVec Ideal S128 .f32)
    (h0 : ∀ i, 0 ≤ (x0 i).toInt) (h1 : ∀ i, 0 ≤ (x1 i).toInt) (h3 : ∀ i, 0 ≤ (x3 i).toInt) :
    val_main_v86 (F := Ideal) x0 x1 x2 x3 x4 x9 x10 x11 x12
      = Rgcn.layer scatter_S16384x128_S409600x1_S409600x128_1_0_0_1
          (Rgcn.rowsAt (N := 1000000) (by decide) x9 (fun i => x0 (ix1 (clampRow 262144 (by decide) (x1 i)))))
          (Rgcn.rowsAt (N := 64) (by decide) x11 x3) x10 x4 x2 x12 := by
  funext i
  rw [val_main_v86_apply, v83_eq x0 x1 x2 x3 x4 x9 x10 x11 h0 h1 h3, v85_eq]
  rfl

theorem v87_eq (x0 : IVec S262144 32) (x1 x2 x3 : IVec S409600 32) (x4 : FVec Ideal S409600 .f32)
    (x9 : FVec Ideal S1000000x128 .f32) (x10 : FVec Ideal S8x128x128 .f32) (x11 : FVec Ideal S64x8 .f32)
    (x12 : FVec Ideal S128 .f32)
    (h0 : ∀ i, 0 ≤ (x0 i).toInt) (h1 : ∀ i, 0 ≤ (x1 i).toInt) (h3 : ∀ i, 0 ≤ (x3 i).toInt) :
    val_main_v87 (F := Ideal) x0 x1 x2 x3 x4 x9 x10 x11 x12
      = Rgcn.relu (Rgcn.layer scatter_S16384x128_S409600x1_S409600x128_1_0_0_1
          (Rgcn.rowsAt (N := 1000000) (by decide) x9 (fun i => x0 (ix1 (clampRow 262144 (by decide) (x1 i)))))
          (Rgcn.rowsAt (N := 64) (by decide) x11 x3) x10 x4 x2 x12) := by
  funext i
  rw [val_main_v87_apply, v86_eq x0 x1 x2 x3 x4 x9 x10 x11 x12 h0 h1 h3, call0_v0_eq]
  rfl

/-! ## The second layer -/

theorem v94_eq (x0 : IVec S262144 32) (x1 x2 x3 : IVec S409600 32) (x4 : FVec Ideal S409600 .f32) (x5 : IVec S20480 32)
    (x9 : FVec Ideal S1000000x128 .f32) (x10 : FVec Ideal S8x128x128 .f32) (x11 : FVec Ideal S64x8 .f32)
    (x12 : FVec Ideal S128 .f32)
    (h0 : ∀ i, 0 ≤ (x0 i).toInt) (h1 : ∀ i, 0 ≤ (x1 i).toInt) (h3 : ∀ i, 0 ≤ (x3 i).toInt) (h5 : ∀ i, 0 ≤ (x5 i).toInt) :
    val_main_v94 (F := Ideal) x0 x1 x2 x3 x4 x5 x9 x10 x11 x12
      = Rgcn.rowsAt (N := 16384) (by decide)
          (Rgcn.relu (Rgcn.layer scatter_S16384x128_S409600x1_S409600x128_1_0_0_1
            (Rgcn.rowsAt (N := 1000000) (by decide) x9 (fun i => x0 (ix1 (clampRow 262144 (by decide) (x1 i)))))
            (Rgcn.rowsAt (N := 64) (by decide) x11 x3) x10 x4 x2 x12)) x5 := by
  unfold val_main_v94
  rw [v87_eq x0 x1 x2 x3 x4 x9 x10 x11 x12 h0 h1 h3, v93_eq x5 h5]
  exact gather_colIdx (by decide) gather_S16384x128_S20480x1_S20480x128_1_0_n_n_0_1_1128_wf _ x5

theorem v101_eq (x7 : IVec S20480 32) (x14 : FVec Ideal S64x8 .f32) (h7 : ∀ i, 0 ≤ (x7 i).toInt) :
    val_main_v101 (F := Ideal) x7 x14 = Rgcn.rowsAt (N := 64) (by decide) x14 x7 := by
  unfold val_main_v101
  rw [v100_eq x7 h7]
  exact gather_colIdx (by decide) gather_S64x8_S20480x1_S20480x8_1_0_n_n_0_1_18_wf x14 x7

/-- The reference's result stage is the specification's forward pass. -/
theorem v167_eq (x0 : IVec S262144 32) (x1 x2 x3 : IVec S409600 32) (x4 : FVec Ideal S409600 .f32) (x5 x6 x7 : IVec S20480 32)
    (x8 : FVec Ideal S20480 .f32) (x9 : FVec Ideal S1000000x128 .f32) (x10 : FVec Ideal S8x128x128 .f32)
    (x11 : FVec Ideal S64x8 .f32) (x12 : FVec Ideal S128 .f32) (x13 : FVec Ideal S8x128x64 .f32) (x14 : FVec Ideal S64x8 .f32)
    (x15 : FVec Ideal S64 .f32)
    (h0 : ∀ i, 0 ≤ (x0 i).toInt) (h1 : ∀ i, 0 ≤ (x1 i).toInt) (h3 : ∀ i, 0 ≤ (x3 i).toInt) (h5 : ∀ i, 0 ≤ (x5 i).toInt)
    (h7 : ∀ i, 0 ≤ (x7 i).toInt) :
    val_main_v167 (F := Ideal) x0 x1 x2 x3 x4 x5 x6 x7 x8 x9 x10 x11 x12 x13 x14 x15
      = Rgcn.outSpec scatter_S16384x128_S409600x1_S409600x128_1_0_0_1 scatter_S1024x64_S20480x1_S20480x64_1_0_0_1
          x0 x1 x2 x3 x4 x5 x6 x7 x8 x9 x10 x11 x12 x13 x14 x15 := by
  funext i
  rw [val_main_v167_apply, v166_eq]
  unfold val_main_v164
  rw [v162_eq, v163_eq, msg1, v94_eq x0 x1 x2 x3 x4 x5 x9 x10 x11 x12 h0 h1 h3 h5, v101_eq x7 x14 h7]
  rfl

theorem value (m : (ℓ : Loc nD τ sig) → Buf (Elt Ideal) ℓ) (c : Dev nD)
    (hd : Rgcn.InDomain (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) :
    Cert.ReferenceIdeal.ValueP.res_main_v167 (F := Ideal) m c
      = Rgcn.outSpec scatter_S16384x128_S409600x1_S409600x128_1_0_0_1 scatter_S1024x64_S20480x1_S20480x64_1_0_0_1
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (val_main_v167_eq (F := Ideal) m c).trans
    (v167_eq _ _ _ _ _ _ _ _ _ _ _ _ _ _ _ _ (fun i => (hd.srcIds_rng i).1) (fun i => (hd.e0Src_rng i).1)
      (fun i => (hd.e0Type_rng i).1) (fun i => (hd.e1Src_rng i).1) (fun i => (hd.e1Type_rng i).1))

end Cert.ReferenceIdeal.RVal

end
-- ==== Proof.lean ====
/-
  The certificate of a two-layer relational graph convolution with basis decomposition: a kernel that, per layer,
  looks the source rows up, folds the edge weight into the eight basis coefficients, contracts the rows against the
  eight bases laid side by side in one matrix product and sums the eight scaled slices — against the reference, which
  contracts against each basis, scales, sums, and multiplies by the weight last. On real inputs with every table
  index in range the two compute one function of the sixteen inputs (Proof/Spec.lean's `Rgcn.outSpec`): the lookups
  agree because every index is in range (the kernel fills out-of-range reads, the reference clamps them), and the
  messages agree because multiplication distributes over the finite sums of real numbers (`Rgcn.kmsg_eq_rmsg`),
  every intermediate entry being a real number. The destinations' sums and the biases are the same operations on
  both sides. The kernel program's value is read off its generated frame (Proof/KRun.lean, Proof/KHost.lean), the
  reference's off its run (Proof/RefRun.lean, Proof/RValue.lean); the precondition is read in Proof/PreFacts.lean.
-/
import proofs.«426843_j75857712381962_3_alg».proof.Defs
import proofs.«426843_j75857712381962_3_alg».proof.Proof.Gen.Kernel
import proofs.«426843_j75857712381962_3_alg».proof.Proof.Gen.Kernel.Frame
import proofs.«426843_j75857712381962_3_alg».proof.Proof.Gen.KernelIdeal
import proofs.«426843_j75857712381962_3_alg».proof.Proof.Gen.KernelIdeal.Frame
import proofs.«426843_j75857712381962_3_alg».proof.Proof.Gen.ReferenceIdeal
import proofs.«426843_j75857712381962_3_alg».proof.Proof.Gen.Pre_finite_inputs
import proofs.«426843_j75857712381962_3_alg».proof.Proof.Spec
import proofs.«426843_j75857712381962_3_alg».proof.Proof.PreFacts
import proofs.«426843_j75857712381962_3_alg».proof.Proof.KRun
import proofs.«426843_j75857712381962_3_alg».proof.Proof.KHost
import proofs.«426843_j75857712381962_3_alg».proof.Proof.RefRun
import proofs.«426843_j75857712381962_3_alg».proof.Proof.RValue
import Idealize.ShloMosaic.Adequacy
import Idealize.ShloMosaic.Init

noncomputable section

namespace Cert.Proof

open Idealize.ShloMosaic Idealize.SL.Sem

/-- The two programs' scatter records are one record. -/
theorem sc1_eq : Cert.ReferenceIdeal.scatter_S16384x128_S409600x1_S409600x128_1_0_0_1
    = Cert.KernelIdeal.scatter_S16384x128_S409600x1_S409600x128_1_0_0_1 := rfl
theorem sc2_eq : Cert.ReferenceIdeal.scatter_S1024x64_S20480x1_S20480x64_1_0_0_1
    = Cert.KernelIdeal.scatter_S1024x64_S20480x1_S20480x64_1_0_0_1 := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- Both programs end with the specification's function of the (agreeing) inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd : ∀ c : Dev Cert.KernelIdeal.nD, Rgcn.InDomain (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) :=
    fun c => Cert.PreFacts.inDomain_of_pre _ _ _ _ _ _ _ _ _ _ _ _ _ _ _ _ (hpre c)
  refine ⟨fun c => Rgcn.outSpec Cert.KernelIdeal.scatter_S16384x128_S409600x1_S409600x128_1_0_0_1
      Cert.KernelIdeal.scatter_S1024x64_S20480x1_S20480x64_1_0_0_1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.KVal.value m ρ c (hd c)), (h c).2⟩)
      (Cert.KernelIdeal.KVal.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14, e15⟩ := hagree c
    have hd' : Rgcn.InDomain (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) := by
      rw [e0, e1, e3, e4, e5, e7, e8, e9, e10, e11, e12, e13, e14, e15]; exact hd c
    rw [Cert.ReferenceIdeal.RVal.value m' c hd', e0, e1, e2, e3, e4, e5, e6, e7, e8, e9, e10, e11, e12, e13, e14, e15, sc1_eq, sc2_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
